-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x600000 : Shape := ⟨2, ![2, 600000]⟩
abbrev S600000x3 : Shape := ⟨2, ![600000, 3]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S600000x3 : S_.BroadcastsInDim S600000x3 (![] : Fin 0 → Fin S600000x3.rank)
  reducesTo_S600000x3_S_d0_1 : S600000x3.ReducesTo [0, 1] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg9 : FVec F S128 .f32) (main_arg10 : FVec F S3x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S64x128 .f32) (main_arg7 : FVec F S128 .f32) (main_arg8 : FVec F S128x128 .f32) (main_arg9 : FVec F S128 .f32) (main_arg10 : FVec F S3x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x64 .f32) (main_arg1 : IVec S2x600000 32) (main_arg2 : FVec F S600000x3 .f32) (main_arg3 : IVec S50000 32) (main_arg4 : FVec F S3x64 .f32) (main_arg5 : FVec F S64 .f32) (main_arg6 : FVec F S64x128 .f32) (main_arg7 : FVec F S128 .f32) (main_arg8 : FVec F S128x128 .f32) (main_arg9 : FVec F S128 .f32) (main_arg10 : FVec F S3x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S600000x3 .f32 := Host.absf main_arg2
  let main_cst_0 : FVec F S_ .f32 := constant S_ .f32 0x7F800000#32
  let main_v5 : FVec F S600000x3 .f32 := broadcastInDim S600000x3 ![] bcast_S_S600000x3 main_cst_0
  let main_v6 : IVec S600000x3 1 := cmpf .olt main_v4 main_v5
  let main_c_1 : IVec S_ 1 := constantI S_ 1 1#1
  let main_v7 : IVec S_ 1 := (fun x v => Host.reduce IntOp.andi x v reducesTo_S600000x3_S_d0_1 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x600000 : Shape := ⟨2, ![2, 600000]⟩
abbrev S600000x3 : Shape := ⟨2, ![600000, 3]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S1x600000 : Shape := ⟨2, ![1, 600000]⟩
abbrev S600000 : Shape := ⟨1, ![600000]⟩
abbrev S50000x1 : Shape := ⟨2, ![50000, 1]⟩
abbrev S_ : Shape := ⟨0, ![]⟩
abbrev S600000x1 : Shape := ⟨2, ![600000, 1]⟩
abbrev S600000x64 : Shape := ⟨2, ![600000, 64]⟩
abbrev S606208x64 : Shape := ⟨2, ![606208, 64]⟩
abbrev S606208x3 : Shape := ⟨2, ![606208, 3]⟩
abbrev S8192x64 : Shape := ⟨2, ![8192, 64]⟩
abbrev S8192x3 : Shape := ⟨2, ![8192, 3]⟩
abbrev S1x64 : Shape := ⟨2, ![1, 64]⟩
abbrev S50000x128 : Shape := ⟨2, ![50000, 128]⟩
abbrev S1000x64 : Shape := ⟨2, ![1000, 64]⟩
abbrev S1000x128 : Shape := ⟨2, ![1000, 128]⟩
abbrev S1x128 : Shape := ⟨2, ![1, 128]⟩
abbrev S600000x128 : Shape := ⟨2, ![600000, 128]⟩
abbrev S606208x128 : Shape := ⟨2, ![606208, 128]⟩
abbrev S8192x128 : Shape := ⟨2, ![8192, 128]⟩
abbrev S2x64x128 : Shape := ⟨3, ![2, 64, 128]⟩
abbrev S2x64x1 : Shape := ⟨3, ![2, 64, 1]⟩
abbrev S1000x1 : Shape := ⟨2, ![1000, 1]⟩
abbrev S1x64x128 : Shape := ⟨3, ![1, 64, 128]⟩
abbrev S1x64x1 : Shape := ⟨3, ![1, 64, 1]⟩
abbrev S1000 : Shape := ⟨1, ![1000]⟩
abbrev S64x1000 : Shape := ⟨2, ![64, 1000]⟩
abbrev S64x1 : Shape := ⟨2, ![64, 1]⟩

abbrev nBuf : Space → Nat
  | .hbm => 94
  | .vmem => 40
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S600000x3, .f32⟩
  | .hbm, ⟨3, _⟩ => ⟨S50000, .i32⟩
  | .hbm, ⟨4, _⟩ => ⟨S3x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S50000x1, .i32⟩
  | .hbm, ⟨21, _⟩ => ⟨S50000x64, .bf16⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x64, .bf16⟩
  | .hbm, ⟨31, _⟩ => ⟨S_, .i32⟩
  | .hbm, ⟨32, _⟩ => ⟨S_, .bf16⟩
  | .hbm, ⟨33, _⟩ => ⟨S606208x64, .bf16⟩
  | .hbm, ⟨34, _⟩ => ⟨S_, .i32⟩
  | .hbm, ⟨35, _⟩ => ⟨S_, .f32⟩
  | .hbm, ⟨36, _⟩ => ⟨S606208x3, .f32⟩
  | .hbm, ⟨37, _⟩ => ⟨S606208x64, .bf16⟩
  | .hbm, ⟨38, _⟩ => ⟨S600000x64, .bf16⟩
  | .hbm, ⟨39, _⟩ => ⟨S600000x64, .f32⟩
  | .hbm, ⟨40, _⟩ => ⟨S_, .f32⟩
  | .hbm, ⟨41, _⟩ => ⟨S50000x64, .f32⟩
  | .hbm, ⟨42, _⟩ => ⟨S600000x1, .i32⟩
  | .hbm, ⟨43, _⟩ => ⟨S50000x64, .f32⟩
  | .hbm, ⟨44, _⟩ => ⟨S_, .i32⟩
  | .hbm, ⟨45, _⟩ => ⟨S_, .f32⟩
  | .hbm, ⟨46, _⟩ => ⟨S50000x64, .f32⟩
  | .hbm, ⟨47, _⟩ => ⟨S_, .i32⟩
  | .hbm, ⟨48, _⟩ => ⟨S_, .f32⟩
  | .hbm, ⟨49, _⟩ => ⟨S50000x64, .f32⟩
  | .hbm, ⟨50, _⟩ => ⟨S50000x128, .f32⟩
  | .hbm, ⟨51, _⟩ => ⟨S50000x128, .bf16⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x128, .bf16⟩
  | .hbm, ⟨61, _⟩ => ⟨S_, .i32⟩
  | .hbm, ⟨62, _⟩ => ⟨S_, .bf16⟩
  | .hbm, ⟨63, _⟩ => ⟨S606208x128, .bf16⟩
  | .hbm, ⟨64, _⟩ => ⟨S_, .i32⟩
  | .hbm, ⟨65, _⟩ => ⟨S_, .f32⟩
  | .hbm, ⟨66, _⟩ => ⟨S606208x3, .f32⟩
  | .hbm, ⟨67, _⟩ => ⟨S606208x128, .bf16⟩
  | .hbm, ⟨68, _⟩ => ⟨S600000x128, .bf16⟩
  | .hbm, ⟨69, _⟩ => ⟨S600000x128, .f32⟩
  | .hbm, ⟨70, _⟩ => ⟨S_, .f32⟩
  | .hbm, ⟨71, _⟩ => ⟨S50000x128, .f32⟩
  | .hbm, ⟨72, _⟩ => ⟨S600000x1, .i32⟩
  | .hbm, ⟨73, _⟩ => ⟨S50000x128, .f32⟩
  | .hbm, ⟨74, _⟩ => ⟨S_, .i32⟩
  | .hbm, ⟨75, _⟩ => ⟨S_, .f32⟩
  | .hbm, ⟨76, _⟩ => ⟨S50000x128, .f32⟩
  | .hbm, ⟨77, _⟩ => ⟨S_, .i32⟩
  | .hbm, ⟨78, _⟩ => ⟨S_, .f32⟩
  | .hbm, ⟨79, _⟩ => ⟨S50000x128, .f32⟩
  | .hbm, ⟨80, _⟩ => ⟨S_, .i32⟩
  | .hbm, ⟨81, _⟩ => ⟨S_, .i32⟩
  | .hbm, ⟨82, _⟩ => ⟨S50000x1, .i32⟩
  | .hbm, ⟨83, _⟩ => ⟨S2x64x128, .f32⟩
  | .hbm, ⟨84, _⟩ => ⟨S2x64x1, .f32⟩
  | .hbm, ⟨85, _⟩ => ⟨S_, .f32⟩
  | .hbm, ⟨86, _⟩ => ⟨S64x128, .f32⟩
  | .hbm, ⟨87, _⟩ => ⟨S_, .f32⟩
  | .hbm, ⟨88, _⟩ => ⟨S64x1, .f32⟩
  | .hbm, ⟨89, _⟩ => ⟨S_, .f32⟩
  | .hbm, ⟨90, _⟩ => ⟨S64x1, .f32⟩
  | .hbm, ⟨91, _⟩ => ⟨S64x1, .f32⟩
  | .hbm, ⟨92, _⟩ => ⟨S64x128, .f32⟩
  | .hbm, ⟨93, _⟩ => ⟨S64x128, .f32⟩
  | .local _ .vmem, ⟨0, _⟩ => ⟨S8192x64, .bf16⟩
  | .local _ .vmem, ⟨1, _⟩ => ⟨S8192x64, .bf16⟩
  | .local _ .vmem, ⟨2, _⟩ => ⟨S8192x3, .f32⟩
  | .local _ .vmem, ⟨3, _⟩ => ⟨S8192x3, .f32⟩
  | .local _ .vmem, ⟨4, _⟩ => ⟨S3x64, .f32⟩
  | .local _ .vmem, ⟨5, _⟩ => ⟨S64, .f32⟩
  | .local _ .vmem, ⟨6, _⟩ => ⟨S8192x64, .bf16⟩
  | .local _ .vmem, ⟨7, _⟩ => ⟨S8192x64, .bf16⟩
  | .local _ .vmem, ⟨8, _⟩ => ⟨S1000x64, .f32⟩
  | .local _ .vmem, ⟨9, _⟩ => ⟨S1000x64, .f32⟩
  | .local _ .vmem, ⟨10, _⟩ => ⟨S1000x64, .f32⟩
  | .local _ .vmem, ⟨11, _⟩ => ⟨S1000x64, .f32⟩
  | .local _ .vmem, ⟨12, _⟩ => ⟨S64x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S1000x128, .f32⟩
  | .local _ .vmem, ⟨17, _⟩ => ⟨S1000x128, .f32⟩
  | .local _ .vmem, ⟨18, _⟩ => ⟨S8192x128, .bf16⟩
  | .local _ .vmem, ⟨19, _⟩ => ⟨S8192x128, .bf16⟩
  | .local _ .vmem, ⟨20, _⟩ => ⟨S8192x3, .f32⟩
  | .local _ .vmem, ⟨21, _⟩ => ⟨S8192x3, .f32⟩
  | .local _ .vmem, ⟨22, _⟩ => ⟨S3x128, .f32⟩
  | .local _ .vmem, ⟨23, _⟩ => ⟨S128, .f32⟩
  | .local _ .vmem, ⟨24, _⟩ => ⟨S8192x128, .bf16⟩
  | .local _ .vmem, ⟨25, _⟩ => ⟨S8192x128, .bf16⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | .local _ .vmem, ⟨30, _⟩ => ⟨S128x128, .f32⟩
  | .local _ .vmem, ⟨31, _⟩ => ⟨S128, .f32⟩
  | .local _ .vmem, ⟨32, _⟩ => ⟨S128x128, .f32⟩
  | .local _ .vmem, ⟨33, _⟩ => ⟨S128, .f32⟩
  | .local _ .vmem, ⟨34, _⟩ => ⟨S1000x1, .i32⟩
  | .local _ .vmem, ⟨35, _⟩ => ⟨S1000x1, .i32⟩
  | .local _ .vmem, ⟨36, _⟩ => ⟨S1x64x128, .f32⟩
  | .local _ .vmem, ⟨37, _⟩ => ⟨S1x64x128, .f32⟩
  | .local _ .vmem, ⟨38, _⟩ => ⟨S1x64x1, .f32⟩
  | .local _ .vmem, ⟨39, _⟩ => ⟨S1x64x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_call0_v0 : Ref sig .tc := ⟨.hbm, 32, rfl⟩
abbrev main_v13 : Ref sig .tc := ⟨.hbm, 33, rfl⟩
abbrev main_c_2 : Ref sig .tc := ⟨.hbm, 34, rfl⟩
abbrev main_call1_v0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_call2_v0 : Ref sig .tc := ⟨.hbm, 45, rfl⟩
abbrev main_v21 : Ref sig .tc := ⟨.hbm, 46, rfl⟩
abbrev main_c_4 : Ref sig .tc := ⟨.hbm, 47, rfl⟩
abbrev main_call3_v0 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_c_5 : Ref sig .tc := ⟨.hbm, 52, rfl⟩
abbrev main_v25 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_call4_v0 : Ref sig .tc := ⟨.hbm, 62, rfl⟩
abbrev main_v32 : Ref sig .tc := ⟨.hbm, 63, rfl⟩
abbrev main_c_8 : Ref sig .tc := ⟨.hbm, 64, rfl⟩
abbrev main_call5_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_10 : Ref sig .tc := ⟨.hbm, 74, rfl⟩
abbrev main_call6_v0 : Ref sig .tc := ⟨.hbm, 75, rfl⟩
abbrev main_v40 : Ref sig .tc := ⟨.hbm, 76, rfl⟩
abbrev main_c_11 : Ref sig .tc := ⟨.hbm, 77, rfl⟩
abbrev main_call7_v0 : Ref sig .tc := ⟨.hbm, 78, rfl⟩
abbrev main_v41 : Ref sig .tc := ⟨.hbm, 79, rfl⟩
abbrev main_c_12 : Ref sig .tc := ⟨.hbm, 80, rfl⟩
abbrev main_call8_v0 : Ref sig .tc := ⟨.hbm, 81, rfl⟩
abbrev main_v42 : Ref sig .tc := ⟨.hbm, 82, rfl⟩
abbrev main_v43_0 : Ref sig .tc := ⟨.hbm, 83, rfl⟩
abbrev main_v43_1 : Ref sig .tc := ⟨.hbm, 84, rfl⟩
abbrev main_cst_13 : Ref sig .tc := ⟨.hbm, 85, rfl⟩
abbrev main_v44 : Ref sig .tc := ⟨.hbm, 86, rfl⟩
abbrev main_cst_14 : Ref sig .tc := ⟨.hbm, 87, rfl⟩
abbrev main_v45 : Ref sig .tc := ⟨.hbm, 88, rfl⟩
abbrev main_cst_15 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc3_sem7_0 : DmaSem sig := 36
abbrev cc3_sem7_1 : DmaSem sig := 37
abbrev cc3_sem8_0 : DmaSem sig := 38
abbrev cc3_sem8_1 : DmaSem sig := 39

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![74], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8192x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 25], ![false, false]⟩

def cc3_transform_0 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S1000x1 .i32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x64x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x64x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  pads_S600000x64_S606208x64_062080_000 : S600000x64.Pads (![0, 0] : Fin 2 → Nat) ![6208, 0] ![0, 0] S606208x64
  h_S_ : 0 < S_.numel
  pads_S600000x3_S606208x3_062080_000 : S600000x3.Pads (![0, 0] : Fin 2 → Nat) ![6208, 0] ![0, 0] S606208x3
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  inb_S3x64_S3x64_0_0 : ∀ a, (![0, 0] : Fin 2 → Nat) a + S3x64.size a ≤ S3x64.size a
  h_S3x64 : 0 < S3x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  packedbf16_S8192x64_S8192x64_0_0 : (Rect.unit (s := S8192x64) ![0, 0] S8192x64.size inb_S8192x64_S8192x64_0_0).PackedRows (EltTy.packing .bf16)
  slices_S606208x64_S600000x64_0_0 : S606208x64.Slices ![0, 0] S600000x64
  bcast_S_S50000x64 : S_.BroadcastsInDim S50000x64 (![] : Fin 0 → Fin S50000x64.rank)
  pads_S50000x64_S50000x64_000_000 : S50000x64.Pads (![0, 0] : Fin 2 → Nat) ![0, 0] ![0, 0] S50000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x128_S128x128_0_0 : ∀ a, (![0, 0] : Fin 2 → Nat) a + S128x128.size a ≤ S128x128.size a
  h_S128x128 : 0 < S128x128.numel
  inb_S1000x128_S1000x128_0_0 : ∀ a, (![0, 0] : Fin 2 → Nat) a + S1000x128.size a ≤ S1000x128.size a
  h_S1000x128 : 0 < S1000x128.numel
  pads_S600000x128_S606208x128_062080_000 : S600000x128.Pads (![0, 0] : Fin 2 → Nat) ![6208, 0] ![0, 0] S606208x128
  inb_S3x128_S3x128_0_0 : ∀ a, (![0, 0] : Fin 2 → Nat) a + S3x128.size a ≤ S3x128.size a
  h_S3x128 : 0 < S3x128.numel
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  packedbf16_S8192x128_S8192x128_0_0 : (Rect.unit (s := S8192x128) ![0, 0] S8192x128.size inb_S8192x128_S8192x128_0_0).PackedRows (EltTy.packing .bf16)
  slices_S606208x128_S600000x128_0_0 : S606208x128.Slices ![0, 0] S600000x128
  bcast_S_S50000x128 : S_.BroadcastsInDim S50000x128 (![] : Fin 0 → Fin S50000x128.rank)
  pads_S50000x128_S50000x128_000_000 : S50000x128.Pads (![0, 0] : Fin 2 → Nat) ![0, 0] ![0, 0] S50000x128
  pads_S50000x1_S50000x1_000_000 : S50000x1.Pads (![0, 0] : Fin 2 → Nat) ![0, 0] ![0, 0] S50000x1
  inb_S1x64x128_S1x64x128_0_0_0 : ∀ a, (![0, 0, 0] : Fin 3 → Nat) a + S1x64x128.size a ≤ S1x64x128.size a
  h_S1x64x128 : 0 < S1x64x128.numel
  inb_S1x64x1_S1x64x1_0_0_0 : ∀ a, (![0, 0, 0] : Fin 3 → Nat) a + S1x64x1.size a ≤ S1x64x1.size a
  h_S1x64x1 : 0 < S1x64x1.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  shapeCasts_S1000x1_S1000 : S1000x1.ShapeCasts S1000
  iota_S1000x64_d1_w32 : S1000x64.Iotas .tc 32 [1]
  shapeCasts_S1000_S1000x1 : S1000.ShapeCasts S1000x1
  broadcasts_S1000x1_S1000x64 : S1000x1.Broadcasts S1000x64
  natLt_1_32 : 1 < 32
  shapeCasts_S1x64x128_S64x128 : S1x64x128.ShapeCasts S64x128
  transposes_S1000x64_p1_0_S64x1000 : S1000x64.Transposes [1, 0] S64x1000
  shapeCasts_S64x128_S1x64x128 : S64x128.ShapeCasts S1x64x128
  shapeCasts_S1x64x1_S64x1 : S1x64x1.ShapeCasts S64x1
  reduces_S1000x64_S64 : S1000x64.Reduces [0] S64
  transposes_S1x64_p1_0_S64x1 : S1x64.Transposes [1, 0] S64x1
  shapeCasts_S64x1_S1x64x1 : S64x1.ShapeCasts S1x64x1
  reducesTo_S2x64x128_S64x128_d0 : S2x64x128.ReducesTo [0] S64x128
  reducesTo_S2x64x1_S64x1_d0 : S2x64x1.ReducesTo [0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  gather_S50000x64_S600000x1_S600000x64_1_0_n_n_0_1_164_wf : GatherDims.WF S50000x64 S600000x1 S600000x64 [1] [0] [] [0] [] 1 ![1, 64]
  dot_S8192x3_S3x64_S8192x64_1_0_0_1_n_n_wf : DotDims.WF S8192x3 S3x64 S8192x64 [1] [0] [0] [1] [] []
  scatter_S50000x64_S600000x1_S600000x64_1_0_0_1_wf : ScatterDims.WF S50000x64 S600000x1 S600000x64 [1] [0] [0] 1
  dot_S1000x64_S64x128_S1000x128_1_0_0_1_n_n_wf : DotDims.WF S1000x64 S64x128 S1000x128 [1] [0] [0] [1] [] []
  dot_S1000x128_S128x128_S1000x128_1_0_0_1_n_n_wf : DotDims.WF S1000x128 S128x128 S1000x128 [1] [0] [0] [1] [] []
  gather_S50000x128_S600000x1_S600000x128_1_0_n_n_0_1_1128_wf : GatherDims.WF S50000x128 S600000x1 S600000x128 [1] [0] [] [0] [] 1 ![1, 128]
  dot_S8192x3_S3x128_S8192x128_1_0_0_1_n_n_wf : DotDims.WF S8192x3 S3x128 S8192x128 [1] [0] [0] [1] [] []
  scatter_S50000x128_S600000x1_S600000x128_1_0_0_1_wf : ScatterDims.WF S50000x128 S600000x1 S600000x128 [1] [0] [0] 1
  dot_S64x1000_S1000x128_S64x128_1_0_0_1_n_n_wf : DotDims.WF S64x1000 S1000x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S606208x64.size a
  hwx0_0 : ∀ i : grid0.Coords, EltTy.bits .bf16 = 32 ∨ (Rect.block (s := S606208x64) S8192x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S606208x3.size a
  hwx0_1 : ∀ i : grid0.Coords, EltTy.bits .f32 = 32 ∨ (Rect.block (s := S606208x3) S8192x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S606208x64.size a
  hwx0_4 : ∀ i : grid0.Coords, EltTy.bits .bf16 = 32 ∨ (Rect.block (s := S606208x64) S8192x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S50000x64.size a
  hwx1_0 : ∀ i : grid1.Coords, EltTy.bits .f32 = 32 ∨ (Rect.block (s := S50000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x64.size a ≤ S50000x64.size a
  hwx1_1 : ∀ i : grid1.Coords, EltTy.bits .f32 = 32 ∨ (Rect.block (s := S50000x64) S1000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S50000x128.size a
  hwx1_6 : ∀ i : grid1.Coords, EltTy.bits .f32 = 32 ∨ (Rect.block (s := S50000x128) S1000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S606208x128.size a
  hwx2_0 : ∀ i : grid2.Coords, EltTy.bits .bf16 = 32 ∨ (Rect.block (s := S606208x128) S8192x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x3.size a ≤ S606208x3.size a
  hwx2_1 : ∀ i : grid2.Coords, EltTy.bits .f32 = 32 ∨ (Rect.block (s := S606208x3) S8192x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x128.size a ≤ S3x128.size a
  hwx2_2 : ∀ i : grid2.Coords, EltTy.bits .f32 = 32 ∨ (Rect.block (s := S3x128) S3x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8192x128.size a ≤ S606208x128.size a
  hwx2_4 : ∀ i : grid2.Coords, EltTy.bits .bf16 = 32 ∨ (Rect.block (s := S606208x128) S8192x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S50000x128.size a
  hwx3_0 : ∀ i : grid3.Coords, EltTy.bits .f32 = 32 ∨ (Rect.block (s := S50000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x128.size a ≤ S50000x128.size a
  hwx3_1 : ∀ i : grid3.Coords, EltTy.bits .f32 = 32 ∨ (Rect.block (s := S50000x128) S1000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x1.size a ≤ S50000x1.size a
  hwx3_6 : ∀ i : grid3.Coords, EltTy.bits .i32 = 32 ∨ (Rect.block (s := S50000x1) S1000x1.size (cc3_transform_6 i) (hinb3_6 i)).WholeWords (EltTy.packing .i32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x64x128.size a ≤ S2x64x128.size a
  hwx3_7 : ∀ i : grid3.Coords, EltTy.bits .f32 = 32 ∨ (Rect.block (s := S2x64x128) S1x64x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S1x64x1.size a ≤ S2x64x1.size a
  hwx3_8 : ∀ i : grid3.Coords, EltTy.bits .f32 = 32 ∨ (Rect.block (s := S2x64x1) S1x64x1.size (cc3_transform_8 i) (hinb3_8 i)).WholeWords (EltTy.packing .f32)

variable [Facts₀]

def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S8192x3_S3x64_S8192x64_1_0_0_1_n_n : DotDims S8192x3 S3x64 S8192x64 where
  lhsContracting := [1]
  rhsContracting := [0]
  lhsNonContracting := [0]
  rhsNonContracting := [1]
  lhsBatch := []
  rhsBatch := []
  wf := dot_S8192x3_S3x64_S8192x64_1_0_0_1_n_n_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S8192x3_S3x128_S8192x128_1_0_0_1_n_n : DotDims S8192x3 S3x128 S8192x128 where
  lhsContracting := [1]
  rhsContracting := [0]
  lhsNonContracting := [0]
  rhsNonContracting := [1]
  lhsBatch := []
  rhsBatch := []
  wf := dot_S8192x3_S3x128_S8192x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S64x1000_S1000x128_S64x128_1_0_0_1_n_n : DotDims S64x1000 S1000x128 S64x128 where
  lhsContracting := [1]
  rhsContracting := [0]
  lhsNonContracting := [0]
  rhsNonContracting := [1]
  lhsBatch := []
  rhsBatch := []
  wf := dot_S64x1000_S1000x128_S64x128_1_0_0_1_n_n_wf

abbrev win0_0 : Pipeline.Window sig grid0 :=
  Pipeline.Window.ofSpec (Memref.whole main_v13) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v21) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S8192x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S3x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S8192x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S1000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg14) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg15) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v42) S1000x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v43_0) S1x64x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v43_1) S1x64x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x600000 : Shape := ⟨2, ![2, 600000]⟩
abbrev S600000x3 : Shape := ⟨2, ![600000, 3]⟩
abbrev S50000 : Shape := ⟨1, ![50000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S3x128 : Shape := ⟨2, ![3, 128]⟩
abbrev S1x600000 : Shape := ⟨2, ![1, 600000]⟩
abbrev S600000 : Shape := ⟨1, ![600000]⟩
abbrev S600000x64 : Shape := ⟨2, ![600000, 64]⟩
abbrev S1x64 : Shape := ⟨2, ![1, 64]⟩
abbrev S_ : Shape := ⟨0, ![]⟩
abbrev S600000x1 : Shape := ⟨2, ![600000, 1]⟩
abbrev S50000x128 : Shape := ⟨2, ![50000, 128]⟩
abbrev S1x128 : Shape := ⟨2, ![1, 128]⟩
abbrev S600000x128 : Shape := ⟨2, ![600000, 128]⟩
abbrev S50000x1 : Shape := ⟨2, ![50000, 1]⟩
abbrev S64x1 : Shape := ⟨2, ![64, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x600000, .i32⟩
  | .hbm, ⟨2, _⟩ => ⟨S600000x3, .f32⟩
  | .hbm, ⟨3, _⟩ => ⟨S50000, .i32⟩
  | .hbm, ⟨4, _⟩ => ⟨S3x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S600000x64, .f32⟩
  | .hbm, ⟨21, _⟩ => ⟨S1x64, .f32⟩
  | .hbm, ⟨22, _⟩ => ⟨S600000x64, .f32⟩
  | .hbm, ⟨23, _⟩ => ⟨S600000x64, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x64, .f32⟩
  | .hbm, ⟨33, _⟩ => ⟨S600000x64, .f32⟩
  | .hbm, ⟨34, _⟩ => ⟨S_, .f32⟩
  | .hbm, ⟨35, _⟩ => ⟨S600000x64, .f32⟩
  | .hbm, ⟨36, _⟩ => ⟨S600000x64, .f32⟩
  | .hbm, ⟨37, _⟩ => ⟨S_, .f32⟩
  | .hbm, ⟨38, _⟩ => ⟨S50000x64, .f32⟩
  | .hbm, ⟨39, _⟩ => ⟨S600000x1, .i32⟩
  | .hbm, ⟨40, _⟩ => ⟨S50000x64, .f32⟩
  | .hbm, ⟨41, _⟩ => ⟨S_, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S600000x128, .f32⟩
  | .hbm, ⟨60, _⟩ => ⟨S1x128, .f32⟩
  | .hbm, ⟨61, _⟩ => ⟨S600000x128, .f32⟩
  | .hbm, ⟨62, _⟩ => ⟨S600000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S600000x128, .f32⟩
  | .hbm, ⟨73, _⟩ => ⟨S_, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S64x128, .f32⟩
  | .hbm, ⟨100, _⟩ => ⟨S50000x1, .i32⟩
  | .hbm, ⟨101, _⟩ => ⟨S64x128, .f32⟩
  | .hbm, ⟨102, _⟩ => ⟨S_, .f32⟩
  | .hbm, ⟨103, _⟩ => ⟨S50000, .f32⟩
  | .hbm, ⟨104, _⟩ => ⟨S_, .f32⟩
  | .hbm, ⟨105, _⟩ => ⟨S64, .f32⟩
  | .hbm, ⟨106, _⟩ => ⟨S50000x1, .i32⟩
  | .hbm, ⟨107, _⟩ => ⟨S64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x128, .f32⟩
  | .hbm, ⟨113, _⟩ => ⟨S64x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_cst : Ref sig .tc := ⟨.hbm, 49, rfl⟩
abbrev main_call1_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call2_cst : Ref sig .tc := ⟨.hbm, 56, rfl⟩
abbrev main_call2_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_2 : Ref sig .tc := ⟨.hbm, 63, rfl⟩
abbrev main_v37 : Ref sig .tc := ⟨.hbm, 64, rfl⟩
abbrev main_v38 : Ref sig .tc := ⟨.hbm, 65, rfl⟩
abbrev main_c_3 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_call3_cst : Ref sig .tc := ⟨.hbm, 73, rfl⟩
abbrev main_call3_v0 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call4_cst : Ref sig .tc := ⟨.hbm, 88, rfl⟩
abbrev main_call4_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call5_cst : Ref sig .tc := ⟨.hbm, 95, rfl⟩
abbrev main_call5_v0 : Ref sig .tc := ⟨.hbm, 96, rfl⟩
abbrev main_v61 : Ref sig .tc := ⟨.hbm, 97, rfl⟩
abbrev main_cst_6 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_7 : Ref sig .tc := ⟨.hbm, 102, rfl⟩
abbrev main_v65 : Ref sig .tc := ⟨.hbm, 103, rfl⟩
abbrev main_cst_8 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_9 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x64 : S_.BroadcastsInDim S600000x64 (![] : Fin 0 → Fin S600000x64.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S600000x3_S3x64_S600000x64_1_0_0_1_n_n_wf : DotDims.WF S600000x3 S3x64 S600000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  dot_S600000x3_S3x128_S600000x128_1_0_0_1_n_n_wf : DotDims.WF S600000x3 S3x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def dot_S600000x3_S3x64_S600000x64_1_0_0_1_n_n : DotDims S600000x3 S3x64 S600000x64 where
  lhsContracting := [1]
  rhsContracting := [0]
  lhsNonContracting := [0]
  rhsNonContracting := [1]
  lhsBatch := []
  rhsBatch := []
  wf := dot_S600000x3_S3x64_S600000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S600000x3_S3x128_S600000x128_1_0_0_1_n_n : DotDims S600000x3 S3x128 S600000x128 where
  lhsContracting := [1]
  rhsContracting := [0]
  lhsNonContracting := [0]
  rhsNonContracting := [1]
  lhsBatch := []
  rhsBatch := []
  wf := dot_S600000x3_S3x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.Spec.lean ====
/-
  The mathematics of the two programs, as functions on arrays of extended reals, index by index.

  A graph network of two message-passing layers and a mean pool. A layer sends along every edge the
  message relu(x[src] + (edge_attr · W_e + b_e)), sums the messages at their target nodes, and passes
  x + sum through two dense layers with relu. The pool averages the node rows of each graph.

  `msg` is one layer's message array from the gathered rows; `mlp` the two dense layers over the
  node table and the summed messages; `poolSums` / `poolCnts` are the per-graph sums and counts
  as the tiled computation forms them: the 50000 node rows cut into 2 halves of 25 tiles of 1000 rows,
  each row weighted by the indicator that its graph id is the graph in question.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Arr2 (a b : Nat) : Type := (⟨2, ![a, b]⟩ : Shape).Idx → EReal
/-- A rank-1 array of extended reals. -/
abbrev Arr1 (a : Nat) : Type := (⟨1, ![a]⟩ : Shape).Idx → EReal
/-- A rank-3 array of extended reals. -/
abbrev Arr3 (a b c : Nat) : Type := (⟨3, ![a, b, c]⟩ : Shape).Idx → EReal

/-- The float zero and one as the programs spell them. -/
abbrev zero : EReal := Ideal.ofBits .f32 0x00000000#32
abbrev one : EReal := Ideal.ofBits .f32 0x3F800000#32

/-- One layer's messages: entry `(e, j)` is relu(xg[e, j] + (∑ₖ ea[e, k] · w[k, j] + b[j])). -/
def msg {E D : Nat} (xg : Arr2 E D) (ea : Arr2 E 3) (w : Arr2 3 D) (b : Arr1 D) : Arr2 E D :=
  fun i => max (xg i + ((∑ k : Fin 3, ea (ix2 (i 0) k) * w (ix2 k (i 1))) + b (ix1 (i 1)))) zero

/-- A dense layer with relu: entry `(n, j)` is relu(∑ₖ x[n, k] · w[k, j] + b[j]). -/
def dense {N K H : Nat} (x : Arr2 N K) (w : Arr2 K H) (b : Arr1 H) : Arr2 N H :=
  fun i => max ((∑ k : Fin K, x (ix2 (i 0) k) * w (ix2 k (i 1))) + b (ix1 (i 1))) zero

/-- What enters the dense layers: 1 · x + agg. -/
def pre {N K : Nat} (x agg : Arr2 N K) : Arr2 N K := fun i => one * x i + agg i

/-- A layer's node update: two dense layers with relu over 1 · x + agg. -/
def mlp {N K H : Nat} (x agg : Arr2 N K) (wa : Arr2 K H) (ba : Arr1 H) (wb : Arr2 H H) (bb : Arr1 H) : Arr2 N H :=
  dense (dense (pre x agg) wa ba) wb bb

/-- The indicator that a graph-id word is graph `g`, as a float. -/
def oh (wd : BitVec 32) (g : Nat) : EReal := if wd = BitVec.ofNat 32 g then 1 else 0

/-- Node row `r` of tile `j` of half `c`. -/
def node (c : Fin 2) (j : Fin 25) (r : Fin 1000) : Fin 50000 :=
  ⟨1000 * (25 * c.val + j.val) + r.val, by have := c.isLt; have := j.isLt; have := r.isLt; omega⟩

/-- Per half `c`: the sum over its 25 tiles of 1000 rows of indicator × row. -/
def poolSums (h : Arr2 50000 128) (b : (⟨2, ![50000, 1]⟩ : Shape).Idx → BitVec 32) : Arr3 2 64 128 :=
  fun i => ∑ j : Fin 25, ∑ r : Fin 1000,
    oh (b (ix2 (node (i 0) j r) 0)) (i 1).val * h (ix2 (node (i 0) j r) (i 2))

/-- Per half `c`: the count of its rows in graph `g`. -/
def poolCnts (b : (⟨2, ![50000, 1]⟩ : Shape).Idx → BitVec 32) : Arr3 2 64 1 :=
  fun i => ∑ j : Fin 25, ∑ r : Fin 1000, oh (b (ix2 (node (i 0) j r) 0)) (i 1).val

/-- The mean from the two halves: (s₀ + s₁) / max (c₀ + c₁) 1. -/
def meanOf (s : Arr3 2 64 128) (n : Arr3 2 64 1) : Arr2 64 128 :=
  fun i => Ideal.div (∑ c : Fin 2, s (ix3 c (i 0) (i 1))) (max (∑ c : Fin 2, n (ix3 c (i 0) 0)) one)

/-- The mean as a segment sum states it: the sum of the rows of graph `g` over max(count, 1). -/
def segMean (h : Arr2 50000 128) (b : (⟨2, ![50000, 1]⟩ : Shape).Idx → BitVec 32) : Arr2 64 128 :=
  fun i => Ideal.div
    (∑ n ∈ Finset.univ.filter (fun n : Fin 50000 => (b (ix2 n 0)).toInt = ((i 0).val : ℤ)), h (ix2 n (i 1)))
    (max ((∑ n ∈ Finset.univ.filter (fun n : Fin 50000 => (b (ix2 n 0)).toInt = ((i 0).val : ℤ)), (1 : EReal))) one)

end Cert.Spec

end
-- ==== Proof.KDefs.lean ====
/-
  The kernel program's value as one function of its sixteen argument arrays.

  Between its four tiled regions the program gathers, pads, slices and scatter-adds on the host. Each name
  below is one array on that road, as a function of the arguments: the edge endpoints read off the edge list
  (`src` with negative indices wrapped by the node count, `dst`), the gathered rows padded to whole tiles
  (`xg1p`, `xg2p`), the messages cut back to the true edge count (`msg1`, `msg2`), the sums at the target
  nodes (`agg1`, `agg2`), the node tables after each layer (`h1`, and the second layer inside `sums`), the
  per-half pooled sums and counts, and the mean (`out`). The tiled regions enter as the functions of
  Spec.lean; a change of float format is the identity on the extended reals and is kept as written.
-/
import proofs.«415540_j56006373540375_3_alg».proof.KernelIdeal
import proofs.«415540_j56006373540375_3_alg».proof.Proof.Gen.KernelIdeal
import proofs.«415540_j56006373540375_3_alg».proof.Proof.Spec

noncomputable section

namespace Cert.KernelIdeal.K

open Cert.KernelIdeal Cert.KernelIdeal.Gen Idealize.ShloMosaic

variable (x0 : (⟨S50000x64, .f32⟩ : BufTy).Contents (Elt Ideal)) (x1 : (⟨S2x600000, .i32⟩ : BufTy).Contents (Elt Ideal))
  (x2 : (⟨S600000x3, .f32⟩ : BufTy).Contents (Elt Ideal)) (x3 : (⟨S50000, .i32⟩ : BufTy).Contents (Elt Ideal))
  (x4 : (⟨S3x64, .f32⟩ : BufTy).Contents (Elt Ideal)) (x5 : (⟨S64, .f32⟩ : BufTy).Contents (Elt Ideal))
  (x6 : (⟨S64x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S3x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-- Row 0 of the edge list: the source node of each edge. -/
def v1 : IVec S600000 32 :=
  shapeCast _ (extractStridedSlice S1x600000 ![0, 0] x1 slices_S2x600000_S1x600000_0_0) shapeCasts_S1x600000_S600000

/-- Row 1 of the edge list: the target node of each edge. -/
def v3 : IVec S600000 32 :=
  shapeCast _ (extractStridedSlice S1x600000 ![1, 0] x1 slices_S2x600000_S1x600000_1_0) shapeCasts_S1x600000_S600000

/-- The source indices as a column, a negative index wrapped by the node count. -/
def src : IVec S600000x1 32 :=
  broadcastInDim S600000x1 ![0] bcast_S600000_S600000x1_0
    (select (cmpi .slt (v1 x1) (broadcastInDim S600000 ![] bcast_S_S600000 (constantI S_ 32 0#32)))
      (addi (v1 x1) (broadcastInDim S600000 ![] bcast_S_S600000 (constantI S_ 32 50000#32))) (v1 x1))

/-- The target indices as a column. -/
def dst : IVec S600000x1 32 := broadcastInDim S600000x1 ![0] bcast_S600000_S600000x1_0 (v3 x1)

/-- Layer 1's gathered source rows, padded with zero rows to 74 tiles of 8192. -/
def xg1p : Vec Ideal S606208x64 .bf16 :=
  pad S606208x64 ![0, 0] ![6208, 0] ![0, 0]
    (Host.gather gather_S50000x64_S600000x1_S600000x64_1_0_n_n_0_1_164 (truncf (F := Ideal) .bf16 x0 bitsLt_bf16_f32) (src x1))
    (sitofp (F := Ideal) .bf16 (constantI S_ 32 0#32)) pads_S600000x64_S606208x64_062080_000 h_S_

/-- The edge attributes padded likewise. -/
def eap : Vec Ideal S606208x3 .f32 :=
  pad S606208x3 ![0, 0] ![6208, 0] ![0, 0] x2 (sitofp (F := Ideal) .f32 (constantI S_ 32 0#32)) pads_S600000x3_S606208x3_062080_000 h_S_

/-- Layer 1's messages, the padding rows cut off. -/
def msg1 : Vec Ideal S600000x64 .f32 :=
  extf (F := Ideal) .f32 (extractStridedSlice S600000x64 ![0, 0]
    (Cert.Spec.msg (E := 606208) (D := 64) (xg1p x0 x1) (eap x2) x4 x5 : Vec Ideal S606208x64 .bf16)
    slices_S606208x64_S600000x64_0_0) bitsLt_bf16_f32

/-- Layer 1's messages summed at their target nodes. -/
def agg1 : Vec Ideal S50000x64 .f32 :=
  Host.scatterAdd (F := Ideal) scatter_S50000x64_S600000x1_S600000x64_1_0_0_1
    (broadcastInDim S50000x64 ![] bcast_S_S50000x64 (constant (F := Ideal) S_ .f32 0x00000000#32)) (dst x1) (msg1 x0 x1 x2 x4 x5)

/-- A pad of no width (the node count is a whole number of tiles). -/
def pad64 (a : Vec Ideal S50000x64 .f32) : Vec Ideal S50000x64 .f32 :=
  pad S50000x64 ![0, 0] ![0, 0] ![0, 0] a (sitofp (F := Ideal) .f32 (constantI S_ 32 0#32)) pads_S50000x64_S50000x64_000_000 h_S_
def pad128 (a : Vec Ideal S50000x128 .f32) : Vec Ideal S50000x128 .f32 :=
  pad S50000x128 ![0, 0] ![0, 0] ![0, 0] a (sitofp (F := Ideal) .f32 (constantI S_ 32 0#32)) pads_S50000x128_S50000x128_000_000 h_S_

/-- The node table after layer 1. -/
def h1 : Vec Ideal S50000x128 .f32 :=
  Cert.Spec.mlp (N := 50000) (K := 64) (H := 128) (pad64 x0) (pad64 (agg1 x0 x1 x2 x4 x5)) x6 x7 x8 x9

/-- Layer 2's gathered source rows, padded. -/
def xg2p : Vec Ideal S606208x128 .bf16 :=
  pad S606208x128 ![0, 0] ![6208, 0] ![0, 0]
    (Host.gather gather_S50000x128_S600000x1_S600000x128_1_0_n_n_0_1_1128
      (truncf (F := Ideal) .bf16 (h1 x0 x1 x2 x4 x5 x6 x7 x8 x9) bitsLt_bf16_f32) (src x1))
    (sitofp (F := Ideal) .bf16 (constantI S_ 32 0#32)) pads_S600000x128_S606208x128_062080_000 h_S_

/-- Layer 2's messages, the padding rows cut off. -/
def msg2 : Vec Ideal S600000x128 .f32 :=
  extf (F := Ideal) .f32 (extractStridedSlice S600000x128 ![0, 0]
    (Cert.Spec.msg (E := 606208) (D := 128) (xg2p x0 x1 x2 x4 x5 x6 x7 x8 x9) (eap x2) x10 x11 : Vec Ideal S606208x128 .bf16)
    slices_S606208x128_S600000x128_0_0) bitsLt_bf16_f32

/-- Layer 2's messages summed at their target nodes. -/
def agg2 : Vec Ideal S50000x128 .f32 :=
  Host.scatterAdd (F := Ideal) scatter_S50000x128_S600000x1_S600000x128_1_0_0_1
    (broadcastInDim S50000x128 ![] bcast_S_S50000x128 (constant (F := Ideal) S_ .f32 0x00000000#32)) (dst x1)
    (msg2 x0 x1 x2 x4 x5 x6 x7 x8 x9 x10 x11)

/-- The graph ids as a column (padded by no rows). -/
def ids : IVec S50000x1 32 :=
  pad S50000x1 ![0, 0] ![0, 0] ![0, 0] (shapeCast _ x3 shapeCasts_S50000_S50000x1) (id (constantI S_ 32 64#32))
    pads_S50000x1_S50000x1_000_000 h_S_

/-- The node table after layer 2. -/
def h2 : Vec Ideal S50000x128 .f32 :=
  Cert.Spec.mlp (N := 50000) (K := 128) (H := 128) (pad128 (h1 x0 x1 x2 x4 x5 x6 x7 x8 x9))
    (pad128 (agg2 x0 x1 x2 x4 x5 x6 x7 x8 x9 x10 x11)) x12 x13 x14 x15

/-- The per-half pooled sums and counts. -/
def sums : Vec Ideal S2x64x128 .f32 := Cert.Spec.poolSums (h2 x0 x1 x2 x4 x5 x6 x7 x8 x9 x10 x11 x12 x13 x14 x15) (ids x3)
def cnts : Vec Ideal S2x64x1 .f32 := Cert.Spec.poolCnts (ids x3)

/-- The program's result: the halves added, the sums over max(count, 1). -/
def out : Vec Ideal S64x128 .f32 :=
  Host.divf (F := Ideal)
    (Host.reduceAdd (F := Ideal) (sums x0 x1 x2 x3 x4 x5 x6 x7 x8 x9 x10 x11 x12 x13 x14 x15) (constant (F := Ideal) S_ .f32 0x00000000#32)
      reducesTo_S2x64x128_S64x128_d0 h_S_)
    (broadcastInDim S64x128 ![0, 1] bcast_S64x1_S64x128_0_1
      (maximumf (F := Ideal) (Host.reduceAdd (F := Ideal) (cnts x3) (constant (F := Ideal) S_ .f32 0x00000000#32) reducesTo_S2x64x1_S64x1_d0 h_S_)
        (broadcastInDim S64x1 ![] bcast_S_S64x1 (constant (F := Ideal) S_ .f32 0x3F800000#32))))

end Cert.KernelIdeal.K

end
-- ==== Proof.ChainA.lean ====
/-
  The kernel program's result buffer, read off the fold of buffer contents through @main, is the function
  `K.out` of the sixteen argument arrays.

  The fold alternates stretches of host operations with the four tiled regions. A stretch is read operation by
  operation back to the contents it started from; a region leaves every buffer but its own arrays untouched, and
  leaves in its output array what `Regions` says: the message function, the two dense layers, the pooled sums and
  counts of the arrays it was entered with. Stage by stage: the padded gathered rows and edge attributes enter
  region 0; its messages, cut and summed at the target nodes, enter region 1 beside the node features; the new node
  table is gathered again for region 2; its messages, summed, enter region 3 beside the node table and the graph
  ids; the host adds the two halves and divides.
-/
import proofs.«415540_j56006373540375_3_alg».proof.Proof.Gen.KernelIdeal.Frame
import proofs.«415540_j56006373540375_3_alg».proof.Proof.KDefs

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

/-- What each tiled region leaves in its output array, for any contents `V` it is entered with. -/
structure Regions : Prop where
  r0 : ∀ (V : (c : Dev nD) → (b : Ref sig .tc) → Buf (Elt Ideal) ((c : Thread nD τ).loc b)) (c : Dev nD),
    (dat0 (F := Ideal) V c).arrAt 4 cfg0.N
      = Cert.Spec.msg (E := 606208) (D := 64) (V c main_v13) (V c main_v14) (V c main_arg4) (V c main_arg5)
  r1 : ∀ (V : (c : Dev nD) → (b : Ref sig .tc) → Buf (Elt Ideal) ((c : Thread nD τ).loc b)) (c : Dev nD),
    (dat1 (F := Ideal) V c).arrAt 6 cfg1.N
      = Cert.Spec.mlp (N := 50000) (K := 64) (H := 128) (V c main_v21) (V c main_v22) (V c main_arg6) (V c main_arg7) (V c main_arg8) (V c main_arg9)
  r2 : ∀ (V : (c : Dev nD) → (b : Ref sig .tc) → Buf (Elt Ideal) ((c : Thread nD τ).loc b)) (c : Dev nD),
    (dat2 (F := Ideal) V c).arrAt 4 cfg2.N
      = Cert.Spec.msg (E := 606208) (D := 128) (V c main_v32) (V c main_v33) (V c main_arg10) (V c main_arg11)
  r3s : ∀ (V : (c : Dev nD) → (b : Ref sig .tc) → Buf (Elt Ideal) ((c : Thread nD τ).loc b)) (c : Dev nD),
    (dat3 (F := Ideal) V c).arrAt 7 cfg3.N
      = Cert.Spec.poolSums (Cert.Spec.mlp (N := 50000) (K := 128) (H := 128) (V c main_v40) (V c main_v41) (V c main_arg12) (V c main_arg13) (V c main_arg14) (V c main_arg15)) (V c main_v42)
  r3c : ∀ (V : (c : Dev nD) → (b : Ref sig .tc) → Buf (Elt Ideal) ((c : Thread nD τ).loc b)) (c : Dev nD),
    (dat3 (F := Ideal) V c).arrAt 8 cfg3.N = Cert.Spec.poolCnts (V c main_v42)

variable (m : (ℓ : Loc nD τ sig) → Buf (Elt Ideal) ℓ) (ρ : Dev nD → PrngReg) (c : Dev nD)

/-- Reads a buffer through the stretches of host operations down to the last region boundary. -/
macro "walk" : tactic =>
  `(tactic| (dsimp only [W23, W21, W20, W19, W18, W17, W16, W14, W13, W12, W11, W9, W8, W7, W6, W4, W3, W2, W1, hostOps0, hostOps0_1, hostOps0_2, hostOps0_3, hostOps1, hostOps1_1, hostOps1_2, hostOps1_3, hostOps2, hostOps2_1, hostOps2_2, hostOps2_3, hostOps3, hostOps3_1, hostOps3_2, hostOps3_3, hostOps3_4, hostOps3_5, hostOps4]
             after_results))

/-! ## Up to region 0 -/

theorem w4_v13 : W4 m ρ c (Proc.devRef .tc main_v13) = K.xg1p (m ((c : Thread nD τ).loc main_arg0)) (m ((c : Thread nD τ).loc main_arg1)) := by
  walk; rfl
theorem w4_v14 : W4 m ρ c (Proc.devRef .tc main_v14) = K.eap (m ((c : Thread nD τ).loc main_arg2)) := by
  walk; rfl
theorem w4_arg4 : W4 m ρ c (Proc.devRef .tc main_arg4) = (m ((c : Thread nD τ).loc main_arg4)) := by
  walk
theorem w4_arg5 : W4 m ρ c (Proc.devRef .tc main_arg5) = (m ((c : Thread nD τ).loc main_arg5)) := by
  walk
theorem w4_v1 : W4 m ρ c (Proc.devRef .tc main_v1) = K.v1 (m ((c : Thread nD τ).loc main_arg1)) := by
  walk; rfl
theorem w4_v3 : W4 m ρ c (Proc.devRef .tc main_v3) = K.v3 (m ((c : Thread nD τ).loc main_arg1)) := by
  walk; rfl
theorem w4_v4 : W4 m ρ c (Proc.devRef .tc main_v4) = shapeCast _ (m ((c : Thread nD τ).loc main_arg3)) shapeCasts_S50000_S50000x1 := by
  walk; rfl

/-- Region 0 leaves the padded messages. -/
theorem w5_v15 (R : Regions) : W5 m ρ c (Proc.devRef .tc main_v15)
    = Cert.Spec.msg (E := 606208) (D := 64) (K.xg1p (m ((c : Thread nD τ).loc main_arg0)) (m ((c : Thread nD τ).loc main_arg1))) (K.eap (m ((c : Thread nD τ).loc main_arg2))) (m ((c : Thread nD τ).loc main_arg4)) (m ((c : Thread nD τ).loc main_arg5)) := by
  have h := W5_arr m ρ c 4
  rw [R.r0 (V4 m ρ) c] at h
  dsimp only [V4] at h
  rw [w4_v13 m ρ c, w4_v14 m ρ c, w4_arg4 m ρ c, w4_arg5 m ρ c] at h
  exact h

/-! ## Between region 0 and region 1 -/

theorem w5_v1 : W5 m ρ c (Proc.devRef .tc main_v1) = K.v1 (m ((c : Thread nD τ).loc main_arg1)) := by
  rw [W5_of_ne m ρ c main_v1 (by decide)]; exact w4_v1 m ρ c
theorem w5_v3 : W5 m ρ c (Proc.devRef .tc main_v3) = K.v3 (m ((c : Thread nD τ).loc main_arg1)) := by
  rw [W5_of_ne m ρ c main_v3 (by decide)]; exact w4_v3 m ρ c
theorem w5_v4 : W5 m ρ c (Proc.devRef .tc main_v4) = shapeCast _ (m ((c : Thread nD τ).loc main_arg3)) shapeCasts_S50000_S50000x1 := by
  rw [W5_of_ne m ρ c main_v4 (by decide)]; exact w4_v4 m ρ c
theorem w5_arg0 : W5 m ρ c (Proc.devRef .tc main_arg0) = (m ((c : Thread nD τ).loc main_arg0)) := by
  rw [W5_of_ne m ρ c main_arg0 (by decide)]
  walk
theorem w5_arg2 : W5 m ρ c (Proc.devRef .tc main_arg2) = (m ((c : Thread nD τ).loc main_arg2)) := by
  rw [W5_of_ne m ρ c main_arg2 (by decide)]
  walk

theorem w9_v21 : W9 m ρ c (Proc.devRef .tc main_v21) = K.pad64 (m ((c : Thread nD τ).loc main_arg0)) := by
  walk
  rw [w5_arg0 m ρ c]
  rfl
theorem w9_v22 (R : Regions) : W9 m ρ c (Proc.devRef .tc main_v22) = K.pad64 (K.agg1 (m ((c : Thread nD τ).loc main_arg0)) (m ((c : Thread nD τ).loc main_arg1)) (m ((c : Thread nD τ).loc main_arg2)) (m ((c : Thread nD τ).loc main_arg4)) (m ((c : Thread nD τ).loc main_arg5))) := by
  walk
  rw [w5_v15 m ρ c R, w5_v3 m ρ c]
  rfl
theorem w9_arg6 : W9 m ρ c (Proc.devRef .tc main_arg6) = (m ((c : Thread nD τ).loc main_arg6)) := by
  walk
  rw [W5_of_ne m ρ c main_arg6 (by decide)]
  walk
theorem w9_arg7 : W9 m ρ c (Proc.devRef .tc main_arg7) = (m ((c : Thread nD τ).loc main_arg7)) := by
  walk
  rw [W5_of_ne m ρ c main_arg7 (by decide)]
  walk
theorem w9_arg8 : W9 m ρ c (Proc.devRef .tc main_arg8) = (m ((c : Thread nD τ).loc main_arg8)) := by
  walk
  rw [W5_of_ne m ρ c main_arg8 (by decide)]
  walk
theorem w9_arg9 : W9 m ρ c (Proc.devRef .tc main_arg9) = (m ((c : Thread nD τ).loc main_arg9)) := by
  walk
  rw [W5_of_ne m ρ c main_arg9 (by decide)]
  walk

/-- Region 1 leaves the node table after layer 1. -/
theorem w10_v23 (R : Regions) : W10 m ρ c (Proc.devRef .tc main_v23) = K.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := W10_arr m ρ c 6
  rw [R.r1 (V9 m ρ) c] at h
  dsimp only [V9] at h
  rw [w9_v21 m ρ c, w9_v22 m ρ c R, w9_arg6 m ρ c, w9_arg7 m ρ c, w9_arg8 m ρ c, w9_arg9 m ρ c] at h
  exact h

end Cert.KernelIdeal.Chain

end
-- ==== Proof.ChainB.lean ====
/-
  The fold through @main, continued: from the node table region 1 leaves to the padded messages region 2 leaves.
  The node table is gathered again at the source indices and padded to whole tiles beside the padded edge attributes.
-/
import proofs.«415540_j56006373540375_3_alg».proof.Proof.ChainA

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

-- a region's exit contents are read through their two lemmas, never unfolded
attribute [local irreducible] W5 W10 W15 W22

variable (m : (ℓ : Loc nD τ sig) → Buf (Elt Ideal) ℓ) (ρ : Dev nD → PrngReg) (c : Dev nD)

/-! ## Between region 1 and region 2 -/

theorem w10_v1 : W10 m ρ c (Proc.devRef .tc main_v1) = K.v1 (m ((c : Thread nD τ).loc main_arg1)) := by
  rw [W10_of_ne m ρ c main_v1 (by decide)]; walk; exact w5_v1 m ρ c
theorem w10_v3 : W10 m ρ c (Proc.devRef .tc main_v3) = K.v3 (m ((c : Thread nD τ).loc main_arg1)) := by
  rw [W10_of_ne m ρ c main_v3 (by decide)]; walk; exact w5_v3 m ρ c
theorem w10_v4 : W10 m ρ c (Proc.devRef .tc main_v4) = shapeCast _ (m ((c : Thread nD τ).loc main_arg3)) shapeCasts_S50000_S50000x1 := by
  rw [W10_of_ne m ρ c main_v4 (by decide)]; walk; exact w5_v4 m ρ c
theorem w10_arg2 : W10 m ρ c (Proc.devRef .tc main_arg2) = (m ((c : Thread nD τ).loc main_arg2)) := by
  rw [W10_of_ne m ρ c main_arg2 (by decide)]; walk; exact w5_arg2 m ρ c

/-- The stretch before region 2 as a function of what it starts from: a node table's rows gathered at the source
    indices (a negative index wrapped by the node count) and padded with zero rows to 74 tiles of 8192. -/
def gatherPad (h : Vec Ideal S50000x128 .f32) (v : IVec S600000 32) : Vec Ideal S606208x128 .bf16 :=
  pad S606208x128 ![0, 0] ![6208, 0] ![0, 0]
    (Host.gather gather_S50000x128_S600000x1_S600000x128_1_0_n_n_0_1_1128 (truncf (F := Ideal) .bf16 h bitsLt_bf16_f32)
      (broadcastInDim S600000x1 ![0] bcast_S600000_S600000x1_0
        (select (cmpi .slt v (broadcastInDim S600000 ![] bcast_S_S600000 (constantI S_ 32 0#32)))
          (addi v (broadcastInDim S600000 ![] bcast_S_S600000 (constantI S_ 32 50000#32))) v)))
    (sitofp (F := Ideal) .bf16 (constantI S_ 32 0#32)) pads_S600000x128_S606208x128_062080_000 h_S_

theorem w14_v32 (R : Regions) : W14 m ρ c (Proc.devRef .tc main_v32) = K.xg2p (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h : W14 m ρ c (Proc.devRef .tc main_v32)
      = gatherPad (W10 m ρ c (Proc.devRef .tc main_v23)) (W10 m ρ c (Proc.devRef .tc main_v1)) := by
    walk; rfl
  rw [h, w10_v23 m ρ c R, w10_v1 m ρ c]
  rfl
theorem w14_v33 : W14 m ρ c (Proc.devRef .tc main_v33) = K.eap (m ((c : Thread nD τ).loc main_arg2)) := by
  have h : W14 m ρ c (Proc.devRef .tc main_v33) = K.eap (W10 m ρ c (Proc.devRef .tc main_arg2)) := by
    walk; rfl
  rw [h, w10_arg2 m ρ c]
theorem w14_arg10 : W14 m ρ c (Proc.devRef .tc main_arg10) = (m ((c : Thread nD τ).loc main_arg10)) := by
  walk
  rw [W10_of_ne m ρ c main_arg10 (by decide)]
  walk
  rw [W5_of_ne m ρ c main_arg10 (by decide)]
  walk
theorem w14_arg11 : W14 m ρ c (Proc.devRef .tc main_arg11) = (m ((c : Thread nD τ).loc main_arg11)) := by
  walk
  rw [W10_of_ne m ρ c main_arg11 (by decide)]
  walk
  rw [W5_of_ne m ρ c main_arg11 (by decide)]
  walk

/-- Region 2 leaves layer 2's padded messages. -/
theorem w15_v34 (R : Regions) : W15 m ρ c (Proc.devRef .tc main_v34)
    = Cert.Spec.msg (E := 606208) (D := 128) (K.xg2p (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (K.eap (m ((c : Thread nD τ).loc main_arg2))) (m ((c : Thread nD τ).loc main_arg10)) (m ((c : Thread nD τ).loc main_arg11)) := by
  have h := W15_arr m ρ c 4
  rw [R.r2 (V14 m ρ) c] at h
  dsimp only [V14] at h
  rw [w14_v32 m ρ c R, w14_v33 m ρ c, w14_arg10 m ρ c, w14_arg11 m ρ c] at h
  exact h

end Cert.KernelIdeal.Chain

end
-- ==== Proof.ChainC.lean ====
/-
  The fold through @main, continued: layer 2's messages are cut back to the true edge count and summed at the target
  nodes; with the node table and the graph ids they enter region 3, which leaves the per-half pooled sums and counts.
-/
import proofs.«415540_j56006373540375_3_alg».proof.Proof.ChainB

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

-- a region's exit contents are read through their two lemmas, never unfolded
attribute [local irreducible] W5 W10 W15 W22

variable (m : (ℓ : Loc nD τ sig) → Buf (Elt Ideal) ℓ) (ρ : Dev nD → PrngReg) (c : Dev nD)

/-! ## Between region 2 and region 3 -/

theorem w15_v3 : W15 m ρ c (Proc.devRef .tc main_v3) = K.v3 (m ((c : Thread nD τ).loc main_arg1)) := by
  rw [W15_of_ne m ρ c main_v3 (by decide)]; walk; exact w10_v3 m ρ c
theorem w15_v4 : W15 m ρ c (Proc.devRef .tc main_v4) = shapeCast _ (m ((c : Thread nD τ).loc main_arg3)) shapeCasts_S50000_S50000x1 := by
  rw [W15_of_ne m ρ c main_v4 (by decide)]; walk; exact w10_v4 m ρ c
theorem w15_v23 (R : Regions) : W15 m ρ c (Proc.devRef .tc main_v23) = K.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [W15_of_ne m ρ c main_v23 (by decide)]; walk; exact w10_v23 m ρ c R

/-- The stretch before region 3 as a function of what it starts from: padded messages cut back to the true edge
    count and summed at the target nodes. -/
def cutSum (p : Vec Ideal S606208x128 .bf16) (v : IVec S600000 32) : Vec Ideal S50000x128 .f32 :=
  K.pad128 (Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 v)
    (extf (F := Ideal) .f32 (extractStridedSlice S600000x128 ![0, 0] p slices_S606208x128_S600000x128_0_0) bitsLt_bf16_f32))

/-- The graph ids as a column, padded by no rows. -/
def idsOf (v : IVec S50000x1 32) : IVec S50000x1 32 :=
  pad S50000x1 ![0, 0] ![0, 0] ![0, 0] v (id (constantI S_ 32 64#32)) pads_S50000x1_S50000x1_000_000 h_S_

theorem w21_v40 (R : Regions) : W21 m ρ c (Proc.devRef .tc main_v40) = K.pad128 (K.h1 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have h : W21 m ρ c (Proc.devRef .tc main_v40) = K.pad128 (W15 m ρ c (Proc.devRef .tc main_v23)) := by
    walk; rfl
  rw [h, w15_v23 m ρ c R]
theorem w21_v41 (R : Regions) : W21 m ρ c (Proc.devRef .tc main_v41)
    = K.pad128 (K.agg2 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  have h : W21 m ρ c (Proc.devRef .tc main_v41)
      = cutSum (W15 m ρ c (Proc.devRef .tc main_v34)) (W15 m ρ c (Proc.devRef .tc main_v3)) := by
    walk; rfl
  rw [h, w15_v34 m ρ c R, w15_v3 m ρ c]
  rfl
theorem w21_v42 : W21 m ρ c (Proc.devRef .tc main_v42) = K.ids (m ((c : Thread nD τ).loc main_arg3)) := by
  have h : W21 m ρ c (Proc.devRef .tc main_v42) = idsOf (W15 m ρ c (Proc.devRef .tc main_v4)) := by
    walk; rfl
  rw [h, w15_v4 m ρ c]
  rfl
theorem w21_arg12 : W21 m ρ c (Proc.devRef .tc main_arg12) = (m ((c : Thread nD τ).loc main_arg12)) := by
  walk
  rw [W15_of_ne m ρ c main_arg12 (by decide)]
  walk
  rw [W10_of_ne m ρ c main_arg12 (by decide)]
  walk
  rw [W5_of_ne m ρ c main_arg12 (by decide)]
  walk
theorem w21_arg13 : W21 m ρ c (Proc.devRef .tc main_arg13) = (m ((c : Thread nD τ).loc main_arg13)) := by
  walk
  rw [W15_of_ne m ρ c main_arg13 (by decide)]
  walk
  rw [W10_of_ne m ρ c main_arg13 (by decide)]
  walk
  rw [W5_of_ne m ρ c main_arg13 (by decide)]
  walk
theorem w21_arg14 : W21 m ρ c (Proc.devRef .tc main_arg14) = (m ((c : Thread nD τ).loc main_arg14)) := by
  walk
  rw [W15_of_ne m ρ c main_arg14 (by decide)]
  walk
  rw [W10_of_ne m ρ c main_arg14 (by decide)]
  walk
  rw [W5_of_ne m ρ c main_arg14 (by decide)]
  walk
theorem w21_arg15 : W21 m ρ c (Proc.devRef .tc main_arg15) = (m ((c : Thread nD τ).loc main_arg15)) := by
  walk
  rw [W15_of_ne m ρ c main_arg15 (by decide)]
  walk
  rw [W10_of_ne m ρ c main_arg15 (by decide)]
  walk
  rw [W5_of_ne m ρ c main_arg15 (by decide)]
  walk

/-- Region 3 leaves the per-half pooled sums and counts. -/
theorem w22_v43_0 (R : Regions) : W22 m ρ c (Proc.devRef .tc main_v43_0) = K.sums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := W22_arr m ρ c 7
  rw [R.r3s (V21 m ρ) c] at h
  dsimp only [V21] at h
  rw [w21_v40 m ρ c R, w21_v41 m ρ c R, w21_v42 m ρ c, w21_arg12 m ρ c, w21_arg13 m ρ c, w21_arg14 m ρ c, w21_arg15 m ρ c] at h
  exact h
theorem w22_v43_1 (R : Regions) : W22 m ρ c (Proc.devRef .tc main_v43_1) = K.cnts (m ((c : Thread nD τ).loc main_arg3)) := by
  have h := W22_arr m ρ c 8
  rw [R.r3c (V21 m ρ) c] at h
  dsimp only [V21] at h
  rw [w21_v42 m ρ c] at h
  exact h

end Cert.KernelIdeal.Chain

end
-- ==== Proof.ChainD.lean ====
/-
  The end of the fold through @main: the host adds the two halves of the pooled sums and of the counts and divides
  the sums by max(count, 1). The result buffer is the function `K.out` of the sixteen argument arrays.
-/
import proofs.«415540_j56006373540375_3_alg».proof.Proof.ChainC

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

-- a region's exit contents are read through their two lemmas, never unfolded
attribute [local irreducible] W5 W10 W15 W22

variable (m : (ℓ : Loc nD τ sig) → Buf (Elt Ideal) ℓ) (ρ : Dev nD → PrngReg) (c : Dev nD)

/-! ## The host tail -/

/-- The tail as a function of what it starts from: the halves added, the sums over max(count, 1). -/
def meanTail (s : Vec Ideal S2x64x128 .f32) (n : Vec Ideal S2x64x1 .f32) : Vec Ideal S64x128 .f32 :=
  Host.divf (F := Ideal)
    (Host.reduceAdd (F := Ideal) s (constant (F := Ideal) S_ .f32 0x00000000#32) reducesTo_S2x64x128_S64x128_d0 h_S_)
    (broadcastInDim S64x128 ![0, 1] bcast_S64x1_S64x128_0_1
      (maximumf (F := Ideal) (Host.reduceAdd (F := Ideal) n (constant (F := Ideal) S_ .f32 0x00000000#32) reducesTo_S2x64x1_S64x1_d0 h_S_)
        (broadcastInDim S64x1 ![] bcast_S_S64x1 (constant (F := Ideal) S_ .f32 0x3F800000#32))))

/-- The result buffer at the end of @main is `K.out` of the arguments. -/
theorem result (R : Regions) : W23 m ρ c (Proc.devRef .tc main_v49) = K.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h : W23 m ρ c (Proc.devRef .tc main_v49)
      = meanTail (W22 m ρ c (Proc.devRef .tc main_v43_0)) (W22 m ρ c (Proc.devRef .tc main_v43_1)) := by
    walk; rfl
  rw [h, w22_v43_0 m ρ c R, w22_v43_1 m ρ c R]
  rfl

end Cert.KernelIdeal.Chain

end
-- ==== Proof.LibPlainMatmul.lean ====
/-
  A general lemma: a matrix product `[M, K] × [K, N]` read at an index on the extended reals — the kernel's, into a
  zero accumulator, and the host's `dot_general`.

  The dimension numbers contract axis 1 of the left operand with axis 0 of the right one, keep axis 0 of the left and
  axis 1 of the right, and have no batch axis. Entry `(p, q)` of the product is then `∑ k < K, l[p, k] · r[k, q]`:
  the sum over the one contracted axis, re-indexed by that axis's coordinate. Stated for any record with those
  dimension numbers, whatever the sizes and the operands' float formats.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

namespace PlainMatmul

/-- Those dimension numbers as a literal record; `wf` are their conditions. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the result's row. -/
theorem lhs_row (i : (⟨2, ![M, N]⟩ : Shape).Idx) (q : (plainDims M K N wf).contr.Idx) :
    ((plainDims M K N wf).lhsIdx i q 0).val = (i 0).val := by
  rw [DotDims.lhsIdx, dif_neg (show ¬(0 : Fin 2) ∈ (plainDims M K N wf).lhsBatch from List.not_mem_nil),
    dif_pos (show (0 : Fin 2) ∈ (plainDims M K N wf).lhsNonContracting from List.mem_singleton.mpr rfl)]
  rfl

/-- The left operand's column is the contracted coordinate. -/
theorem lhs_col (i : (⟨2, ![M, N]⟩ : Shape).Idx) (q : (plainDims M K N wf).contr.Idx) :
    ((plainDims M K N wf).lhsIdx i q 1).val = (q ⟨0, Nat.one_pos⟩).val :=
  (plainDims M K N wf).lhsIdx_val_of_single rfl i q

/-- The right operand's row is the contracted coordinate. -/
theorem rhs_row (i : (⟨2, ![M, N]⟩ : Shape).Idx) (q : (plainDims M K N wf).contr.Idx) :
    ((plainDims M K N wf).rhsIdx i q 0).val = (q ⟨0, Nat.one_pos⟩).val :=
  (plainDims M K N wf).rhsIdx_val_of_single rfl i q

/-- The right operand's column is the result's column. -/
theorem rhs_col (i : (⟨2, ![M, N]⟩ : Shape).Idx) (q : (plainDims M K N wf).contr.Idx) :
    ((plainDims M K N wf).rhsIdx i q 1).val = (i 1).val := by
  rw [DotDims.rhsIdx, dif_neg (show ¬(1 : Fin 2) ∈ (plainDims M K N wf).rhsBatch from List.not_mem_nil),
    dif_pos (show (1 : Fin 2) ∈ (plainDims M K N wf).rhsNonContracting from List.mem_singleton.mpr rfl)]
  rfl

/-- The product of the literal record at `(p, q)`. -/
theorem matmul_plainDims_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- The host's product of the literal record at `(p, q)`. -/
theorem dotGeneral_plainDims_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q) = ∑ k : Fin K, l (ix2 p k) * r (ix2 k q) := by
  rw [Ideal.dotGeneral_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

end PlainMatmul

open PlainMatmul

/-- THE PRODUCT READ AT `(p, q)`, for any record with the plain dimension numbers: `∑ k < K, l[p, k] · r[k, q]`. -/
theorem matmul_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at h1 h2 h3 h4 h5 h6
  subst h1 h2 h3 h4 h5 h6
  exact matmul_plainDims_apply wf prec l r p q

/-- THE HOST'S PRODUCT READ AT `(p, q)`, for any record with the plain dimension numbers, whatever its schedule key:
    the same sum. -/
theorem dotGeneral_plain_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (l : FVec Ideal ⟨2, ![M, K]⟩ φ₁)
    (r : FVec Ideal ⟨2, ![K, N]⟩ φ₂) (p : Fin M) (q : Fin N) :
    FloatOps.dotGeneral d prec sched l r (ix2 p q) = ∑ k : Fin K, l (ix2 p k) * r (ix2 k q) := by
  obtain ⟨lc, rc, ln, rn, lb, rb, wf⟩ := d
  simp only at h1 h2 h3 h4 h5 h6
  subst h1 h2 h3 h4 h5 h6
  exact dotGeneral_plainDims_apply wf prec sched l r p q

end Cert.Lib

end
-- ==== Proof.Region0.lean ====
/-
  A message layer's edge kernel, read as a function of its arrays.

  Grid point `t` handles rows `8192 t … 8192 t + 8191` of the edge arrays. It reads that block of the gathered node rows
  `xg` and of the edge attributes `ea`, the whole weight `w` and the whole bias `b`, and writes
  relu(xg + (ea · w + b)) into the same rows of the output. An entry `(e, j)` of the result depends only on row `e` of
  `xg` and `ea`, so every written block is the restriction of ONE function of the whole arrays, `Cert.Spec.msg`; the 74
  blocks tile the 606208 rows, so the output array ends holding `Cert.Spec.msg` of the arrays.
-/
import proofs.«415540_j56006373540375_3_alg».proof.Proof.Gen.KernelIdeal.Frame
import proofs.«415540_j56006373540375_3_alg».proof.Proof.Spec
import proofs.«415540_j56006373540375_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open scoped BigOperators

/-- The product of a block of edge attributes with the weight, into a zero accumulator, at row `p` and column `q`:
    the sum over the three attribute columns `∑ₖ ea[p, k] · w[k, q]`. -/
theorem edge_product_apply (x1 : FVec Ideal S8192x3 .f32) (x2 : FVec Ideal S3x64 .f32) (p : Fin 8192) (q : Fin 64) :
    matmul dot_S8192x3_S3x64_S8192x64_1_0_0_1_n_n none (shapeCast S8192x3 x1 shapeCasts_S8192x3_S8192x3) x2
        (constant S8192x64 .f32 0x00000000#32) (ix2 p q)
      = ∑ k : Fin 3, x1 (ix2 p k) * x2 (ix2 k q) := by
  rw [shapeCast_self]
  exact Cert.Lib.matmul_plain_apply dot_S8192x3_S3x64_S8192x64_1_0_0_1_n_n rfl rfl rfl rfl rfl rfl none x1 x2 p q

/-- The bias, laid out as one row and copied down every row of the block, at `(p, q)` is `b[q]`. -/
theorem bias_apply (x3 : FVec Ideal S64 .f32) (p : Fin 8192) (q : Fin 64) :
    broadcastTo S8192x64 (shapeCast S1x64 x3 shapeCasts_S64_S1x64) broadcasts_S1x64_S8192x64 (ix2 p q) = x3 (ix1 q) := by
  rw [broadcastTo_1b_ab_apply, shapeCast_a_1a_apply]

/-- THE STORED VALUE AT `(p, q)`: relu(xg[p, q] + (∑ₖ ea[p, k] · w[k, q] + b[q])). The changes of float format are
    the identity on extended reals, the sum and the maximum are those of the extended reals, and the zero compared
    against is the float zero word. -/
theorem message_apply (x1 : FVec Ideal S8192x3 .f32) (x2 : FVec Ideal S3x64 .f32) (x3 : FVec Ideal S64 .f32)
    (x0 : FVec Ideal S8192x64 .bf16) (p : Fin 8192) (q : Fin 64) :
    k0_pay1 (F := Ideal) x1 x2 x3 x0 (ix2 p q)
      = max (x0 (ix2 p q) + ((∑ k : Fin 3, x1 (ix2 p k) * x2 (ix2 k q)) + x3 (ix1 q))) Cert.Spec.zero := by
  unfold k0_pay1
  show max (shapeCast S8192x64 x0 shapeCasts_S8192x64_S8192x64 (ix2 p q)
      + (matmul dot_S8192x3_S3x64_S8192x64_1_0_0_1_n_n none (shapeCast S8192x3 x1 shapeCasts_S8192x3_S8192x3) x2
          (constant S8192x64 .f32 0x00000000#32) (ix2 p q)
        + broadcastTo S8192x64 (shapeCast S1x64 x3 shapeCasts_S64_S1x64) broadcasts_S1x64_S8192x64 (ix2 p q)))
      Cert.Spec.zero = _
  rw [edge_product_apply, bias_apply, shapeCast_self]

/-- Which block each window holds at grid point `t`: the output, the gathered rows and the edge attributes sit at row
    block `t`, column block 0; the weight and the bias are whole, at block 0. -/
theorem block_index : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

variable (V : (c : Dev nD) → (b : Ref sig .tc) → Buf (Elt Ideal) ((c : Thread nD τ).loc b))

/-- The origin of a rank-2 block. -/
theorem origin2 : (![0, 0] : Fin 2 → Nat) = fun _ => 0 := funext fun a => by fin_cases a <;> rfl
/-- The origin of a rank-1 block. -/
theorem origin1 : (![0] : Fin 1 → Nat) = fun _ => 0 := funext fun a => by fin_cases a <;> rfl

/-- ONE ENTRY OF A BLOCK IS ONE ENTRY OF THE LAYER'S MESSAGES. If the block `x0` of gathered rows and the block `x1` of
    edge attributes are rows `n · 8192 + p` of the arrays `xg` and `ea`, and the weight and bias are the arrays `w` and
    `b`, then the stored value at `(p, q)` is the message at `(n · 8192 + p, q)`: a message's row depends on that row
    of `xg` and `ea` only. -/
theorem message_at_row (xg : S606208x64.Idx → EReal) (ea : S606208x3.Idx → EReal) (w : S3x64.Idx → EReal) (b : S64.Idx → EReal)
    (x0 : FVec Ideal S8192x64 .bf16) (x1 : FVec Ideal S8192x3 .f32) (x2 : FVec Ideal S3x64 .f32) (x3 : FVec Ideal S64 .f32)
    (n : Nat)
    (h0 : ∀ (y : S8192x64.Idx) (i : S606208x64.Idx), (i 0).val = n * 8192 + (y 0).val → (i 1).val = (y 1).val → x0 y = xg i)
    (h1 : ∀ (y : S8192x3.Idx) (i : S606208x3.Idx), (i 0).val = n * 8192 + (y 0).val → (i 1).val = (y 1).val → x1 y = ea i)
    (h2 : x2 = w) (h3 : x3 = b)
    (j : S8192x64.Idx) (i : S606208x64.Idx) (hi0 : (i 0).val = n * 8192 + (j 0).val) (hi1 : (i 1).val = (j 1).val) :
    k0_pay1 (F := Ideal) x1 x2 x3 x0 j = Cert.Spec.msg xg ea w b i := by
  obtain ⟨p, q, rfl⟩ : ∃ (p : Fin 8192) (q : Fin 64), j = ix2 p q := ⟨j 0, j 1, eq_ix2 j⟩
  obtain ⟨r, s, rfl⟩ : ∃ (r : Fin 606208) (s : Fin 64), i = ix2 r s := ⟨i 0, i 1, eq_ix2 i⟩
  obtain rfl : s = q := Fin.ext hi1
  rw [message_apply]
  show _ = max (xg (ix2 r s) + ((∑ k : Fin 3, ea (ix2 r k) * w (ix2 k s)) + b (ix1 s))) Cert.Spec.zero
  rw [h0 (ix2 p s) (ix2 r s) hi0 rfl, h2, h3]
  congr 3
  refine Finset.sum_congr rfl fun k _ => ?_
  rw [h1 (ix2 p k) (ix2 r k) hi0 rfl]

/-- The block of gathered rows at point `t` is rows `8192 t … 8192 t + 8191` of its array. -/
theorem xg_block (c : Dev nD) (t : Fin cfg0.N) (y : S8192x64.Idx) (i : S606208x64.Idx)
    (hi0 : (i 0).val = t.val * 8192 + (y 0).val) (hi1 : (i 1).val = (y 1).val) :
    (iblk0 V c 0 t : Vec Ideal S8192x64 .bf16) y = (V c main_v13 : S606208x64.Idx → Elt Ideal .bf16) i := by
  obtain ⟨-, -, ea, eb, -⟩ := block_index t
  unfold iblk0
  rw [View.read_apply]
  show V c main_v13 _ = V c main_v13 _
  congr 1
  funext a
  apply Fin.ext
  match a with
  | ⟨0, _⟩ => show win0_0.index t (0 : Fin 2) * 8192 + 1 * (y 0).val = (i 0).val; omega
  | ⟨1, _⟩ => show win0_0.index t (1 : Fin 2) * 64 + 1 * (y 1).val = (i 1).val; omega

/-- The block of edge attributes at point `t` is rows `8192 t … 8192 t + 8191` of its array. -/
theorem ea_block (c : Dev nD) (t : Fin cfg0.N) (y : S8192x3.Idx) (i : S606208x3.Idx)
    (hi0 : (i 0).val = t.val * 8192 + (y 0).val) (hi1 : (i 1).val = (y 1).val) :
    (iblk0 V c 1 t : Vec Ideal S8192x3 .f32) y = (V c main_v14 : S606208x3.Idx → Elt Ideal .f32) i := by
  obtain ⟨-, -, -, -, ea, eb, -⟩ := block_index t
  unfold iblk0
  rw [View.read_apply]
  show V c main_v14 _ = V c main_v14 _
  congr 1
  funext a
  apply Fin.ext
  match a with
  | ⟨0, _⟩ => show win0_1.index t (0 : Fin 2) * 8192 + 1 * (y 0).val = (i 0).val; omega
  | ⟨1, _⟩ => show win0_1.index t (1 : Fin 2) * 3 + 1 * (y 1).val = (i 1).val; omega

/-- The weight's block at any point is the whole weight. -/
theorem w_block (c : Dev nD) (t : Fin cfg0.N) :
    (iblk0 V c 2 t : Vec Ideal S3x64 .f32) = (V c main_arg4 : S3x64.Idx → Elt Ideal .f32) := by
  obtain ⟨-, -, -, -, -, -, ea, eb, -⟩ := block_index t
  funext y
  unfold iblk0
  rw [View.read_apply]
  show V c main_arg4 _ = V c main_arg4 _
  congr 1
  funext a
  apply Fin.ext
  match a with
  | ⟨0, _⟩ => show win0_2.index t (0 : Fin 2) * 3 + 1 * (y 0).val = (y 0).val; omega
  | ⟨1, _⟩ => show win0_2.index t (1 : Fin 2) * 64 + 1 * (y 1).val = (y 1).val; omega

/-- The bias's block at any point is the whole bias. -/
theorem b_block (c : Dev nD) (t : Fin cfg0.N) :
    (iblk0 V c 3 t : Vec Ideal S64 .f32) = (V c main_arg5 : S64.Idx → Elt Ideal .f32) := by
  obtain ⟨-, -, -, -, -, -, -, -, ea⟩ := block_index t
  funext y
  unfold iblk0
  rw [View.read_apply]
  show V c main_arg5 _ = V c main_arg5 _
  congr 1
  funext a
  apply Fin.ext
  match a with
  | ⟨0, _⟩ => show win0_3.index t (0 : Fin 1) * 64 + 1 * (y 0).val = (y 0).val; omega

/-- WHAT POINT `t` WRITES BACK is block `t` of the layer's messages `Cert.Spec.msg` of the four arrays as the region
    finds them. -/
theorem written_block_eq (c : Dev nD) (t : Fin cfg0.N) :
    (dat0 (F := Ideal) V c).flushed 4 t = ((cfg0.win 4).blk t).view.read (Elt Ideal)
      (Cert.Spec.msg (E := 606208) (D := 64) (V c main_v13) (V c main_v14) (V c main_arg4) (V c main_arg5)) := by
  show (cfg0.win 4).cut (grid0.coords t) ((dat0 V c).after 4 t) = _
  rw [after0_4]
  unfold out0_4
  rw [View.canon_unit_zero origin2]
  simp only [View.ld_unit_zero (S := S8192x64) origin2, View.ld_unit_zero (S := S8192x3) origin2, View.ld_unit_zero (S := S3x64) origin2, View.ld_unit_zero (S := S64) origin1]
  obtain ⟨ea, eb, -⟩ := block_index t
  funext j
  show k0_pay1 (F := Ideal) (iblk0 V c 1 t) (iblk0 V c 2 t) (iblk0 V c 3 t) (iblk0 V c 0 t) j
    = Cert.Spec.msg (E := 606208) (D := 64) (V c main_v13) (V c main_v14) (V c main_arg4) (V c main_arg5) (((cfg0.win 4).blk t).view.emb j)
  refine message_at_row (V c main_v13) (V c main_v14) (V c main_arg4) (V c main_arg5)
    (iblk0 V c 0 t) (iblk0 V c 1 t) (iblk0 V c 2 t) (iblk0 V c 3 t) t.val
    (xg_block V c t) (ea_block V c t) (w_block V c t) (b_block V c t) j (((cfg0.win 4).blk t).view.emb j) ?_ ?_
  · show win0_4.index t (0 : Fin 2) * 8192 + 1 * (j 0).val = t.val * 8192 + (j 0).val
    omega
  · show win0_4.index t (1 : Fin 2) * 64 + 1 * (j 1).val = (j 1).val
    omega

/-- An index of the output array is in point `t`'s block iff each coordinate is in the block's range on its axis. -/
theorem mem_row_block (t : Fin cfg0.N) (i : S606208x64.Idx) :
    i ∈ ((cfg0.win 4).blk t).view.set ↔ ∀ a : Fin 2, win0_4.index t a * S8192x64.size a ≤ (i a).val ∧ (i a).val < win0_4.index t a * S8192x64.size a + S8192x64.size a := by
  show i ∈ ((View.whole main_v15).slice (win0_4.rect t)).set ↔ _
  rw [View.set_slice_whole, Rect.mem_set_unit]
  exact Iff.rfl

/-- Every row of the output is in some point's block: row `r` is in the block of point `r / 8192`
    (74 · 8192 = 606208 rows). -/
theorem rows_covered (i : S606208x64.Idx) :
    ∃ t : Fin cfg0.N, (cfg0.win 4).flush t = true ∧ i ∈ ((cfg0.win 4).blk t).view.set := by
  have hi0 : (i 0).val < 606208 := (i 0).isLt
  have hi1 : (i 1).val < 64 := (i 1).isLt
  have hN : cfg0.N = 74 := N_0
  have ht : (i 0).val / 8192 < cfg0.N := by rw [hN]; omega
  obtain ⟨ea, eb, -⟩ := block_index ⟨(i 0).val / 8192, ht⟩
  refine ⟨⟨(i 0).val / 8192, ht⟩, flush0_4 _, ?_⟩
  rw [mem_row_block]
  intro a
  match a with
  | ⟨0, _⟩ =>
    show win0_4.index ⟨(i 0).val / 8192, ht⟩ (0 : Fin 2) * 8192 ≤ (i 0).val ∧ (i 0).val < win0_4.index ⟨(i 0).val / 8192, ht⟩ (0 : Fin 2) * 8192 + 8192
    rw [ea]
    show (i 0).val / 8192 * 8192 ≤ (i 0).val ∧ (i 0).val < (i 0).val / 8192 * 8192 + 8192
    omega
  | ⟨1, _⟩ =>
    show win0_4.index ⟨(i 0).val / 8192, ht⟩ (1 : Fin 2) * 64 ≤ (i 1).val ∧ (i 1).val < win0_4.index ⟨(i 0).val / 8192, ht⟩ (1 : Fin 2) * 64 + 64
    omega

/-- THE OUTPUT ARRAY AFTER THE REGION is the layer's messages of the gathered rows, the edge attributes, the weight and
    the bias as the region finds them: the written blocks are restrictions of that one function and they tile the array. -/
theorem out_eq (c : Dev nD) :
    (dat0 (F := Ideal) V c).arrAt 4 cfg0.N
      = Cert.Spec.msg (E := 606208) (D := 64) (V c main_v13) (V c main_v14) (V c main_arg4) (V c main_arg5) :=
  (dat0 (F := Ideal) V c).arrAt_eq_of_cover 4
    (Cert.Spec.msg (E := 606208) (D := 64) (V c main_v13) (V c main_v14) (V c main_arg4) (V c main_arg5))
    (fun t _ => written_block_eq V c t) rows_covered

end Cert.KernelIdeal.Region0

end
-- ==== Proof.Region1.lean ====
/-
  The first node update, array by array: after the region that applies the two dense layers to the node table, the
  output table holds `Cert.Spec.mlp` of the node table `x`, the summed messages `agg` and the two layers' weights
  and biases, as the region finds them.

  The 50000 node rows are cut into 50 blocks of 1000 rows; point `t` reads rows `1000 t … 1000 t + 999` of `x` and
  of `agg` and the weights and biases whole, and writes rows `1000 t … 1000 t + 999` of the output. On a block the
  stored value is relu(relu((1 · x + agg) · wa + ba) · wb + bb): each product is a plain sum over the contracted axis,
  each bias is one row repeated over the block's rows, and the second product's left operand is the first layer of
  the SAME rows. Entry `(p, q)` of it depends on row `p` of the block's `x` and `agg` only, so it is entry
  `(1000 t + p, q)` of the update of the whole table. Every row `r` is written by point `r / 1000`, so the whole
  output table is the update.
-/
import proofs.«415540_j56006373540375_3_alg».proof.Proof.Gen.KernelIdeal.Frame
import proofs.«415540_j56006373540375_3_alg».proof.Proof.Spec
import proofs.«415540_j56006373540375_3_alg».proof.Proof.LibPlainMatmul
import Idealize.ShloMosaic.Lib.ValueLayout
import Idealize.ShloMosaic.Lib.Pipeline.Value

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- A dense layer with relu as the kernel writes it — a product into a zero accumulator, the bias viewed as one row and
    repeated over the rows, a maximum against zero — is `Cert.Spec.dense` of its operands: entry `(p, q)` is
    relu(∑ₖ l[p, k] · w[k, q] + b[q]). -/
theorem dense_layer {M K H : Nat} (d : DotDims ⟨2, ![M, K]⟩ ⟨2, ![K, H]⟩ ⟨2, ![M, H]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![M, K]⟩ .f32) (w : FVec Ideal ⟨2, ![K, H]⟩ .f32) (b : FVec Ideal ⟨1, ![H]⟩ .f32)
    (hc : (⟨1, ![H]⟩ : Shape).ShapeCasts ⟨2, ![1, H]⟩) (hb : (⟨2, ![1, H]⟩ : Shape).Broadcasts ⟨2, ![M, H]⟩) :
    maximumf (addf (FloatOps.matmul d none l w (constant ⟨2, ![M, H]⟩ .f32 0x00000000#32))
        (broadcastTo ⟨2, ![M, H]⟩ (shapeCast ⟨2, ![1, H]⟩ b hc) hb))
      (broadcast ⟨2, ![M, H]⟩ (Scalar.ofBits (F := Ideal) .f32 0x00000000#32))
      = Cert.Spec.dense l w b := by
  funext j
  obtain ⟨p, q, rfl⟩ : ∃ (p : Fin M) (q : Fin H), j = ix2 p q := ⟨j 0, j 1, eq_ix2 j⟩
  rw [maximumf_apply, addf_apply, broadcast_apply, Cert.Lib.matmul_plain_apply d h1 h2 h3 h4 h5 h6,
    broadcastTo_1b_ab_apply, shapeCast_a_1a_apply]
  rfl

/-- What a point stores, from its blocks: the two dense layers over `1 · x + agg` of the block's 1000 rows; the second
    product's left operand is the first layer of the same rows. -/
theorem pay_eq (x agg : FVec Ideal S1000x64 .f32) (wa : FVec Ideal S64x128 .f32) (ba : FVec Ideal S128 .f32)
    (wb : FVec Ideal S128x128 .f32) (bb : FVec Ideal S128 .f32) :
    k1_pay1 (F := Ideal) x agg wa ba wb bb
      = Cert.Spec.mlp (N := 1000) (K := 64) (H := 128) x agg wa ba wb bb := by
  unfold k1_pay1
  dsimp only
  rw [shapeCast_self, shapeCast_self,
    dense_layer dot_S1000x64_S64x128_S1000x128_1_0_0_1_n_n rfl rfl rfl rfl rfl rfl,
    dense_layer dot_S1000x128_S128x128_S1000x128_1_0_0_1_n_n rfl rfl rfl rfl rfl rfl]
  rfl

/-- Row `p` of the update of a block is row `r` of the update of the whole table, when the block's rows `p` of
    `x` and `agg` are the table's rows `r` and the weights and biases are the table's: an entry of `mlp` depends on
    one row of `x` and `agg` only. -/
theorem mlp_row {N N' : Nat} (X A : Cert.Spec.Arr2 N' 64)
    (WA : Cert.Spec.Arr2 64 128) (BA : Cert.Spec.Arr1 128) (WB : Cert.Spec.Arr2 128 128) (BB : Cert.Spec.Arr1 128)
    (x agg : Cert.Spec.Arr2 N 64)
    (wa : Cert.Spec.Arr2 64 128) (ba : Cert.Spec.Arr1 128) (wb : Cert.Spec.Arr2 128 128) (bb : Cert.Spec.Arr1 128)
    (p : Fin N') (r : Fin N) (q : Fin 128)
    (hX : ∀ k : Fin 64, X (ix2 p k) = x (ix2 r k)) (hA : ∀ k : Fin 64, A (ix2 p k) = agg (ix2 r k))
    (hWA : WA = wa) (hBA : BA = ba) (hWB : WB = wb) (hBB : BB = bb) :
    Cert.Spec.mlp X A WA BA WB BB (ix2 p q) = Cert.Spec.mlp x agg wa ba wb bb (ix2 r q) := by
  subst hWA hBA hWB hBB
  show max ((∑ k : Fin 128, max ((∑ k' : Fin 64, (Cert.Spec.one * X (ix2 p k') + A (ix2 p k')) * WA (ix2 k' k)) + BA (ix1 k)) Cert.Spec.zero * WB (ix2 k q)) + BB (ix1 q)) Cert.Spec.zero
    = max ((∑ k : Fin 128, max ((∑ k' : Fin 64, (Cert.Spec.one * x (ix2 r k') + agg (ix2 r k')) * WA (ix2 k' k)) + BA (ix1 k)) Cert.Spec.zero * WB (ix2 k q)) + BB (ix1 q)) Cert.Spec.zero
  simp only [hX, hA]

variable (V : (c : Dev nD) → (b : Ref sig .tc) → Buf (Elt Ideal) ((c : Thread nD τ).loc b))

/-- The zero offsets of a whole rank-2 (rank-1) access. -/
theorem hz2 : (![0, 0] : Fin 2 → Nat) = fun _ => 0 := funext fun a => by fin_cases a <;> rfl
theorem hz1 : (![0] : Fin 1 → Nat) = fun _ => 0 := funext fun a => by fin_cases a <;> rfl

/-- The node update of the whole table, of the arrays as the region finds them. -/
abbrev upd (c : Dev nD) : S50000x128.Idx → EReal :=
  Cert.Spec.mlp (N := 50000) (K := 64) (H := 128) (V c main_v21) (V c main_v22) (V c main_arg6) (V c main_arg7) (V c main_arg8) (V c main_arg9)

/-- The windows' block indices, decided over the 50 grid points: `x`, `agg` and the output are at row block `t`,
    column block 0; the weights and biases are whole, at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of point `t`'s block of `x` is row `1000 t + p` of the table. -/
theorem rows0 (c : Dev nD) (t : Fin cfg1.N) (p : Fin 1000) (k : Fin 64) (r : Fin 50000) (hr : r.val = t.val * 1000 + p.val) :
    (iblk1 V c 0 t : Vec Ideal S1000x64 .f32) (ix2 p k) = (V c main_v21 : S50000x64.Idx → EReal) (ix2 r k) := by
  obtain ⟨e0, e1, -⟩ := idx_facts t
  show V c main_v21 (((cfg1.win 0).blk t).view.emb (ix2 p k)) = V c main_v21 (ix2 r k)
  refine congrArg _ (funext fun a => Fin.ext ?_)
  match a with
  | ⟨0, _⟩ => show win1_0.index t (0 : Fin 2) * 1000 + 1 * p.val = r.val; omega
  | ⟨1, _⟩ => show win1_0.index t (1 : Fin 2) * 64 + 1 * k.val = k.val; omega

/-- Row `p` of point `t`'s block of `agg` is row `1000 t + p` of the table. -/
theorem rows1 (c : Dev nD) (t : Fin cfg1.N) (p : Fin 1000) (k : Fin 64) (r : Fin 50000) (hr : r.val = t.val * 1000 + p.val) :
    (iblk1 V c 1 t : Vec Ideal S1000x64 .f32) (ix2 p k) = (V c main_v22 : S50000x64.Idx → EReal) (ix2 r k) := by
  obtain ⟨-, -, e2, e3, -⟩ := idx_facts t
  show V c main_v22 (((cfg1.win 1).blk t).view.emb (ix2 p k)) = V c main_v22 (ix2 r k)
  refine congrArg _ (funext fun a => Fin.ext ?_)
  match a with
  | ⟨0, _⟩ => show win1_1.index t (0 : Fin 2) * 1000 + 1 * p.val = r.val; omega
  | ⟨1, _⟩ => show win1_1.index t (1 : Fin 2) * 64 + 1 * k.val = k.val; omega

/-- The weights and biases are read whole: their block at any point is the array. First layer's weights: -/
theorem whole2 (c : Dev nD) (t : Fin cfg1.N) (z : S64x128.Idx) :
    (iblk1 V c 2 t : Vec Ideal S64x128 .f32) z = (V c main_arg6 : S64x128.Idx → EReal) z := by
  obtain ⟨-, -, -, -, e4, e5, -⟩ := idx_facts t
  show V c main_arg6 (((cfg1.win 2).blk t).view.emb z) = V c main_arg6 z
  refine congrArg _ (funext fun a => Fin.ext ?_)
  match a with
  | ⟨0, _⟩ => show win1_2.index t (0 : Fin 2) * 64 + 1 * (z 0).val = (z 0).val; omega
  | ⟨1, _⟩ => show win1_2.index t (1 : Fin 2) * 128 + 1 * (z 1).val = (z 1).val; omega

/-- the first layer's bias, -/
theorem whole3 (c : Dev nD) (t : Fin cfg1.N) (z : S128.Idx) :
    (iblk1 V c 3 t : Vec Ideal S128 .f32) z = (V c main_arg7 : S128.Idx → EReal) z := by
  obtain ⟨-, -, -, -, -, -, e6, -⟩ := idx_facts t
  show V c main_arg7 (((cfg1.win 3).blk t).view.emb z) = V c main_arg7 z
  refine congrArg _ (funext fun a => Fin.ext ?_)
  match a with
  | ⟨0, _⟩ => show win1_3.index t (0 : Fin 1) * 128 + 1 * (z 0).val = (z 0).val; omega

/-- the second layer's weights, -/
theorem whole4 (c : Dev nD) (t : Fin cfg1.N) (z : S128x128.Idx) :
    (iblk1 V c 4 t : Vec Ideal S128x128 .f32) z = (V c main_arg8 : S128x128.Idx → EReal) z := by
  obtain ⟨-, -, -, -, -, -, -, e7, e8, -⟩ := idx_facts t
  show V c main_arg8 (((cfg1.win 4).blk t).view.emb z) = V c main_arg8 z
  refine congrArg _ (funext fun a => Fin.ext ?_)
  match a with
  | ⟨0, _⟩ => show win1_4.index t (0 : Fin 2) * 128 + 1 * (z 0).val = (z 0).val; omega
  | ⟨1, _⟩ => show win1_4.index t (1 : Fin 2) * 128 + 1 * (z 1).val = (z 1).val; omega

/-- the second layer's bias. -/
theorem whole5 (c : Dev nD) (t : Fin cfg1.N) (z : S128.Idx) :
    (iblk1 V c 5 t : Vec Ideal S128 .f32) z = (V c main_arg9 : S128.Idx → EReal) z := by
  obtain ⟨-, -, -, -, -, -, -, -, -, e9, -⟩ := idx_facts t
  show V c main_arg9 (((cfg1.win 5).blk t).view.emb z) = V c main_arg9 z
  refine congrArg _ (funext fun a => Fin.ext ?_)
  match a with
  | ⟨0, _⟩ => show win1_5.index t (0 : Fin 1) * 128 + 1 * (z 0).val = (z 0).val; omega

/-- Point `t`'s block of the update, computed from the blocks, is the whole table's update read at the block's place. -/
theorem block_eq (c : Dev nD) (t : Fin cfg1.N) (y : S1000x128.Idx) :
    Cert.Spec.mlp (N := 1000) (K := 64) (H := 128) (iblk1 V c 0 t) (iblk1 V c 1 t) (iblk1 V c 2 t) (iblk1 V c 3 t) (iblk1 V c 4 t) (iblk1 V c 5 t) y
      = upd V c (((cfg1.win 6).blk t).view.emb y) := by
  obtain ⟨p, q, rfl⟩ : ∃ (p : Fin 1000) (q : Fin 128), y = ix2 p q := ⟨y 0, y 1, eq_ix2 y⟩
  obtain ⟨-, -, -, -, -, -, -, -, -, -, e10, e11⟩ := idx_facts t
  have ht : t.val < 50 := lt_of_lt_of_eq t.isLt N_1
  have hr : t.val * 1000 + p.val < 50000 := by have := p.isLt; omega
  have hemb : ((cfg1.win 6).blk t).view.emb (ix2 p q) = ix2 (⟨t.val * 1000 + p.val, hr⟩ : Fin 50000) q := by
    funext a; apply Fin.ext
    match a with
    | ⟨0, _⟩ => show win1_6.index t (0 : Fin 2) * 1000 + 1 * p.val = t.val * 1000 + p.val; omega
    | ⟨1, _⟩ => show win1_6.index t (1 : Fin 2) * 128 + 1 * q.val = q.val; omega
  rw [hemb]
  exact mlp_row (iblk1 V c 0 t) (iblk1 V c 1 t) (iblk1 V c 2 t) (iblk1 V c 3 t) (iblk1 V c 4 t) (iblk1 V c 5 t)
    (V c main_v21) (V c main_v22) (V c main_arg6) (V c main_arg7) (V c main_arg8) (V c main_arg9)
    p ⟨t.val * 1000 + p.val, hr⟩ q
    (fun k => rows0 V c t p k ⟨t.val * 1000 + p.val, hr⟩ rfl) (fun k => rows1 V c t p k ⟨t.val * 1000 + p.val, hr⟩ rfl)
    (funext (whole2 V c t)) (funext (whole3 V c t)) (funext (whole4 V c t)) (funext (whole5 V c t))

/-- What point `t` writes back is block `t` of the whole table's update. -/
theorem flushed_eq (c : Dev nD) (t : Fin cfg1.N) :
    (dat1 (F := Ideal) V c).flushed 6 t = ((cfg1.win 6).blk t).view.read (Elt Ideal) (upd V c) := by
  show (cfg1.win 6).cut (grid1.coords t) ((dat1 (F := Ideal) V c).after 6 t) = _
  rw [after1_6]
  unfold out1_6
  rw [View.canon_unit_zero hz2]
  simp only [View.ld_unit_zero (S := S1000x64) hz2, View.ld_unit_zero (S := S64x128) hz2,
    View.ld_unit_zero (S := S128x128) hz2, View.ld_unit_zero (S := S128) hz1]
  rw [pay_eq]
  funext j
  exact block_eq V c t j

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v23).slice (win1_6.rect t)).set ↔ _
  rw [View.set_slice_whole, Rect.mem_set_unit]
  exact Iff.rfl

/-- Every entry of the table is written back by some point: row `r` by point `r / 1000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 1000 :=
    ⟨⟨(i 0).val / 1000, lt_of_lt_of_eq (show (i 0).val / 1000 < 50 by omega) N_1.symm⟩, rfl⟩
  obtain ⟨-, -, -, -, -, -, -, -, -, -, e10, e11⟩ := idx_facts t
  refine ⟨t, flush1_6 t, ?_⟩
  rw [mem_blk]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

/-- THE ARRAY after the region: the node update of the whole table, of the arrays as the region finds them. -/
theorem out_eq (c : Dev nD) :
    (dat1 (F := Ideal) V c).arrAt 6 cfg1.N
      = Cert.Spec.mlp (N := 50000) (K := 64) (H := 128) (V c main_v21) (V c main_v22) (V c main_arg6) (V c main_arg7) (V c main_arg8) (V c main_arg9) :=
  (dat1 (F := Ideal) V c).arrAt_eq_of_cover 6 (upd V c) (fun t _ => flushed_eq V c t) cover

end Cert.KernelIdeal.Region1
end
-- ==== Proof.Region2.lean ====
/-
  A message layer's edge kernel, read as a function of its arrays.

  Grid point `t` handles rows `8192 t … 8192 t + 8191` of the edge arrays. It reads that block of the gathered node rows
  `xg` and of the edge attributes `ea`, the whole weight `w` and the whole bias `b`, and writes
  relu(xg + (ea · w + b)) into the same rows of the output. An entry `(e, j)` of the result depends only on row `e` of
  `xg` and `ea`, so every written block is the restriction of ONE function of the whole arrays, `Cert.Spec.msg`; the 74
  blocks tile the 606208 rows, so the output array ends holding `Cert.Spec.msg` of the arrays.
-/
import proofs.«415540_j56006373540375_3_alg».proof.Proof.Gen.KernelIdeal.Frame
import proofs.«415540_j56006373540375_3_alg».proof.Proof.Spec
import proofs.«415540_j56006373540375_3_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open scoped BigOperators

/-- The product of a block of edge attributes with the weight, into a zero accumulator, at row `p` and column `q`:
    the sum over the three attribute columns `∑ₖ ea[p, k] · w[k, q]`. -/
theorem edge_product_apply (x1 : FVec Ideal S8192x3 .f32) (x2 : FVec Ideal S3x128 .f32) (p : Fin 8192) (q : Fin 128) :
    matmul dot_S8192x3_S3x128_S8192x128_1_0_0_1_n_n none (shapeCast S8192x3 x1 shapeCasts_S8192x3_S8192x3) x2
        (constant S8192x128 .f32 0x00000000#32) (ix2 p q)
      = ∑ k : Fin 3, x1 (ix2 p k) * x2 (ix2 k q) := by
  rw [shapeCast_self]
  exact Cert.Lib.matmul_plain_apply dot_S8192x3_S3x128_S8192x128_1_0_0_1_n_n rfl rfl rfl rfl rfl rfl none x1 x2 p q

/-- The bias, laid out as one row and copied down every row of the block, at `(p, q)` is `b[q]`. -/
theorem bias_apply (x3 : FVec Ideal S128 .f32) (p : Fin 8192) (q : Fin 128) :
    broadcastTo S8192x128 (shapeCast S1x128 x3 shapeCasts_S128_S1x128) broadcasts_S1x128_S8192x128 (ix2 p q) = x3 (ix1 q) := by
  rw [broadcastTo_1b_ab_apply, shapeCast_a_1a_apply]

/-- THE STORED VALUE AT `(p, q)`: relu(xg[p, q] + (∑ₖ ea[p, k] · w[k, q] + b[q])). The changes of float format are
    the identity on extended reals, the sum and the maximum are those of the extended reals, and the zero compared
    against is the float zero word. -/
theorem message_apply (x1 : FVec Ideal S8192x3 .f32) (x2 : FVec Ideal S3x128 .f32) (x3 : FVec Ideal S128 .f32)
    (x0 : FVec Ideal S8192x128 .bf16) (p : Fin 8192) (q : Fin 128) :
    k2_pay1 (F := Ideal) x1 x2 x3 x0 (ix2 p q)
      = max (x0 (ix2 p q) + ((∑ k : Fin 3, x1 (ix2 p k) * x2 (ix2 k q)) + x3 (ix1 q))) Cert.Spec.zero := by
  unfold k2_pay1
  show max (shapeCast S8192x128 x0 shapeCasts_S8192x128_S8192x128 (ix2 p q)
      + (matmul dot_S8192x3_S3x128_S8192x128_1_0_0_1_n_n none (shapeCast S8192x3 x1 shapeCasts_S8192x3_S8192x3) x2
          (constant S8192x128 .f32 0x00000000#32) (ix2 p q)
        + broadcastTo S8192x128 (shapeCast S1x128 x3 shapeCasts_S128_S1x128) broadcasts_S1x128_S8192x128 (ix2 p q)))
      Cert.Spec.zero = _
  rw [edge_product_apply, bias_apply, shapeCast_self]

/-- Which block each window holds at grid point `t`: the output, the gathered rows and the edge attributes sit at row
    block `t`, column block 0; the weight and the bias are whole, at block 0. -/
theorem block_index : ∀ t : Fin cfg2.N,
    win2_4.index t (0 : Fin 2) = t.val ∧ win2_4.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0 :=
  (by decide +kernel : ∀ t : Fin grid2.N, _)

variable (V : (c : Dev nD) → (b : Ref sig .tc) → Buf (Elt Ideal) ((c : Thread nD τ).loc b))

/-- The origin of a rank-2 block. -/
theorem origin2 : (![0, 0] : Fin 2 → Nat) = fun _ => 0 := funext fun a => by fin_cases a <;> rfl
/-- The origin of a rank-1 block. -/
theorem origin1 : (![0] : Fin 1 → Nat) = fun _ => 0 := funext fun a => by fin_cases a <;> rfl

/-- ONE ENTRY OF A BLOCK IS ONE ENTRY OF THE LAYER'S MESSAGES. If the block `x0` of gathered rows and the block `x1` of
    edge attributes are rows `n · 8192 + p` of the arrays `xg` and `ea`, and the weight and bias are the arrays `w` and
    `b`, then the stored value at `(p, q)` is the message at `(n · 8192 + p, q)`: a message's row depends on that row
    of `xg` and `ea` only. -/
theorem message_at_row (xg : S606208x128.Idx → EReal) (ea : S606208x3.Idx → EReal) (w : S3x128.Idx → EReal) (b : S128.Idx → EReal)
    (x0 : FVec Ideal S8192x128 .bf16) (x1 : FVec Ideal S8192x3 .f32) (x2 : FVec Ideal S3x128 .f32) (x3 : FVec Ideal S128 .f32)
    (n : Nat)
    (h0 : ∀ (y : S8192x128.Idx) (i : S606208x128.Idx), (i 0).val = n * 8192 + (y 0).val → (i 1).val = (y 1).val → x0 y = xg i)
    (h1 : ∀ (y : S8192x3.Idx) (i : S606208x3.Idx), (i 0).val = n * 8192 + (y 0).val → (i 1).val = (y 1).val → x1 y = ea i)
    (h2 : x2 = w) (h3 : x3 = b)
    (j : S8192x128.Idx) (i : S606208x128.Idx) (hi0 : (i 0).val = n * 8192 + (j 0).val) (hi1 : (i 1).val = (j 1).val) :
    k2_pay1 (F := Ideal) x1 x2 x3 x0 j = Cert.Spec.msg xg ea w b i := by
  obtain ⟨p, q, rfl⟩ : ∃ (p : Fin 8192) (q : Fin 128), j = ix2 p q := ⟨j 0, j 1, eq_ix2 j⟩
  obtain ⟨r, s, rfl⟩ : ∃ (r : Fin 606208) (s : Fin 128), i = ix2 r s := ⟨i 0, i 1, eq_ix2 i⟩
  obtain rfl : s = q := Fin.ext hi1
  rw [message_apply]
  show _ = max (xg (ix2 r s) + ((∑ k : Fin 3, ea (ix2 r k) * w (ix2 k s)) + b (ix1 s))) Cert.Spec.zero
  rw [h0 (ix2 p s) (ix2 r s) hi0 rfl, h2, h3]
  congr 3
  refine Finset.sum_congr rfl fun k _ => ?_
  rw [h1 (ix2 p k) (ix2 r k) hi0 rfl]

/-- The block of gathered rows at point `t` is rows `8192 t … 8192 t + 8191` of its array. -/
theorem xg_block (c : Dev nD) (t : Fin cfg2.N) (y : S8192x128.Idx) (i : S606208x128.Idx)
    (hi0 : (i 0).val = t.val * 8192 + (y 0).val) (hi1 : (i 1).val = (y 1).val) :
    (iblk2 V c 0 t : Vec Ideal S8192x128 .bf16) y = (V c main_v32 : S606208x128.Idx → Elt Ideal .bf16) i := by
  obtain ⟨-, -, ea, eb, -⟩ := block_index t
  unfold iblk2
  rw [View.read_apply]
  show V c main_v32 _ = V c main_v32 _
  congr 1
  funext a
  apply Fin.ext
  match a with
  | ⟨0, _⟩ => show win2_0.index t (0 : Fin 2) * 8192 + 1 * (y 0).val = (i 0).val; omega
  | ⟨1, _⟩ => show win2_0.index t (1 : Fin 2) * 128 + 1 * (y 1).val = (i 1).val; omega

/-- The block of edge attributes at point `t` is rows `8192 t … 8192 t + 8191` of its array. -/
theorem ea_block (c : Dev nD) (t : Fin cfg2.N) (y : S8192x3.Idx) (i : S606208x3.Idx)
    (hi0 : (i 0).val = t.val * 8192 + (y 0).val) (hi1 : (i 1).val = (y 1).val) :
    (iblk2 V c 1 t : Vec Ideal S8192x3 .f32) y = (V c main_v33 : S606208x3.Idx → Elt Ideal .f32) i := by
  obtain ⟨-, -, -, -, ea, eb, -⟩ := block_index t
  unfold iblk2
  rw [View.read_apply]
  show V c main_v33 _ = V c main_v33 _
  congr 1
  funext a
  apply Fin.ext
  match a with
  | ⟨0, _⟩ => show win2_1.index t (0 : Fin 2) * 8192 + 1 * (y 0).val = (i 0).val; omega
  | ⟨1, _⟩ => show win2_1.index t (1 : Fin 2) * 3 + 1 * (y 1).val = (i 1).val; omega

/-- The weight's block at any point is the whole weight. -/
theorem w_block (c : Dev nD) (t : Fin cfg2.N) :
    (iblk2 V c 2 t : Vec Ideal S3x128 .f32) = (V c main_arg10 : S3x128.Idx → Elt Ideal .f32) := by
  obtain ⟨-, -, -, -, -, -, ea, eb, -⟩ := block_index t
  funext y
  unfold iblk2
  rw [View.read_apply]
  show V c main_arg10 _ = V c main_arg10 _
  congr 1
  funext a
  apply Fin.ext
  match a with
  | ⟨0, _⟩ => show win2_2.index t (0 : Fin 2) * 3 + 1 * (y 0).val = (y 0).val; omega
  | ⟨1, _⟩ => show win2_2.index t (1 : Fin 2) * 128 + 1 * (y 1).val = (y 1).val; omega

/-- The bias's block at any point is the whole bias. -/
theorem b_block (c : Dev nD) (t : Fin cfg2.N) :
    (iblk2 V c 3 t : Vec Ideal S128 .f32) = (V c main_arg11 : S128.Idx → Elt Ideal .f32) := by
  obtain ⟨-, -, -, -, -, -, -, -, ea⟩ := block_index t
  funext y
  unfold iblk2
  rw [View.read_apply]
  show V c main_arg11 _ = V c main_arg11 _
  congr 1
  funext a
  apply Fin.ext
  match a with
  | ⟨0, _⟩ => show win2_3.index t (0 : Fin 1) * 128 + 1 * (y 0).val = (y 0).val; omega

/-- WHAT POINT `t` WRITES BACK is block `t` of the layer's messages `Cert.Spec.msg` of the four arrays as the region
    finds them. -/
theorem written_block_eq (c : Dev nD) (t : Fin cfg2.N) :
    (dat2 (F := Ideal) V c).flushed 4 t = ((cfg2.win 4).blk t).view.read (Elt Ideal)
      (Cert.Spec.msg (E := 606208) (D := 128) (V c main_v32) (V c main_v33) (V c main_arg10) (V c main_arg11)) := by
  show (cfg2.win 4).cut (grid2.coords t) ((dat2 V c).after 4 t) = _
  rw [after2_4]
  unfold out2_4
  rw [View.canon_unit_zero origin2]
  simp only [View.ld_unit_zero (S := S8192x128) origin2, View.ld_unit_zero (S := S8192x3) origin2, View.ld_unit_zero (S := S3x128) origin2, View.ld_unit_zero (S := S128) origin1]
  obtain ⟨ea, eb, -⟩ := block_index t
  funext j
  show k2_pay1 (F := Ideal) (iblk2 V c 1 t) (iblk2 V c 2 t) (iblk2 V c 3 t) (iblk2 V c 0 t) j
    = Cert.Spec.msg (E := 606208) (D := 128) (V c main_v32) (V c main_v33) (V c main_arg10) (V c main_arg11) (((cfg2.win 4).blk t).view.emb j)
  refine message_at_row (V c main_v32) (V c main_v33) (V c main_arg10) (V c main_arg11)
    (iblk2 V c 0 t) (iblk2 V c 1 t) (iblk2 V c 2 t) (iblk2 V c 3 t) t.val
    (xg_block V c t) (ea_block V c t) (w_block V c t) (b_block V c t) j (((cfg2.win 4).blk t).view.emb j) ?_ ?_
  · show win2_4.index t (0 : Fin 2) * 8192 + 1 * (j 0).val = t.val * 8192 + (j 0).val
    omega
  · show win2_4.index t (1 : Fin 2) * 128 + 1 * (j 1).val = (j 1).val
    omega

/-- An index of the output array is in point `t`'s block iff each coordinate is in the block's range on its axis. -/
theorem mem_row_block (t : Fin cfg2.N) (i : S606208x128.Idx) :
    i ∈ ((cfg2.win 4).blk t).view.set ↔ ∀ a : Fin 2, win2_4.index t a * S8192x128.size a ≤ (i a).val ∧ (i a).val < win2_4.index t a * S8192x128.size a + S8192x128.size a := by
  show i ∈ ((View.whole main_v34).slice (win2_4.rect t)).set ↔ _
  rw [View.set_slice_whole, Rect.mem_set_unit]
  exact Iff.rfl

/-- Every row of the output is in some point's block: row `r` is in the block of point `r / 8192`
    (74 · 8192 = 606208 rows). -/
theorem rows_covered (i : S606208x128.Idx) :
    ∃ t : Fin cfg2.N, (cfg2.win 4).flush t = true ∧ i ∈ ((cfg2.win 4).blk t).view.set := by
  have hi0 : (i 0).val < 606208 := (i 0).isLt
  have hi1 : (i 1).val < 128 := (i 1).isLt
  have hN : cfg2.N = 74 := N_2
  have ht : (i 0).val / 8192 < cfg2.N := by rw [hN]; omega
  obtain ⟨ea, eb, -⟩ := block_index ⟨(i 0).val / 8192, ht⟩
  refine ⟨⟨(i 0).val / 8192, ht⟩, flush2_4 _, ?_⟩
  rw [mem_row_block]
  intro a
  match a with
  | ⟨0, _⟩ =>
    show win2_4.index ⟨(i 0).val / 8192, ht⟩ (0 : Fin 2) * 8192 ≤ (i 0).val ∧ (i 0).val < win2_4.index ⟨(i 0).val / 8192, ht⟩ (0 : Fin 2) * 8192 + 8192
    rw [ea]
    show (i 0).val / 8192 * 8192 ≤ (i 0).val ∧ (i 0).val < (i 0).val / 8192 * 8192 + 8192
    omega
  | ⟨1, _⟩ =>
    show win2_4.index ⟨(i 0).val / 8192, ht⟩ (1 : Fin 2) * 128 ≤ (i 1).val ∧ (i 1).val < win2_4.index ⟨(i 0).val / 8192, ht⟩ (1 : Fin 2) * 128 + 128
    omega

/-- THE OUTPUT ARRAY AFTER THE REGION is the layer's messages of the gathered rows, the edge attributes, the weight and
    the bias as the region finds them: the written blocks are restrictions of that one function and they tile the array. -/
theorem out_eq (c : Dev nD) :
    (dat2 (F := Ideal) V c).arrAt 4 cfg2.N
      = Cert.Spec.msg (E := 606208) (D := 128) (V c main_v32) (V c main_v33) (V c main_arg10) (V c main_arg11) :=
  (dat2 (F := Ideal) V c).arrAt_eq_of_cover 4
    (Cert.Spec.msg (E := 606208) (D := 128) (V c main_v32) (V c main_v33) (V c main_arg10) (V c main_arg11))
    (fun t _ => written_block_eq V c t) rows_covered

end Cert.KernelIdeal.Region2

end
-- ==== Proof.LibKeepdimsColumn.lean ====
/-
  Two layout operations read at an index given by coordinates: the column forms a row reduction with kept dimensions
  meets. A row's maximum or sum comes out as a vector of length `a`; it is cast to an `[a, 1]` column and the column is
  broadcast along the rows of an `[a, b]` array. Read at `(i, u)` the cast is the vector at `i`; read at `(p, c)` the
  broadcast is the column's entry of row `p`. Both hold for any sizes and any element type.
-/
import Idealize.ShloMosaic.Lib.Pipeline.Value
import Idealize.ShloMosaic.Lib.ValueIdx

namespace Cert.LibKeepdimsColumn

open Idealize.ShloMosaic Idealize.ShloMosaic.ValueIdx

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdimsColumn
-- ==== Proof.Region3Pieces.lean ====
/-
  The pooling call's body, read as values on the extended reals.

  The call walks 50 tiles of 1000 node rows, 25 per half. At each tile it forms the node update of the tile's rows
  (two dense layers with relu over 1 · x + agg), the indicator block (row r, graph g: is r's graph id g?), and adds
  to the half's two output blocks: to the sums block the product of the transposed indicator block with the update,
  to the counts block the indicator's column sums. At a half's first tile both blocks are zeroed first.

  This module reads (i) what each of the body's two cases leaves in each block, as one term over the body's loads,
  and (ii) each of those terms at an index: the update at (g, f) is the block's earlier entry plus the sum over the
  tile's rows of indicator times row; the node update of a tile is the specification's two layers on the tile.
-/
import proofs.«415540_j56006373540375_3_alg».proof.Proof.Gen.KernelIdeal.Frame
import proofs.«415540_j56006373540375_3_alg».proof.Proof.Spec
import proofs.«415540_j56006373540375_3_alg».proof.Proof.LibPlainMatmul
import proofs.«415540_j56006373540375_3_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region3
open Cert.KernelIdeal Cert.KernelIdeal.Gen Idealize.ShloMosaic Idealize.ShloMosaic.TcCoe Idealize.SL.Sem
open Idealize.ShloMosaic.ValueIdx
open scoped BigOperators

/-! ## What each case of the body leaves in the two output blocks

Each is read off the stores the body's run made: in the case that continues a half, one covering store per block whose
payload reads the block's earlier contents; in the case that starts a half, the zero block is stored first and the
covering store reads it back. -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Continuing a half, the sums block: the update of what it held. -/
theorem piece_B_7 (c : Dev nD) (i : grid3.Coords) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1000x1 .i32) (harg8 : arg8.IsWhole) (arg9 : Memref sig .tc .vmem S1x64x128 .f32) (harg9 : arg9.IsWhole) (arg10 : Memref sig .tc .vmem S1x64x1 .f32) (harg10 : arg10.IsWhole) (hc0 : ¬cond3_0 i)
    (x0 : Vec F S1000x128 .f32) (x1 : Vec F S1000x128 .f32) (x2 : Vec F S128x128 .f32) (x3 : Vec F S128 .f32) (x4 : Vec F S128x128 .f32) (x5 : Vec F S128 .f32) (x6 : Vec F S1000x1 .i32) (xo7 : Vec F S1x64x128 .f32) (xo8 : Vec F S1x64x1 .f32) :
    out3_B_7 c i arg2 harg2 arg3 harg3 arg4 harg4 arg5 harg5 arg6 harg6 arg7 harg7 arg8 harg8 arg9 harg9 arg10 harg10 hc0 x0 x1 x2 x3 x4 x5 x6 xo7 xo8
      = k3_pay1 (k3_pay5 x0 x1 x2 x3 x4 x5) (k3_pay6 x6) xo7 := by
  unfold out3_B_7
  rw [View.read_writes_eq_canon _ _ _ (cover3_B_7 c i arg2 harg2 arg3 harg3 arg4 harg4 arg5 harg5 arg6 harg6 arg7 harg7 arg8 harg8 arg9 harg9 arg10 harg10 hc0 x0 x1 x2 x3 x4 x5 x6 xo7 xo8)]
  unfold kernelRun3_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1000x128) hz2, View.ld_unit_zero (S := S128x128) hz2, View.ld_unit_zero (S := S128) hz1, View.ld_unit_zero (S := S1000x1) hz2, View.ld_unit_zero (S := S1x64x128) hz3, View.ld_unit_zero (S := S1x64x1) hz3]

/-- Continuing a half, the counts block: the update of what it held. -/
theorem piece_B_8 (c : Dev nD) (i : grid3.Coords) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1000x1 .i32) (harg8 : arg8.IsWhole) (arg9 : Memref sig .tc .vmem S1x64x128 .f32) (harg9 : arg9.IsWhole) (arg10 : Memref sig .tc .vmem S1x64x1 .f32) (harg10 : arg10.IsWhole) (hc0 : ¬cond3_0 i)
    (x0 : Vec F S1000x128 .f32) (x1 : Vec F S1000x128 .f32) (x2 : Vec F S128x128 .f32) (x3 : Vec F S128 .f32) (x4 : Vec F S128x128 .f32) (x5 : Vec F S128 .f32) (x6 : Vec F S1000x1 .i32) (xo7 : Vec F S1x64x128 .f32) (xo8 : Vec F S1x64x1 .f32) :
    out3_B_8 c i arg2 harg2 arg3 harg3 arg4 harg4 arg5 harg5 arg6 harg6 arg7 harg7 arg8 harg8 arg9 harg9 arg10 harg10 hc0 x0 x1 x2 x3 x4 x5 x6 xo7 xo8
      = k3_pay2 (k3_pay6 x6) xo8 := by
  unfold out3_B_8
  rw [View.read_writes_eq_canon _ _ _ (cover3_B_8 c i arg2 harg2 arg3 harg3 arg4 harg4 arg5 harg5 arg6 harg6 arg7 harg7 arg8 harg8 arg9 harg9 arg10 harg10 hc0 x0 x1 x2 x3 x4 x5 x6 xo7 xo8)]
  unfold kernelRun3_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, View.ld_unit_zero (S := S1000x128) hz2, View.ld_unit_zero (S := S128x128) hz2, View.ld_unit_zero (S := S128) hz1, View.ld_unit_zero (S := S1000x1) hz2, View.ld_unit_zero (S := S1x64x128) hz3, View.ld_unit_zero (S := S1x64x1) hz3]

/-- Starting a half, the sums block: the update of the zero block. -/
theorem piece_A_7 (c : Dev nD) (i : grid3.Coords) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1000x1 .i32) (harg8 : arg8.IsWhole) (arg9 : Memref sig .tc .vmem S1x64x128 .f32) (harg9 : arg9.IsWhole) (arg10 : Memref sig .tc .vmem S1x64x1 .f32) (harg10 : arg10.IsWhole) (hc0 : cond3_0 i)
    (x0 : Vec F S1000x128 .f32) (x1 : Vec F S1000x128 .f32) (x2 : Vec F S128x128 .f32) (x3 : Vec F S128 .f32) (x4 : Vec F S128x128 .f32) (x5 : Vec F S128 .f32) (x6 : Vec F S1000x1 .i32) :
    out3_A_7 c i arg2 harg2 arg3 harg3 arg4 harg4 arg5 harg5 arg6 harg6 arg7 harg7 arg8 harg8 arg9 harg9 arg10 harg10 hc0 x0 x1 x2 x3 x4 x5 x6
      = k3_pay1 (k3_pay5 x0 x1 x2 x3 x4 x5) (k3_pay6 x6) (k3_pay3 (F := F)) := by
  unfold out3_A_7
  rw [View.read_writes_eq_canon _ _ _ (cover3_A_7 c i arg2 harg2 arg3 harg3 arg4 harg4 arg5 harg5 arg6 harg6 arg7 harg7 arg8 harg8 arg9 harg9 arg10 harg10 hc0 x0 x1 x2 x3 x4 x5 x6)]
  unfold kernelRun3_A
  dsimp only
  sl_unfold_words
  rw [View.canon_cons_unit_zero (S := S1x64x128) hz3, View.readCov_unit_zero (S := S1x64x128) _ hz3]
  simp only [View.readAt_eq_ld, harg2.read_unread, harg3.read_unread, harg4.read_unread, harg5.read_unread, harg6.read_unread, harg7.read_unread, harg8.read_unread, harg9.read_unread, harg10.read_unread, View.ld_unit_zero (S := S1000x128) hz2, View.ld_unit_zero (S := S128x128) hz2, View.ld_unit_zero (S := S128) hz1, View.ld_unit_zero (S := S1000x1) hz2, View.ld_unit_zero (S := S1x64x128) hz3, View.ld_unit_zero (S := S1x64x1) hz3]

/-- Starting a half, the counts block: the update of the zero block. -/
theorem piece_A_8 (c : Dev nD) (i : grid3.Coords) (arg2 : Memref sig .tc .vmem S1000x128 .f32) (harg2 : arg2.IsWhole) (arg3 : Memref sig .tc .vmem S1000x128 .f32) (harg3 : arg3.IsWhole) (arg4 : Memref sig .tc .vmem S128x128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S1000x1 .i32) (harg8 : arg8.IsWhole) (arg9 : Memref sig .tc .vmem S1x64x128 .f32) (harg9 : arg9.IsWhole) (arg10 : Memref sig .tc .vmem S1x64x1 .f32) (harg10 : arg10.IsWhole) (hc0 : cond3_0 i)
    (x0 : Vec F S1000x128 .f32) (x1 : Vec F S1000x128 .f32) (x2 : Vec F S128x128 .f32) (x3 : Vec F S128 .f32) (x4 : Vec F S128x128 .f32) (x5 : Vec F S128 .f32) (x6 : Vec F S1000x1 .i32) :
    out3_A_8 c i arg2 harg2 arg3 harg3 arg4 harg4 arg5 harg5 arg6 harg6 arg7 harg7 arg8 harg8 arg9 harg9 arg10 harg10 hc0 x0 x1 x2 x3 x4 x5 x6
      = k3_pay2 (k3_pay6 x6) (k3_pay4 (F := F)) := by
  unfold out3_A_8
  rw [View.read_writes_eq_canon _ _ _ (cover3_A_8 c i arg2 harg2 arg3 harg3 arg4 harg4 arg5 harg5 arg6 harg6 arg7 harg7 arg8 harg8 arg9 harg9 arg10 harg10 hc0 x0 x1 x2 x3 x4 x5 x6)]
  unfold kernelRun3_A
  dsimp only
  sl_unfold_words
  rw [View.canon_cons_unit_zero (S := S1x64x1) hz3, View.readCov_unit_zero (S := S1x64x1) _ hz3]
  simp only [View.readAt_eq_ld, harg2.read_unread, harg3.read_unread, harg4.read_unread, harg5.read_unread, harg6.read_unread, harg7.read_unread, harg8.read_unread, harg9.read_unread, harg10.read_unread, View.ld_unit_zero (S := S1000x128) hz2, View.ld_unit_zero (S := S128x128) hz2, View.ld_unit_zero (S := S128) hz1, View.ld_unit_zero (S := S1000x1) hz2, View.ld_unit_zero (S := S1x64x128) hz3, View.ld_unit_zero (S := S1x64x1) hz3]

end Pieces

/-! ## The payloads at an index, on the extended reals -/

/-- The reset value: the zero word is 0. -/
theorem pay3_apply (i : S1x64x128.Idx) : k3_pay3 (F := Ideal) i = 0 := Ideal.ofBits_zero_f32
theorem pay4_apply (i : S1x64x1.Idx) : k3_pay4 (F := Ideal) i = 0 := Ideal.ofBits_zero_f32

/-- The float of the one-bit word of a comparison of two words: 1 where they agree, 0 elsewhere. -/
theorem sitofp_eq_bit (a b : BitVec 32) :
    FloatOps.sitofp (F := Ideal) .f32 ((IntOp.cmpi .eq a b).setWidth 32) = if a = b then 1 else 0 := by
  by_cases h : a = b
  · subst h
    rw [if_pos rfl]
    show (((((IntOp.cmpi .eq a a).setWidth 32).toInt : ℝ)) : EReal) = 1
    have : (IntOp.cmpi .eq a a).setWidth 32 = 1#32 := by simp [IntOp.cmpi]
    rw [this]; simp
  · rw [if_neg h]
    show (((((IntOp.cmpi .eq a b).setWidth 32).toInt : ℝ)) : EReal) = 0
    have hb : (a == b) = false := by simpa using h
    have : (IntOp.cmpi .eq a b).setWidth 32 = 0#32 := by simp [IntOp.cmpi, hb]
    rw [this]; simp

/-- The indicator block: entry (r, g) says whether row r's graph id is g. The id column is cast to a vector and
    back (the identity), spread along the 64 lanes, and compared with the lane number. -/
theorem pay6_apply (ids : Vec Ideal S1000x1 .i32) (r : Fin 1000) (g : Fin 64) :
    k3_pay6 (F := Ideal) ids (ix2 r g) = Cert.Spec.oh (ids (ix2 r 0)) g.val := by
  unfold k3_pay6
  simp only [shapeCast_self, shapeCast_shapeCast]
  show FloatOps.sitofp (F := Ideal) .f32 ((IntOp.cmpi .eq (broadcastTo S1000x64 ids broadcasts_S1000x1_S1000x64 (ix2 r g)) (iota .tc S1000x64 32 [1] iota_S1000x64_d1_w32 (ix2 r g))).setWidth 32) = _
  rw [Cert.LibKeepdimsColumn.broadcastTo_a1_ab_apply, iota_single_apply, sitofp_eq_bit]
  rfl

/-- A dense layer with relu as the kernel spells it — a product into a zero accumulator, the bias cast to a row and
    spread over the rows, the maximum with a zero splat — is the layer of the specification. -/
theorem dense_eq (y : FVec Ideal S1000x128 .f32) (w : FVec Ideal S128x128 .f32) (b : FVec Ideal S128 .f32) :
    maximumf (addf (matmul dot_S1000x128_S128x128_S1000x128_1_0_0_1_n_n none y w (constant S1000x128 .f32 0x00000000#32))
        (broadcastTo S1000x128 (shapeCast S1x128 b shapeCasts_S128_S1x128) broadcasts_S1x128_S1000x128))
      (broadcast S1000x128 (Scalar.ofBits .f32 0x00000000#32))
      = Cert.Spec.dense (N := 1000) (K := 128) (H := 128) y w b := by
  funext i
  obtain ⟨r, f, rfl⟩ : ∃ (r : Fin 1000) (f : Fin 128), i = ix2 r f := ⟨i 0, i 1, eq_ix2 i⟩
  show max (FloatOps.matmul dot_S1000x128_S128x128_S1000x128_1_0_0_1_n_n none y w (constant S1000x128 .f32 0x00000000#32) (ix2 r f)
      + broadcastTo S1000x128 (shapeCast S1x128 b shapeCasts_S128_S1x128) broadcasts_S1x128_S1000x128 (ix2 r f)) Cert.Spec.zero
    = max ((∑ k : Fin 128, y (ix2 r k) * w (ix2 k f)) + b (ix1 f)) Cert.Spec.zero
  rw [Cert.Lib.matmul_plain_apply _ rfl rfl rfl rfl rfl rfl, broadcastTo_1b_ab_apply, shapeCast_a_1a_apply]

/-- What enters the layers: the 1.0 splat times x, plus the summed messages. -/
theorem pre_eq (x agg : FVec Ideal S1000x128 .f32) :
    (addf (mulf (broadcast S1000x128 (Scalar.ofBits (F := Ideal) .f32 0x3F800000#32)) (shapeCast S1000x128 x shapeCasts_S1000x128_S1000x128))
        (shapeCast S1000x128 agg shapeCasts_S1000x128_S1000x128) : FVec Ideal S1000x128 .f32)
      = Cert.Spec.pre (N := 1000) (K := 128) x agg := by
  rw [shapeCast_self, shapeCast_self]; rfl

/-- The node update of a tile of 1000 rows is the specification's, on the tile. -/
theorem pay5_eq (x0 x1 : Vec Ideal S1000x128 .f32) (x2 : Vec Ideal S128x128 .f32) (x3 : Vec Ideal S128 .f32)
    (x4 : Vec Ideal S128x128 .f32) (x5 : Vec Ideal S128 .f32) :
    k3_pay5 (F := Ideal) x0 x1 x2 x3 x4 x5 = Cert.Spec.mlp (N := 1000) (K := 128) (H := 128) x0 x1 x2 x3 x4 x5 :=
  (dense_eq _ x4 x5).trans (congrArg (fun y => Cert.Spec.dense (N := 1000) (K := 128) (H := 128) y x4 x5)
    ((dense_eq _ x2 x3).trans (congrArg (fun y => Cert.Spec.dense (N := 1000) (K := 128) (H := 128) y x2 x3) (pre_eq x0 x1))))

/-- The sums block's update at (g, f): what it held plus, over the tile's rows, indicator times row. -/
theorem pay1_apply (h2 : FVec Ideal S1000x128 .f32) (ohv : FVec Ideal S1000x64 .f32) (acc : Vec Ideal S1x64x128 .f32)
    (u : Fin 1) (g : Fin 64) (f : Fin 128) :
    k3_pay1 (F := Ideal) h2 ohv acc (ix3 u g f) = acc (ix3 (0 : Fin 1) g f) + ∑ r : Fin 1000, ohv (ix2 r g) * h2 (ix2 r f) := by
  unfold k3_pay1
  refine (shapeCast_ab_1ab_apply _ _ u g f).trans ?_
  refine congrArg₂ (· + ·) (shapeCast_1ab_ab_apply _ _ g f) ?_
  refine (Cert.Lib.matmul_plain_apply _ rfl rfl rfl rfl rfl rfl none _ _ g f).trans ?_
  exact Finset.sum_congr rfl fun k _ => congrArg (· * h2 (ix2 k f)) (transpose_ix2_apply _ _ g k)

/-- A lane sum down the 1000 rows, from the zero word: the sum over the rows. -/
theorem colsum_apply (ohv : FVec Ideal S1000x64 .f32) (hφ : FKind.Formats .f32)
    (hacc : (0x00000000#32 : BitVec 32) = 0x00000000#32) (g : Fin 64) :
    multiReduction .add [0] S64 ohv 0x00000000#32 reduces_S1000x64_S64 hφ hacc (ix1 g) = ∑ r : Fin 1000, ohv (ix2 r g) := by
  refine (Ideal.multiReduction_add_single ohv 0x00000000#32 reduces_S1000x64_S64 hφ hacc (ix1 g)).trans ?_
  show ∑ r : Fin 1000, ohv (reduces_S1000x64_S64.lift (ix1 g) r) = _
  refine Finset.sum_congr rfl fun k _ => congrArg ohv ?_
  funext a
  apply Fin.ext
  match a with
  | ⟨0, _⟩ => rfl
  | ⟨1, _⟩ => rfl

/-- The counts block's update at g: what it held plus the number of the tile's rows in graph g. -/
theorem pay2_apply (ohv : FVec Ideal S1000x64 .f32) (acc : Vec Ideal S1x64x1 .f32) (u : Fin 1) (g : Fin 64) (z : Fin 1) :
    k3_pay2 (F := Ideal) ohv acc (ix3 u g z) = acc (ix3 (0 : Fin 1) g z) + ∑ r : Fin 1000, ohv (ix2 r g) := by
  unfold k3_pay2
  refine (shapeCast_ab_1ab_apply _ _ u g z).trans ?_
  refine congrArg₂ (· + ·) (shapeCast_1ab_ab_apply _ _ g z) ?_
  refine (transpose_ix2_apply _ _ g z).trans ?_
  refine (shapeCast_a_1a_apply _ _ z g).trans ?_
  exact colsum_apply ohv _ _ g

end Cert.KernelIdeal.Region3
end
-- ==== Proof.Region3.lean ====
/-
  The pooling call: its two output arrays after the 50 grid points.

  Point t = 25 c + j works on tile t of the node rows, for half c. The sums block of half c is zeroed at j = 0 and
  at every point gains, at (g, f), the sum over the tile's 1000 rows of [row's graph id = g] · (updated row)[f]; the
  counts block gains the indicator's sum. The block is carried over the half's 25 points and written to block c of
  its array at j = 24. So entry (c, g, f) of the sums array ends as ((0 + s₀) + s₁) + … + s₂₄, the addends of the
  half's tiles in order, which on the extended reals (an additive commutative monoid; 0 + x = x also at the
  infinities) is the double sum of the specification. The counts array likewise.

  The steps: a tile's rows and the whole parameter windows read as rows of the arrays the call finds; one point's
  update at an entry, in its two cases; the running value by induction on the point; the written-back block; the
  two halves' blocks cover each array.
-/
import proofs.«415540_j56006373540375_3_alg».proof.Proof.Region3Pieces

noncomputable section

namespace Cert.KernelIdeal.Region3
open Cert.KernelIdeal Cert.KernelIdeal.Gen Idealize.ShloMosaic Idealize.ShloMosaic.TcCoe Idealize.SL.Sem
open Idealize.ShloMosaic.ValueIdx
open scoped BigOperators

/-! ## The specification's node update depends on a row only through that row -/

theorem mlp_row {N N' : Nat} (x agg : Cert.Spec.Arr2 N 128) (x' agg' : Cert.Spec.Arr2 N' 128) (wa : Cert.Spec.Arr2 128 128)
    (ba : Cert.Spec.Arr1 128) (wb : Cert.Spec.Arr2 128 128) (bb : Cert.Spec.Arr1 128) (n : Fin N) (n' : Fin N')
    (hx : ∀ k, x (ix2 n k) = x' (ix2 n' k)) (ha : ∀ k, agg (ix2 n k) = agg' (ix2 n' k)) (f : Fin 128) :
    Cert.Spec.mlp x agg wa ba wb bb (ix2 n f) = Cert.Spec.mlp x' agg' wa ba wb bb (ix2 n' f) := by
  show max ((∑ k : Fin 128, max ((∑ k' : Fin 128, (Cert.Spec.one * x (ix2 n k') + agg (ix2 n k')) * wa (ix2 k' k)) + ba (ix1 k)) Cert.Spec.zero * wb (ix2 k f)) + bb (ix1 f)) Cert.Spec.zero
     = max ((∑ k : Fin 128, max ((∑ k' : Fin 128, (Cert.Spec.one * x' (ix2 n' k') + agg' (ix2 n' k')) * wa (ix2 k' k)) + ba (ix1 k)) Cert.Spec.zero * wb (ix2 k f)) + bb (ix1 f)) Cert.Spec.zero
  simp only [hx, ha]

/-! ## The windows' index maps, decided over the 50 points

Point t reads tile t of the node table, of the summed messages and of the graph ids; the four parameter windows
are whole; the two output windows sit at block t / 25. -/

theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0
    ∧ win3_7.index t (0 : Fin 3) = t.val / 25 ∧ win3_7.index t (1 : Fin 3) = 0 ∧ win3_7.index t (2 : Fin 3) = 0
    ∧ win3_8.index t (0 : Fin 3) = t.val / 25 ∧ win3_8.index t (1 : Fin 3) = 0 ∧ win3_8.index t (2 : Fin 3) = 0 :=
  (by decide +kernel : ∀ t : Fin grid3.N, _)

section Main
variable (V : (c : Dev nD) → (b : Ref sig .tc) → Buf (Elt Ideal) ((c : Thread nD τ).loc b))

/-! ## The arrays and the blocks, by their literal types -/

abbrev aX (c : Dev nD) : Cert.Spec.Arr2 50000 128 := V c main_v40
abbrev aAG (c : Dev nD) : Cert.Spec.Arr2 50000 128 := V c main_v41
abbrev aWA (c : Dev nD) : Cert.Spec.Arr2 128 128 := V c main_arg12
abbrev aBA (c : Dev nD) : Cert.Spec.Arr1 128 := V c main_arg13
abbrev aWB (c : Dev nD) : Cert.Spec.Arr2 128 128 := V c main_arg14
abbrev aBB (c : Dev nD) : Cert.Spec.Arr1 128 := V c main_arg15
abbrev aIDS (c : Dev nD) : (⟨2, ![50000, 1]⟩ : Shape).Idx → BitVec 32 := V c main_v42
/-- The node table after the second layer's update. -/
abbrev aH2 (c : Dev nD) : Cert.Spec.Arr2 50000 128 :=
  Cert.Spec.mlp (N := 50000) (K := 128) (H := 128) (aX V c) (aAG V c) (aWA V c) (aBA V c) (aWB V c) (aBB V c)

abbrev xb (c : Dev nD) (t : Fin cfg3.N) : FVec Ideal S1000x128 .f32 := iblk3 V c 0 t
abbrev agb (c : Dev nD) (t : Fin cfg3.N) : FVec Ideal S1000x128 .f32 := iblk3 V c 1 t
abbrev wab (c : Dev nD) (t : Fin cfg3.N) : FVec Ideal S128x128 .f32 := iblk3 V c 2 t
abbrev bab (c : Dev nD) (t : Fin cfg3.N) : FVec Ideal S128 .f32 := iblk3 V c 3 t
abbrev wbb (c : Dev nD) (t : Fin cfg3.N) : FVec Ideal S128x128 .f32 := iblk3 V c 4 t
abbrev bbb (c : Dev nD) (t : Fin cfg3.N) : FVec Ideal S128 .f32 := iblk3 V c 5 t
abbrev idb (c : Dev nD) (t : Fin cfg3.N) : IVec S1000x1 32 := iblk3 V c 6 t

/-! ## Block reads: a tile's row r is row 1000 t + r of the array; a parameter's block is the parameter -/

theorem xb_apply (c : Dev nD) (t : Fin cfg3.N) (r : Fin 1000) (k : Fin 128) (n : Fin 50000)
    (hn : n.val = 1000 * t.val + r.val) : xb V c t (ix2 r k) = aX V c (ix2 n k) := by
  obtain ⟨e00, e01, e10, e11, e20, e21, e30, e40, e41, e50, e60, e61, e70, e71, e72, e80, e81, e82⟩ := idx_facts t
  show ((cfg3.win 0).blk t).view.read (Elt Ideal) (V c (Pipeline.arrRef spec3 0)) (ix2 r k) = _
  rw [View.read_apply]
  show V c main_v40 (((cfg3.win 0).blk t).view.emb (ix2 r k)) = V c main_v40 (ix2 n k)
  refine congrArg (V c main_v40) (funext fun a => Fin.ext ?_)
  match a with
  | ⟨0, _⟩ => show win3_0.index t (0 : Fin 2) * 1000 + 1 * r.val = n.val; omega
  | ⟨1, _⟩ => show win3_0.index t (1 : Fin 2) * 128 + 1 * k.val = k.val; omega

theorem agb_apply (c : Dev nD) (t : Fin cfg3.N) (r : Fin 1000) (k : Fin 128) (n : Fin 50000)
    (hn : n.val = 1000 * t.val + r.val) : agb V c t (ix2 r k) = aAG V c (ix2 n k) := by
  obtain ⟨e00, e01, e10, e11, e20, e21, e30, e40, e41, e50, e60, e61, e70, e71, e72, e80, e81, e82⟩ := idx_facts t
  show ((cfg3.win 1).blk t).view.read (Elt Ideal) (V c (Pipeline.arrRef spec3 1)) (ix2 r k) = _
  rw [View.read_apply]
  show V c main_v41 (((cfg3.win 1).blk t).view.emb (ix2 r k)) = V c main_v41 (ix2 n k)
  refine congrArg (V c main_v41) (funext fun a => Fin.ext ?_)
  match a with
  | ⟨0, _⟩ => show win3_1.index t (0 : Fin 2) * 1000 + 1 * r.val = n.val; omega
  | ⟨1, _⟩ => show win3_1.index t (1 : Fin 2) * 128 + 1 * k.val = k.val; omega

theorem idb_apply (c : Dev nD) (t : Fin cfg3.N) (r : Fin 1000) (k : Fin 1) (n : Fin 50000)
    (hn : n.val = 1000 * t.val + r.val) : idb V c t (ix2 r k) = aIDS V c (ix2 n k) := by
  obtain ⟨e00, e01, e10, e11, e20, e21, e30, e40, e41, e50, e60, e61, e70, e71, e72, e80, e81, e82⟩ := idx_facts t
  show ((cfg3.win 6).blk t).view.read (Elt Ideal) (V c (Pipeline.arrRef spec3 6)) (ix2 r k) = _
  rw [View.read_apply]
  show V c main_v42 (((cfg3.win 6).blk t).view.emb (ix2 r k)) = V c main_v42 (ix2 n k)
  refine congrArg (V c main_v42) (funext fun a => Fin.ext ?_)
  match a with
  | ⟨0, _⟩ => show win3_6.index t (0 : Fin 2) * 1000 + 1 * r.val = n.val; omega
  | ⟨1, _⟩ => show win3_6.index t (1 : Fin 2) * 1 + 1 * k.val = k.val; omega

theorem wab_eq (c : Dev nD) (t : Fin cfg3.N) : wab V c t = aWA V c := by
  obtain ⟨e00, e01, e10, e11, e20, e21, e30, e40, e41, e50, e60, e61, e70, e71, e72, e80, e81, e82⟩ := idx_facts t
  funext j
  show ((cfg3.win 2).blk t).view.read (Elt Ideal) (V c (Pipeline.arrRef spec3 2)) j = _
  rw [View.read_apply]
  show V c main_arg12 (((cfg3.win 2).blk t).view.emb j) = V c main_arg12 j
  refine congrArg (V c main_arg12) (funext fun a => Fin.ext ?_)
  match a with
  | ⟨0, _⟩ => show win3_2.index t (0 : Fin 2) * 128 + 1 * (j 0).val = (j 0).val; omega
  | ⟨1, _⟩ => show win3_2.index t (1 : Fin 2) * 128 + 1 * (j 1).val = (j 1).val; omega

theorem bab_eq (c : Dev nD) (t : Fin cfg3.N) : bab V c t = aBA V c := by
  obtain ⟨e00, e01, e10, e11, e20, e21, e30, e40, e41, e50, e60, e61, e70, e71, e72, e80, e81, e82⟩ := idx_facts t
  funext j
  show ((cfg3.win 3).blk t).view.read (Elt Ideal) (V c (Pipeline.arrRef spec3 3)) j = _
  rw [View.read_apply]
  show V c main_arg13 (((cfg3.win 3).blk t).view.emb j) = V c main_arg13 j
  refine congrArg (V c main_arg13) (funext fun a => Fin.ext ?_)
  match a with
  | ⟨0, _⟩ => show win3_3.index t (0 : Fin 1) * 128 + 1 * (j 0).val = (j 0).val; omega

theorem wbb_eq (c : Dev nD) (t : Fin cfg3.N) : wbb V c t = aWB V c := by
  obtain ⟨e00, e01, e10, e11, e20, e21, e30, e40, e41, e50, e60, e61, e70, e71, e72, e80, e81, e82⟩ := idx_facts t
  funext j
  show ((cfg3.win 4).blk t).view.read (Elt Ideal) (V c (Pipeline.arrRef spec3 4)) j = _
  rw [View.read_apply]
  show V c main_arg14 (((cfg3.win 4).blk t).view.emb j) = V c main_arg14 j
  refine congrArg (V c main_arg14) (funext fun a => Fin.ext ?_)
  match a with
  | ⟨0, _⟩ => show win3_4.index t (0 : Fin 2) * 128 + 1 * (j 0).val = (j 0).val; omega
  | ⟨1, _⟩ => show win3_4.index t (1 : Fin 2) * 128 + 1 * (j 1).val = (j 1).val; omega

theorem bbb_eq (c : Dev nD) (t : Fin cfg3.N) : bbb V c t = aBB V c := by
  obtain ⟨e00, e01, e10, e11, e20, e21, e30, e40, e41, e50, e60, e61, e70, e71, e72, e80, e81, e82⟩ := idx_facts t
  funext j
  show ((cfg3.win 5).blk t).view.read (Elt Ideal) (V c (Pipeline.arrRef spec3 5)) j = _
  rw [View.read_apply]
  show V c main_arg15 (((cfg3.win 5).blk t).view.emb j) = V c main_arg15 j
  refine congrArg (V c main_arg15) (funext fun a => Fin.ext ?_)
  match a with
  | ⟨0, _⟩ => show win3_5.index t (0 : Fin 1) * 128 + 1 * (j 0).val = (j 0).val; omega

/-! ## One tile's contribution -/

/-- Row r of tile t, as a row of the node table (t below 50; the remainder only makes the function total). -/
def rowN (t : ℕ) (r : Fin 1000) : Fin 50000 := ⟨(1000 * t + r.val) % 50000, Nat.mod_lt _ (by omega)⟩

/-- Tile t's addend to sums entry (g, f): over its rows, indicator times updated row. -/
def termS (c : Dev nD) (t : ℕ) (g : Fin 64) (f : Fin 128) : EReal :=
  ∑ r : Fin 1000, Cert.Spec.oh (aIDS V c (ix2 (rowN t r) 0)) g.val * aH2 V c (ix2 (rowN t r) f)

/-- Tile t's addend to counts entry g: the number of its rows in graph g. -/
def termC (c : Dev nD) (t : ℕ) (g : Fin 64) : EReal :=
  ∑ r : Fin 1000, Cert.Spec.oh (aIDS V c (ix2 (rowN t r) 0)) g.val

theorem rowN_val (t : Fin cfg3.N) (r : Fin 1000) : (rowN t.val r).val = 1000 * t.val + r.val := by
  have hN : t.val < 50 := lt_of_lt_of_eq t.isLt (show cfg3.N = 50 from N_3)
  have := r.isLt
  exact Nat.mod_eq_of_lt (by omega)

/-- The sums update at point t adds tile t's addend. -/
theorem stepS (c : Dev nD) (t : Fin cfg3.N) (acc : Vec Ideal S1x64x128 .f32) (g : Fin 64) (f : Fin 128) :
    k3_pay1 (F := Ideal) (k3_pay5 (xb V c t) (agb V c t) (wab V c t) (bab V c t) (wbb V c t) (bbb V c t)) (k3_pay6 (idb V c t)) acc (ix3 (0 : Fin 1) g f)
      = acc (ix3 (0 : Fin 1) g f) + termS V c t.val g f := by
  rw [pay1_apply]
  refine congrArg (acc (ix3 (0 : Fin 1) g f) + ·) (Finset.sum_congr rfl fun r _ => ?_)
  rw [pay6_apply, pay5_eq, idb_apply V c t r 0 (rowN t.val r) (rowN_val t r), wab_eq, bab_eq, wbb_eq, bbb_eq]
  exact congrArg (Cert.Spec.oh (aIDS V c (ix2 (rowN t.val r) 0)) g.val * ·)
    (mlp_row (xb V c t) (agb V c t) (aX V c) (aAG V c) (aWA V c) (aBA V c) (aWB V c) (aBB V c) r (rowN t.val r)
      (fun k => xb_apply V c t r k _ (rowN_val t r)) (fun k => agb_apply V c t r k _ (rowN_val t r)) f)

/-- The counts update at point t adds tile t's count. -/
theorem stepC (c : Dev nD) (t : Fin cfg3.N) (acc : Vec Ideal S1x64x1 .f32) (g : Fin 64) :
    k3_pay2 (F := Ideal) (k3_pay6 (idb V c t)) acc (ix3 (0 : Fin 1) g (0 : Fin 1))
      = acc (ix3 (0 : Fin 1) g (0 : Fin 1)) + termC V c t.val g := by
  rw [pay2_apply]
  refine congrArg (acc (ix3 (0 : Fin 1) g (0 : Fin 1)) + ·) (Finset.sum_congr rfl fun r _ => ?_)
  rw [pay6_apply, idb_apply V c t r 0 (rowN t.val r) (rowN_val t r)]

/-! ## The two cases of a point, at an entry -/

theorem sumsA (c : Dev nD) (t : Fin cfg3.N) (h0 : t.val % 25 = 0) (g : Fin 64) (f : Fin 128) :
    (outsAt3 V c t.val t.isLt).1 (ix3 (0 : Fin 1) g f) = termS V c t.val g f := by
  rw [outsAt3_A V c t h0]
  dsimp only
  refine (congrFun (piece_A_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t) (iblk3 V c 6 t)) (ix3 (0 : Fin 1) g f)).trans ?_
  refine (stepS V c t _ g f).trans ?_
  rw [pay3_apply, zero_add]

theorem sumsB (c : Dev nD) (t : Fin cfg3.N) (h0 : ¬t.val % 25 = 0) (g : Fin 64) (f : Fin 128) :
    (outsAt3 V c t.val t.isLt).1 (ix3 (0 : Fin 1) g f)
      = (outsAt3 V c (t.val - 1) (Nat.lt_of_le_of_lt (Nat.sub_le _ _) t.isLt)).1 (ix3 (0 : Fin 1) g f) + termS V c t.val g f := by
  rw [outsAt3_B V c t h0]
  dsimp only
  refine (congrFun (piece_B_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).1 (outsAt3 V c (t.val - 1) (Nat.lt_of_le_of_lt (Nat.sub_le _ _) t.isLt)).2) (ix3 (0 : Fin 1) g f)).trans ?_
  exact stepS V c t _ g f

theorem cntsA (c : Dev nD) (t : Fin cfg3.N) (h0 : t.val % 25 = 0) (g : Fin 64) :
    (outsAt3 V c t.val t.isLt).2 (ix3 (0 : Fin 1) g (0 : Fin 1)) = termC V c t.val g := by
  rw [outsAt3_A V c t h0]
  dsimp only
  refine (congrFun (piece_A_8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) ((hcond3_0 t).mpr h0) (iblk3 V c 0 t) (iblk3 V c 1 t) (iblk3 V c 2 t) (iblk3 V c 3 t) (iblk3 V c 4 t) (iblk3 V c 5 t) (iblk3 V c 6 t)) (ix3 (0 : Fin 1) g (0 : Fin 1))).trans ?_
  refine (stepC V c t _ g).trans ?_
  rw [pay4_apply, zero_add]

theorem cntsB (c : Dev nD) (t : Fin cfg3.N) (h0 : ¬t.val % 25 = 0) (g : Fin 64) :
    (outsAt3 V c t.val t.isLt).2 (ix3 (0 : Fin 1) g (0 : Fin 1))
      = (outsAt3 V c (t.val - 1) (Nat.lt_of_le_of_lt (Nat.sub_le _ _) t.isLt)).2 (ix3 (0 : Fin 1) g (0 : Fin 1)) + termC V c t.val g := by
  rw [outsAt3_B V c t h0]
  dsimp only
  refine (congrFun (piece_B_8 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (fun h => h0 ((hcond3_0 t).mp h)) (iblk3 V c 0 t) (iblk3 V c 1 t) (iblk3 V c 2 t) (iblk3 V c 3 t) (iblk3 V c 4 t) (iblk3 V c 5 t) (iblk3 V c 6 t) (outsAt3 V c (t.val - 1) (Nat.lt_of_le_of_lt (Nat.sub_le _ _) t.isLt)).1 (outsAt3 V c (t.val - 1) (Nat.lt_of_le_of_lt (Nat.sub_le _ _) t.isLt)).2) (ix3 (0 : Fin 1) g (0 : Fin 1))).trans ?_
  exact stepC V c t _ g

/-! ## The running blocks: after point n, the sum of the tiles of n's half up to n

By induction on the point: a half's first point leaves 0 plus its tile's addend, every other point what the point
before left plus its own. -/

theorem sums_inv (c : Dev nD) : ∀ (n : ℕ) (hn : n < cfg3.N) (g : Fin 64) (f : Fin 128),
    (outsAt3 V c n hn).1 (ix3 (0 : Fin 1) g f) = ∑ s ∈ Finset.range (n % 25 + 1), termS V c (n - n % 25 + s) g f
  | 0, hn, g, f => (sumsA V c ⟨0, hn⟩ rfl g f).trans (by simp)
  | n + 1, hn, g, f => by
    by_cases h0 : (n + 1) % 25 = 0
    · refine (sumsA V c ⟨n + 1, hn⟩ h0 g f).trans ?_
      rw [h0]; simp
    · refine (sumsB V c ⟨n + 1, hn⟩ h0 g f).trans ?_
      show (outsAt3 V c n _).1 (ix3 (0 : Fin 1) g f) + termS V c (n + 1) g f = _
      rw [sums_inv c n (Nat.lt_of_succ_lt hn) g f]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]

theorem cnts_inv (c : Dev nD) : ∀ (n : ℕ) (hn : n < cfg3.N) (g : Fin 64),
    (outsAt3 V c n hn).2 (ix3 (0 : Fin 1) g (0 : Fin 1)) = ∑ s ∈ Finset.range (n % 25 + 1), termC V c (n - n % 25 + s) g
  | 0, hn, g => (cntsA V c ⟨0, hn⟩ rfl g).trans (by simp)
  | n + 1, hn, g => by
    by_cases h0 : (n + 1) % 25 = 0
    · refine (cntsA V c ⟨n + 1, hn⟩ h0 g).trans ?_
      rw [h0]; simp
    · refine (cntsB V c ⟨n + 1, hn⟩ h0 g).trans ?_
      show (outsAt3 V c n _).2 (ix3 (0 : Fin 1) g (0 : Fin 1)) + termC V c (n + 1) g = _
      rw [cnts_inv c n (Nat.lt_of_succ_lt hn) g]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]

/-- Row r of tile 25 q + j is the specification's node (q, j, r). -/
theorem rowN_node (t : ℕ) (ht : t < 50) (h24 : t % 25 = 24) (q : Fin 2) (hq : q.val = t / 25) (j : Fin 25) (r : Fin 1000) :
    rowN (t - 24 + j.val) r = Cert.Spec.node q j r := Fin.ext (by
  show (1000 * (t - 24 + j.val) + r.val) % 50000 = 1000 * (25 * q.val + j.val) + r.val
  have := j.isLt; have := r.isLt; omega)

/-- At a half's last point the sums block is the half's block of the pooled sums. -/
theorem sums_last (c : Dev nD) (t : Fin cfg3.N) (h24 : t.val % 25 = 24) (q : Fin 2) (hq : q.val = t.val / 25)
    (g : Fin 64) (f : Fin 128) :
    (outsAt3 V c t.val t.isLt).1 (ix3 (0 : Fin 1) g f) = Cert.Spec.poolSums (aH2 V c) (aIDS V c) (ix3 q g f) := by
  have hN : t.val < 50 := lt_of_lt_of_eq t.isLt (show cfg3.N = 50 from N_3)
  rw [sums_inv V c t.val t.isLt g f, h24]
  show ∑ s ∈ Finset.range 25, termS V c (t.val - 24 + s) g f
    = ∑ j : Fin 25, ∑ r : Fin 1000, Cert.Spec.oh (aIDS V c (ix2 (Cert.Spec.node q j r) 0)) g.val * aH2 V c (ix2 (Cert.Spec.node q j r) f)
  rw [Finset.sum_range]
  refine Finset.sum_congr rfl fun j _ => ?_
  unfold termS
  refine Finset.sum_congr rfl fun r _ => ?_
  rw [rowN_node t.val hN h24 q hq j r]

/-- At a half's last point the counts block is the half's block of the pooled counts. -/
theorem cnts_last (c : Dev nD) (t : Fin cfg3.N) (h24 : t.val % 25 = 24) (q : Fin 2) (hq : q.val = t.val / 25)
    (g : Fin 64) (z : Fin 1) :
    (outsAt3 V c t.val t.isLt).2 (ix3 (0 : Fin 1) g (0 : Fin 1)) = Cert.Spec.poolCnts (aIDS V c) (ix3 q g z) := by
  have hN : t.val < 50 := lt_of_lt_of_eq t.isLt (show cfg3.N = 50 from N_3)
  rw [cnts_inv V c t.val t.isLt g, h24]
  show ∑ s ∈ Finset.range 25, termC V c (t.val - 24 + s) g
    = ∑ j : Fin 25, ∑ r : Fin 1000, Cert.Spec.oh (aIDS V c (ix2 (Cert.Spec.node q j r) 0)) g.val
  rw [Finset.sum_range]
  refine Finset.sum_congr rfl fun j _ => ?_
  unfold termC
  refine Finset.sum_congr rfl fun r _ => ?_
  rw [rowN_node t.val hN h24 q hq j r]

/-! ## What is written back, and where

A block is written back at a half's last point (t % 25 = 24), to block t / 25 of its array; the two halves' blocks
are the whole array. -/

theorem flushed7_eq (c : Dev nD) (t : Fin cfg3.N) (hf : (cfg3.win 7).flush t = true) :
    (dat3 (F := Ideal) V c).flushed 7 t
      = ((cfg3.win 7).blk t).view.read (Elt Ideal) (Cert.Spec.poolSums (aH2 V c) (aIDS V c)) := by
  have h24 : t.val % 25 = 24 := (flush3_7 t).mp hf
  have hN : t.val < 50 := lt_of_lt_of_eq t.isLt (show cfg3.N = 50 from N_3)
  obtain ⟨e00, e01, e10, e11, e20, e21, e30, e40, e41, e50, e60, e61, e70, e71, e72, e80, e81, e82⟩ := idx_facts t
  show (cfg3.win 7).cut (grid3.coords t) ((dat3 (F := Ideal) V c).after 7 t) = _
  rw [after3_7]
  funext j
  have h0 : (j 0).val < 1 := (j 0).isLt
  have h1 : (j 1).val < 64 := (j 1).isLt
  have h2 : (j 2).val < 128 := (j 2).isLt
  rw [View.read_apply]
  show (outsAt3 V c t.val t.isLt).1 ((cfg3.win 7).xinj (grid3.coords t) j)
    = Cert.Spec.poolSums (aH2 V c) (aIDS V c) (((cfg3.win 7).blk t).view.emb j)
  have ej : (cfg3.win 7).xinj (grid3.coords t) j = ix3 (0 : Fin 1) (⟨(j 1).val, h1⟩ : Fin 64) (⟨(j 2).val, h2⟩ : Fin 128) :=
    funext fun a => Fin.ext (by
      match a with
      | ⟨0, _⟩ => show (j 0).val = 0; omega
      | ⟨1, _⟩ => rfl
      | ⟨2, _⟩ => rfl)
  have ee : ((cfg3.win 7).blk t).view.emb j
      = ix3 (⟨t.val / 25, by omega⟩ : Fin 2) (⟨(j 1).val, h1⟩ : Fin 64) (⟨(j 2).val, h2⟩ : Fin 128) :=
    funext fun a => Fin.ext (by
      match a with
      | ⟨0, _⟩ => show win3_7.index t (0 : Fin 3) * 1 + 1 * (j 0).val = t.val / 25; omega
      | ⟨1, _⟩ => show win3_7.index t (1 : Fin 3) * 64 + 1 * (j 1).val = (j 1).val; omega
      | ⟨2, _⟩ => show win3_7.index t (2 : Fin 3) * 128 + 1 * (j 2).val = (j 2).val; omega)
  exact (congrArg (outsAt3 V c t.val t.isLt).1 ej).trans
    ((sums_last V c t h24 _ rfl _ _).trans (congrArg (Cert.Spec.poolSums (aH2 V c) (aIDS V c)) ee).symm)

theorem flushed8_eq (c : Dev nD) (t : Fin cfg3.N) (hf : (cfg3.win 8).flush t = true) :
    (dat3 (F := Ideal) V c).flushed 8 t
      = ((cfg3.win 8).blk t).view.read (Elt Ideal) (Cert.Spec.poolCnts (aIDS V c)) := by
  have h24 : t.val % 25 = 24 := (flush3_8 t).mp hf
  have hN : t.val < 50 := lt_of_lt_of_eq t.isLt (show cfg3.N = 50 from N_3)
  obtain ⟨e00, e01, e10, e11, e20, e21, e30, e40, e41, e50, e60, e61, e70, e71, e72, e80, e81, e82⟩ := idx_facts t
  show (cfg3.win 8).cut (grid3.coords t) ((dat3 (F := Ideal) V c).after 8 t) = _
  rw [after3_8]
  funext j
  have h0 : (j 0).val < 1 := (j 0).isLt
  have h1 : (j 1).val < 64 := (j 1).isLt
  have h2 : (j 2).val < 1 := (j 2).isLt
  rw [View.read_apply]
  show (outsAt3 V c t.val t.isLt).2 ((cfg3.win 8).xinj (grid3.coords t) j)
    = Cert.Spec.poolCnts (aIDS V c) (((cfg3.win 8).blk t).view.emb j)
  have ej : (cfg3.win 8).xinj (grid3.coords t) j = ix3 (0 : Fin 1) (⟨(j 1).val, h1⟩ : Fin 64) (0 : Fin 1) :=
    funext fun a => Fin.ext (by
      match a with
      | ⟨0, _⟩ => show (j 0).val = 0; omega
      | ⟨1, _⟩ => rfl
      | ⟨2, _⟩ => show (j 2).val = 0; omega)
  have ee : ((cfg3.win 8).blk t).view.emb j
      = ix3 (⟨t.val / 25, by omega⟩ : Fin 2) (⟨(j 1).val, h1⟩ : Fin 64) (⟨(j 2).val, h2⟩ : Fin 1) :=
    funext fun a => Fin.ext (by
      match a with
      | ⟨0, _⟩ => show win3_8.index t (0 : Fin 3) * 1 + 1 * (j 0).val = t.val / 25; omega
      | ⟨1, _⟩ => show win3_8.index t (1 : Fin 3) * 64 + 1 * (j 1).val = (j 1).val; omega
      | ⟨2, _⟩ => show win3_8.index t (2 : Fin 3) * 1 + 1 * (j 2).val = (j 2).val; omega)
  exact (congrArg (outsAt3 V c t.val t.isLt).2 ej).trans
    ((cnts_last V c t h24 _ rfl _ _).trans (congrArg (Cert.Spec.poolCnts (aIDS V c)) ee).symm)

end Main

/-- Every entry of the sums array lies in the block of its half's last point. -/
theorem cover7 (i : (⟨3, ![2, 64, 128]⟩ : Shape).Idx) :
    ∃ t : Fin cfg3.N, (cfg3.win 7).flush t = true ∧ i ∈ ((cfg3.win 7).blk t).view.set := by
  have hN : cfg3.N = 50 := N_3
  have h0 : (i 0).val < 2 := (i 0).isLt
  have h1 : (i 1).val < 64 := (i 1).isLt
  have h2 : (i 2).val < 128 := (i 2).isLt
  obtain ⟨t, ht⟩ : ∃ t : Fin cfg3.N, t.val = 25 * (i 0).val + 24 := ⟨⟨25 * (i 0).val + 24, by omega⟩, rfl⟩
  refine ⟨t, (flush3_7 t).mpr (by omega), ?_⟩
  obtain ⟨e00, e01, e10, e11, e20, e21, e30, e40, e41, e50, e60, e61, e70, e71, e72, e80, e81, e82⟩ := idx_facts t
  show i ∈ ((View.whole main_v43_0).slice (win3_7.rect t)).set
  rw [View.set_slice_whole, Rect.mem_set_unit]
  intro a
  match a with
  | ⟨0, _⟩ => show win3_7.index t (0 : Fin 3) * 1 ≤ (i 0).val ∧ (i 0).val < win3_7.index t (0 : Fin 3) * 1 + 1; omega
  | ⟨1, _⟩ => show win3_7.index t (1 : Fin 3) * 64 ≤ (i 1).val ∧ (i 1).val < win3_7.index t (1 : Fin 3) * 64 + 64; omega
  | ⟨2, _⟩ => show win3_7.index t (2 : Fin 3) * 128 ≤ (i 2).val ∧ (i 2).val < win3_7.index t (2 : Fin 3) * 128 + 128; omega

/-- Every entry of the counts array lies in the block of its half's last point. -/
theorem cover8 (i : (⟨3, ![2, 64, 1]⟩ : Shape).Idx) :
    ∃ t : Fin cfg3.N, (cfg3.win 8).flush t = true ∧ i ∈ ((cfg3.win 8).blk t).view.set := by
  have hN : cfg3.N = 50 := N_3
  have h0 : (i 0).val < 2 := (i 0).isLt
  have h1 : (i 1).val < 64 := (i 1).isLt
  have h2 : (i 2).val < 1 := (i 2).isLt
  obtain ⟨t, ht⟩ : ∃ t : Fin cfg3.N, t.val = 25 * (i 0).val + 24 := ⟨⟨25 * (i 0).val + 24, by omega⟩, rfl⟩
  refine ⟨t, (flush3_8 t).mpr (by omega), ?_⟩
  obtain ⟨e00, e01, e10, e11, e20, e21, e30, e40, e41, e50, e60, e61, e70, e71, e72, e80, e81, e82⟩ := idx_facts t
  show i ∈ ((View.whole main_v43_1).slice (win3_8.rect t)).set
  rw [View.set_slice_whole, Rect.mem_set_unit]
  intro a
  match a with
  | ⟨0, _⟩ => show win3_8.index t (0 : Fin 3) * 1 ≤ (i 0).val ∧ (i 0).val < win3_8.index t (0 : Fin 3) * 1 + 1; omega
  | ⟨1, _⟩ => show win3_8.index t (1 : Fin 3) * 64 ≤ (i 1).val ∧ (i 1).val < win3_8.index t (1 : Fin 3) * 64 + 64; omega
  | ⟨2, _⟩ => show win3_8.index t (2 : Fin 3) * 1 ≤ (i 2).val ∧ (i 2).val < win3_8.index t (2 : Fin 3) * 1 + 1; omega

/-! ## The two output arrays after the call -/

variable (V : (c : Dev nD) → (b : Ref sig .tc) → Buf (Elt Ideal) ((c : Thread nD τ).loc b))

/-- The sums array ends holding, per half and graph, the sum over the half's rows of indicator times updated row. -/
theorem sums_eq (c : Dev nD) :
    (dat3 (F := Ideal) V c).arrAt 7 cfg3.N
      = Cert.Spec.poolSums (Cert.Spec.mlp (N := 50000) (K := 128) (H := 128) (V c main_v40) (V c main_v41) (V c main_arg12) (V c main_arg13) (V c main_arg14) (V c main_arg15)) (V c main_v42) :=
  (dat3 (F := Ideal) V c).arrAt_eq_of_cover 7 (Cert.Spec.poolSums (aH2 V c) (aIDS V c)) (flushed7_eq V c) cover7

/-- The counts array ends holding, per half and graph, the number of the half's rows in the graph. -/
theorem cnts_eq (c : Dev nD) :
    (dat3 (F := Ideal) V c).arrAt 8 cfg3.N = Cert.Spec.poolCnts (V c main_v42) :=
  (dat3 (F := Ideal) V c).arrAt_eq_of_cover 8 (Cert.Spec.poolCnts (aIDS V c)) (flushed8_eq V c) cover8

end Cert.KernelIdeal.Region3
end
-- ==== Proof.LibSegmentSum.lean ====
/-
  General lemmas: the host's accumulating float scatter (`x.at[idx].add(u)`, a segment sum) at the ideal instance, read at
  an index, for the two shapes a segment sum over rows takes.

  The start index is read as a SIGNED integer and is NOT clamped: an update whose row index is negative or past the
  operand's last row lands nowhere. So the operand's row `n` receives exactly the update rows `e` whose index word,
  as a signed integer, is `n`.
-/
import Idealize.ShloMosaic.PureOps.Ideal
import Idealize.ShloMosaic.Lib.ValueIdx

noncomputable section

open scoped BigOperators

namespace Cert.Lib

open Idealize.ShloMosaic Idealize.ShloMosaic.ValueIdx

namespace SegmentSum

/-! ## Rows -/

/-- The row scatter's dimension numbers as a literal record, for an operand `[N, C]`, indices `[E, 1]` and updates
    `[E, C]`; `wf` are their conditions. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the operand's row axis the window of update `(e, k')` starts at the index word `idx[e, 0]`, read signed. -/
theorem rows_start0 : (rowScatterDims N C E wf).start (ix2 e k') idx 0 = (idx (ix2 e 0)).toInt := by
  unfold ScatterDims.start
  rw [dif_pos (show (0 : Fin 2) ∈ (rowScatterDims N C E wf).scatterDimsToOperandDims from List.mem_singleton.mpr rfl)]
  -- the scatter-indices index read for component 0 of the start index of `(e, k')` is `[e, 0]`
  have hsi : (rowScatterDims N C E wf).siIdx (ix2 e k')
      ⟨List.idxOf (0 : Fin 2) (rowScatterDims N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The column axis is not index-mapped: the window starts at `0` there. -/
theorem rows_start1 : (rowScatterDims N C E wf).start (ix2 e k') idx 1 = 0 := by
  unfold ScatterDims.start
  rw [dif_neg (show ¬ (1 : Fin 2) ∈ (rowScatterDims N C E wf).scatterDimsToOperandDims from
    fun h => absurd (List.mem_singleton.mp h) (by decide : ¬ (1 : Fin 2) = 0))]

/-- The row axis is an inserted window axis: it has no window coordinate. -/
theorem rows_window0 : (rowScatterDims N C E wf).window (ix2 e k') 0 = 0 := by
  unfold ScatterDims.window
  rw [dif_neg (show ¬ (0 : Fin 2) ∈ (rowScatterDims N C E wf).sKept from fun h => by
    have h2 := (List.mem_filter.mp h).2
    simp at h2)]

/-- The column axis is the one window axis: its window coordinate is the update's column. -/
theorem rows_window1 : (rowScatterDims N C E wf).window (ix2 e k') 1 = k'.val := by
  unfold ScatterDims.window
  rw [dif_pos (show (1 : Fin 2) ∈ (rowScatterDims N C E wf).sKept from
    List.mem_filter.mpr ⟨List.mem_finRange _, by simp⟩)]
  rfl

/-- WHERE AN UPDATE LANDS: update `(e, k')` lands at operand element `(n, k)` exactly when its index word, read signed,
    is `n` and its column is `k`. (An index word outside `[0, N)` lands nowhere, so it equals no `n`.) -/
theorem rows_resultIdx_eq_some_iff (n : Fin N) (k : Fin C) :
    (rowScatterDims N C E wf).resultIdx? (ix2 e k') idx = some (ix2 n k)
      ↔ (idx (ix2 e 0)).toInt = (n.val : ℤ) ∧ k' = k := by
  have s0 := rows_start0 wf idx e k'
  have s1 := rows_start1 wf idx e k'
  have w0 := rows_window0 wf e k'
  have w1 := rows_window1 wf e k'
  unfold ScatterDims.resultIdx?
  split
  · rename_i h
    rw [Option.some.injEq]
    constructor
    · intro hf
      -- read the equation of indices on each axis
      have h0 : ((rowScatterDims N C E wf).start (ix2 e k') idx 0
          + ((rowScatterDims N C E wf).window (ix2 e k') 0 : ℕ)).toNat = n.val :=
        congrArg (fun i : (⟨2, ![N, C]⟩ : Shape).Idx => (i 0).val) hf
      have h1 : ((rowScatterDims N C E wf).start (ix2 e k') idx 1
          + ((rowScatterDims N C E wf).window (ix2 e k') 1 : ℕ)).toNat = k.val :=
        congrArg (fun i : (⟨2, ![N, C]⟩ : Shape).Idx => (i 1).val) hf
      have p0 := (h 0).1
      rw [s0, w0] at h0 p0
      rw [s1, w1] at h1
      exact ⟨by omega, Fin.ext (by omega)⟩
    · rintro ⟨hi, rfl⟩
      funext a
      refine Fin.ext ?_
      match a with
      | ⟨0, _⟩ =>
        show ((rowScatterDims N C E wf).start (ix2 e k') idx 0
          + ((rowScatterDims N C E wf).window (ix2 e k') 0 : ℕ)).toNat = n.val
        rw [s0, w0]; omega
      | ⟨1, _⟩ =>
        show ((rowScatterDims N C E wf).start (ix2 e k') idx 1
          + ((rowScatterDims N C E wf).window (ix2 e k') 1 : ℕ)).toNat = k'.val
        rw [s1, w1]; omega
  · rename_i h
    constructor
    · intro hf; exact absurd hf (by simp)
    · -- an index word equal to `n` is in range, and a column always is: the update does land
      rintro ⟨hi, rfl⟩
      refine absurd (fun a => ?_) h
      match a with
      | ⟨0, _⟩ =>
        show 0 ≤ (rowScatterDims N C E wf).start (ix2 e k') idx 0 + ((rowScatterDims N C E wf).window (ix2 e k') 0 : ℕ)
          ∧ (rowScatterDims N C E wf).start (ix2 e k') idx 0 + ((rowScatterDims N C E wf).window (ix2 e k') 0 : ℕ)
            < (N : ℤ)
        rw [s0, w0]; have := n.isLt; omega
      | ⟨1, _⟩ =>
        show 0 ≤ (rowScatterDims N C E wf).start (ix2 e k') idx 1 + ((rowScatterDims N C E wf).window (ix2 e k') 1 : ℕ)
          ∧ (rowScatterDims N C E wf).start (ix2 e k') idx 1 + ((rowScatterDims N C E wf).window (ix2 e k') 1 : ℕ)
            < (C : ℤ)
        rw [s1, w1]; have := k'.isLt; omega

end Rows

/-! ## Flat -/

/-- The flat scatter's dimension numbers as a literal record, for an operand `[N]`, indices `[E, 1]` and updates `[E]`;
    `wf` are their conditions. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range. -/
def idxEquiv1 {n : Nat} : Fin n ≃ (⟨1, ![n]⟩ : Shape).Idx where
  toFun := ix1
  invFun i := i 0
  left_inv _ := rfl
  right_inv i := (eq_ix1 i).symm

section Flat
variable {N E w : Nat} (wf : ScatterDims.WF ⟨1, ![N]⟩ ⟨2, ![E, 1]⟩ ⟨1, ![E]⟩ [] [0] [0] 1)
  (idx : IVec ⟨2, ![E, 1]⟩ w) (e : Fin E)

/-- On the operand's one axis the window of update `e` starts at the index word `idx[e, 0]`, read signed. -/
theorem flat_start0 : (flatScatterDims N E wf).start (ix1 e) idx 0 = (idx (ix2 e 0)).toInt := by
  unfold ScatterDims.start
  rw [dif_pos (show (0 : Fin 1) ∈ (flatScatterDims N E wf).scatterDimsToOperandDims from List.mem_singleton.mpr rfl)]
  -- the scatter-indices index read for component 0 of the start index of `e` is `[e, 0]`
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- That axis is an inserted window axis: it has no window coordinate. -/
theorem flat_window0 : (flatScatterDims N E wf).window (ix1 e) 0 = 0 := by
  unfold ScatterDims.window
  rw [dif_neg (show ¬ (0 : Fin 1) ∈ (flatScatterDims N E wf).sKept from fun h => by
    have h2 := (List.mem_filter.mp h).2
    simp at h2)]

/-- WHERE AN UPDATE LANDS: update `e` lands at operand element `n` exactly when its index word, read signed, is `n`. -/
theorem flat_resultIdx_eq_some_iff (n : Fin N) :
    (flatScatterDims N E wf).resultIdx? (ix1 e) idx = some (ix1 n) ↔ (idx (ix2 e 0)).toInt = (n.val : ℤ) := by
  have s0 := flat_start0 wf idx e
  have w0 := flat_window0 wf e
  unfold ScatterDims.resultIdx?
  split
  · rename_i h
    rw [Option.some.injEq]
    constructor
    · intro hf
      have h0 : ((flatScatterDims N E wf).start (ix1 e) idx 0
          + ((flatScatterDims N E wf).window (ix1 e) 0 : ℕ)).toNat = n.val :=
        congrArg (fun i : (⟨1, ![N]⟩ : Shape).Idx => (i 0).val) hf
      have p0 := (h 0).1
      rw [s0, w0] at h0 p0
      omega
    · intro hi
      funext a
      refine Fin.ext ?_
      match a with
      | ⟨0, _⟩ =>
        show ((flatScatterDims N E wf).start (ix1 e) idx 0
          + ((flatScatterDims N E wf).window (ix1 e) 0 : ℕ)).toNat = n.val
        rw [s0, w0]; omega
  · rename_i h
    constructor
    · intro hf; exact absurd hf (by simp)
    · -- an index word equal to `n` is in range: the update does land
      intro hi
      refine absurd (fun a => ?_) h
      match a with
      | ⟨0, _⟩ =>
        show 0 ≤ (flatScatterDims N E wf).start (ix1 e) idx 0 + ((flatScatterDims N E wf).window (ix1 e) 0 : ℕ)
          ∧ (flatScatterDims N E wf).start (ix1 e) idx 0 + ((flatScatterDims N E wf).window (ix1 e) 0 : ℕ) < (N : ℤ)
        rw [s0, w0]; have := n.isLt; omega

end Flat

end SegmentSum

open SegmentSum

/-- ROWS: operand `[N, C]`, indices `[E, 1]`, updates `[E, C]` (update_window_dims `[1]`, inserted_window_dims `[0]`,
    scatter_dims_to_operand_dims `[0]`, index_vector_dim `1`). Element `(n, k)` is the operand's plus the sum of the
    updates' `(e, k)` over the rows `e` whose index is `n`. -/
theorem scatterAdd_rows_apply {N C E w : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ix2 e 0)).toInt = (n.val : ℤ)), upd (ix2 e k) := by
  -- a record with these fields is the literal one
  obtain ⟨uw, iw, sd, iv, wf⟩ := d
  simp only at h1 h2 h3 h4
  subst h1 h2 h3 h4
  unfold Ideal.hostScatterAdd
  congr 1
  -- both sides as sums of guarded terms; the left one over the updates' rows and columns
  rw [Finset.sum_filter, sum_idx2, Finset.sum_filter]
  refine Finset.sum_congr rfl fun e _ => ?_
  by_cases hq : (idx (ix2 e 0)).toInt = (n.val : ℤ)
  · -- a row whose index is `n` gives its column `k` and nothing else
    rw [if_pos hq, Finset.sum_eq_single k]
    · rw [if_pos ((rows_resultIdx_eq_some_iff wf idx e k n k).mpr ⟨hq, rfl⟩)]
    · intro k' _ hk'
      rw [if_neg fun h => hk' ((rows_resultIdx_eq_some_iff wf idx e k' n k).mp h).2]
    · intro h; exact absurd (Finset.mem_univ k) h
  · -- any other row gives nothing
    rw [if_neg hq]
    refine Finset.sum_eq_zero fun k' _ => ?_
    rw [if_neg fun h => hq ((rows_resultIdx_eq_some_iff wf idx e k' n k).mp h).1]

/-- FLAT: operand `[N]`, indices `[E, 1]`, updates `[E]` (no window axis, inserted_window_dims `[0]`,
    scatter_dims_to_operand_dims `[0]`, index_vector_dim `1`). Element `n` is the operand's plus the sum of the updates
    `e` whose index is `n`. -/
theorem scatterAdd_flat_apply {N E w : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ w) (upd : (⟨1, ![E]⟩ : Shape).Idx → EReal)
    (n : Fin N) :
    Ideal.hostScatterAdd d x idx upd (ix1 n)
      = x (ix1 n) + ∑ e ∈ Finset.univ.filter (fun e : Fin E => (idx (ix2 e 0)).toInt = (n.val : ℤ)), upd (ix1 e) := by
  -- a record with these fields is the literal one
  obtain ⟨uw, iw, sd, iv, wf⟩ := d
  simp only at h1 h2 h3 h4
  subst h1 h2 h3 h4
  unfold Ideal.hostScatterAdd
  congr 1
  -- both sides as sums of guarded terms, matched along the bijection between update indices and rows
  rw [Finset.sum_filter, Finset.sum_filter]
  refine (Fintype.sum_equiv idxEquiv1 _ _ fun e => ?_).symm
  have hiff := flat_resultIdx_eq_some_iff wf idx e n
  show (if (idx (ix2 e 0)).toInt = (n.val : ℤ) then upd (ix1 e) else 0)
    = if (flatScatterDims N E wf).resultIdx? (ix1 e) idx = some (ix1 n) then upd (ix1 e) else 0
  by_cases hq : (idx (ix2 e 0)).toInt = (n.val : ℤ)
  · rw [if_pos hq, if_pos (hiff.mpr hq)]
  · rw [if_neg hq, if_neg fun h => hq (hiff.mp h)]

end Cert.Lib

end
-- ==== Proof.RefStages.lean ====
import proofs.«415540_j56006373540375_3_alg».proof.Proof.Gen.ReferenceIdeal.Run
import proofs.«415540_j56006373540375_3_alg».proof.Proof.Gen.ReferenceIdeal.Read
import proofs.«415540_j56006373540375_3_alg».proof.Proof.Spec
import proofs.«415540_j56006373540375_3_alg».proof.Proof.LibPlainMatmul
import proofs.«415540_j56006373540375_3_alg».proof.Proof.LibSegmentSum

noncomputable section

namespace Cert.ReferenceIdeal.RefStages

open Cert.ReferenceIdeal Cert.ReferenceIdeal.Read Idealize.ShloMosaic Idealize.ShloMosaic.ValueIdx

variable (x0 : (⟨S50000x64, .f32⟩ : BufTy).Contents (Elt Ideal)) (x1 : (⟨S2x600000, .i32⟩ : BufTy).Contents (Elt Ideal))
  (x2 : (⟨S600000x3, .f32⟩ : BufTy).Contents (Elt Ideal)) (x3 : (⟨S50000, .i32⟩ : BufTy).Contents (Elt Ideal))
  (x4 : (⟨S3x64, .f32⟩ : BufTy).Contents (Elt Ideal)) (x5 : (⟨S64, .f32⟩ : BufTy).Contents (Elt Ideal))
  (x6 : (⟨S64x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S3x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

open scoped BigOperators

/-! The index functions of the reference's contractions and of its bias broadcasts, at a point given by
    its coordinates: a contraction [a,k]·[k,b] reads its left operand at (p, k) and its right at (k, q);
    a bias row broadcast to [a,b] is read at q. -/

theorem lidx4 (p : Fin 600000) (q : Fin 64) (k : Fin 3) : lidx_main_v4 (ix2 p q) k = ix2 p k :=
  funext fun a => Fin.ext (by match a with | ⟨0, _⟩ => rfl | ⟨1, _⟩ => rfl)
theorem ridx4 (p : Fin 600000) (q : Fin 64) (k : Fin 3) : ridx_main_v4 (ix2 p q) k = ix2 k q :=
  funext fun a => Fin.ext (by match a with | ⟨0, _⟩ => rfl | ⟨1, _⟩ => rfl)
theorem bidx6 (p : Fin 600000) (q : Fin 64) : idx_main_v5 (idx_main_v6 (ix2 p q)) = ix1 q :=
  funext fun a => Fin.ext (by match a with | ⟨0, _⟩ => rfl)

theorem lidx23 (p : Fin 50000) (q : Fin 128) (k : Fin 64) : lidx_main_v23 (ix2 p q) k = ix2 p k :=
  funext fun a => Fin.ext (by match a with | ⟨0, _⟩ => rfl | ⟨1, _⟩ => rfl)
theorem ridx23 (p : Fin 50000) (q : Fin 128) (k : Fin 64) : ridx_main_v23 (ix2 p q) k = ix2 k q :=
  funext fun a => Fin.ext (by match a with | ⟨0, _⟩ => rfl | ⟨1, _⟩ => rfl)
theorem bidx25 (p : Fin 50000) (q : Fin 128) : idx_main_v24 (idx_main_v25 (ix2 p q)) = ix1 q :=
  funext fun a => Fin.ext (by match a with | ⟨0, _⟩ => rfl)

theorem lidx28 (p : Fin 50000) (q : Fin 128) (k : Fin 128) : lidx_main_v28 (ix2 p q) k = ix2 p k :=
  funext fun a => Fin.ext (by match a with | ⟨0, _⟩ => rfl | ⟨1, _⟩ => rfl)
theorem ridx28 (p : Fin 50000) (q : Fin 128) (k : Fin 128) : ridx_main_v28 (ix2 p q) k = ix2 k q :=
  funext fun a => Fin.ext (by match a with | ⟨0, _⟩ => rfl | ⟨1, _⟩ => rfl)
theorem bidx30 (p : Fin 50000) (q : Fin 128) : idx_main_v29 (idx_main_v30 (ix2 p q)) = ix1 q :=
  funext fun a => Fin.ext (by match a with | ⟨0, _⟩ => rfl)

theorem lidx33 (p : Fin 600000) (q : Fin 128) (k : Fin 3) : lidx_main_v33 (ix2 p q) k = ix2 p k :=
  funext fun a => Fin.ext (by match a with | ⟨0, _⟩ => rfl | ⟨1, _⟩ => rfl)
theorem ridx33 (p : Fin 600000) (q : Fin 128) (k : Fin 3) : ridx_main_v33 (ix2 p q) k = ix2 k q :=
  funext fun a => Fin.ext (by match a with | ⟨0, _⟩ => rfl | ⟨1, _⟩ => rfl)
theorem bidx35 (p : Fin 600000) (q : Fin 128) : idx_main_v34 (idx_main_v35 (ix2 p q)) = ix1 q :=
  funext fun a => Fin.ext (by match a with | ⟨0, _⟩ => rfl)

theorem lidx52 (p : Fin 50000) (q : Fin 128) (k : Fin 128) : lidx_main_v52 (ix2 p q) k = ix2 p k :=
  funext fun a => Fin.ext (by match a with | ⟨0, _⟩ => rfl | ⟨1, _⟩ => rfl)
theorem ridx52 (p : Fin 50000) (q : Fin 128) (k : Fin 128) : ridx_main_v52 (ix2 p q) k = ix2 k q :=
  funext fun a => Fin.ext (by match a with | ⟨0, _⟩ => rfl | ⟨1, _⟩ => rfl)
theorem bidx54 (p : Fin 50000) (q : Fin 128) : idx_main_v53 (idx_main_v54 (ix2 p q)) = ix1 q :=
  funext fun a => Fin.ext (by match a with | ⟨0, _⟩ => rfl)

theorem lidx57 (p : Fin 50000) (q : Fin 128) (k : Fin 128) : lidx_main_v57 (ix2 p q) k = ix2 p k :=
  funext fun a => Fin.ext (by match a with | ⟨0, _⟩ => rfl | ⟨1, _⟩ => rfl)
theorem ridx57 (p : Fin 50000) (q : Fin 128) (k : Fin 128) : ridx_main_v57 (ix2 p q) k = ix2 k q :=
  funext fun a => Fin.ext (by match a with | ⟨0, _⟩ => rfl | ⟨1, _⟩ => rfl)
theorem bidx59 (p : Fin 50000) (q : Fin 128) : idx_main_v58 (idx_main_v59 (ix2 p q)) = ix1 q :=
  funext fun a => Fin.ext (by match a with | ⟨0, _⟩ => rfl)

/-- Layer 1's messages are the message function of the gathered rows. -/
theorem msg1_eq : val_main_v16 (F := Ideal) x0 x1 x2 x4 x5
    = Cert.Spec.msg (E := 600000) (D := 64) (val_main_v14 (F := Ideal) x0 x1) x2 x4 x5 := by
  funext i
  obtain ⟨p, q, rfl⟩ : ∃ (p : Fin 600000) (q : Fin 64), i = ix2 p q := ⟨i 0, i 1, eq_ix2 i⟩
  rw [val_main_v16_apply, val_main_v15_apply, val_main_v7_apply, val_main_v4_apply, val_main_v6_apply,
    val_main_v5_apply, val_main_call0_v0_apply, val_main_call0_cst_apply]
  generalize val_main_v14 (F := Ideal) x0 x1 = xg
  simp only [Ideal.maximumf_def, Ideal.addf_def, Ideal.ofBits_def, lidx4, ridx4, bidx6]
  rfl

/-- What enters layer 1's dense layers: 1 · x + the summed messages. -/
theorem pre1_eq : val_main_v22 (F := Ideal) x0 x1 x2 x4 x5
    = Cert.Spec.pre (N := 50000) (K := 64) (x0) (val_main_v19 (F := Ideal) x0 x1 x2 x4 x5) := by
  funext i
  rw [val_main_v22_apply, val_main_v21_apply, val_main_v20_apply, val_main_cst_1_apply]
  simp only [Ideal.addf_def, Ideal.mulf_def, Ideal.ofBits_def]
  rfl

/-- Layer 1's first dense layer with relu. -/
theorem hid1_eq : val_main_v27 (F := Ideal) x0 x1 x2 x4 x5 x6 x7
    = Cert.Spec.dense (N := 50000) (K := 64) (H := 128) (val_main_v22 (F := Ideal) x0 x1 x2 x4 x5) x6 x7 := by
  funext i
  obtain ⟨p, q, rfl⟩ : ∃ (p : Fin 50000) (q : Fin 128), i = ix2 p q := ⟨i 0, i 1, eq_ix2 i⟩
  rw [val_main_v27_apply, val_main_v26_apply, val_main_v23_apply, val_main_v25_apply,
    val_main_v24_apply, val_main_call1_v0_apply, val_main_call1_cst_apply]
  generalize val_main_v22 (F := Ideal) x0 x1 x2 x4 x5 = y
  simp only [Ideal.maximumf_def, Ideal.addf_def, Ideal.ofBits_def, lidx23, ridx23, bidx25]
  rfl

/-- Layer 1's second dense layer with relu. -/
theorem top1_eq : val_main_v32 (F := Ideal) x0 x1 x2 x4 x5 x6 x7 x8 x9
    = Cert.Spec.dense (N := 50000) (K := 128) (H := 128) (val_main_v27 (F := Ideal) x0 x1 x2 x4 x5 x6 x7) x8 x9 := by
  funext i
  obtain ⟨p, q, rfl⟩ : ∃ (p : Fin 50000) (q : Fin 128), i = ix2 p q := ⟨i 0, i 1, eq_ix2 i⟩
  rw [val_main_v32_apply, val_main_v31_apply, val_main_v28_apply, val_main_v30_apply,
    val_main_v29_apply, val_main_call2_v0_apply, val_main_call2_cst_apply]
  generalize val_main_v27 (F := Ideal) x0 x1 x2 x4 x5 x6 x7 = y
  simp only [Ideal.maximumf_def, Ideal.addf_def, Ideal.ofBits_def, lidx28, ridx28, bidx30]
  rfl

/-- Layer 1's node update. -/
theorem h1_eq : val_main_v32 (F := Ideal) x0 x1 x2 x4 x5 x6 x7 x8 x9
    = Cert.Spec.mlp (N := 50000) (K := 64) (H := 128) x0 (val_main_v19 (F := Ideal) x0 x1 x2 x4 x5) x6 x7 x8 x9 := by
  rw [top1_eq, hid1_eq, pre1_eq]
  rfl

/-- Layer 2's messages. -/
theorem msg2_eq : val_main_v45 (F := Ideal) x0 x1 x2 x4 x5 x6 x7 x8 x9 x10 x11
    = Cert.Spec.msg (E := 600000) (D := 128) (val_main_v43 (F := Ideal) x0 x1 x2 x4 x5 x6 x7 x8 x9) x2 x10 x11 := by
  funext i
  obtain ⟨p, q, rfl⟩ : ∃ (p : Fin 600000) (q : Fin 128), i = ix2 p q := ⟨i 0, i 1, eq_ix2 i⟩
  rw [val_main_v45_apply, val_main_v44_apply, val_main_v36_apply, val_main_v33_apply, val_main_v35_apply,
    val_main_v34_apply, val_main_call3_v0_apply, val_main_call3_cst_apply]
  generalize val_main_v43 (F := Ideal) x0 x1 x2 x4 x5 x6 x7 x8 x9 = xg
  simp only [Ideal.maximumf_def, Ideal.addf_def, Ideal.ofBits_def, lidx33, ridx33, bidx35]
  rfl

/-- What enters layer 2's dense layers: 1 · h + the summed messages. -/
theorem pre2_eq : val_main_v51 (F := Ideal) x0 x1 x2 x4 x5 x6 x7 x8 x9 x10 x11
    = Cert.Spec.pre (N := 50000) (K := 128) (val_main_v32 (F := Ideal) x0 x1 x2 x4 x5 x6 x7 x8 x9) (val_main_v48 (F := Ideal) x0 x1 x2 x4 x5 x6 x7 x8 x9 x10 x11) := by
  funext i
  rw [val_main_v51_apply, val_main_v50_apply, val_main_v49_apply, val_main_cst_5_apply]
  simp only [Ideal.addf_def, Ideal.mulf_def, Ideal.ofBits_def]
  rfl

/-- Layer 2's first dense layer with relu. -/
theorem hid2_eq : val_main_v56 (F := Ideal) x0 x1 x2 x4 x5 x6 x7 x8 x9 x10 x11 x12 x13
    = Cert.Spec.dense (N := 50000) (K := 128) (H := 128) (val_main_v51 (F := Ideal) x0 x1 x2 x4 x5 x6 x7 x8 x9 x10 x11) x12 x13 := by
  funext i
  obtain ⟨p, q, rfl⟩ : ∃ (p : Fin 50000) (q : Fin 128), i = ix2 p q := ⟨i 0, i 1, eq_ix2 i⟩
  rw [val_main_v56_apply, val_main_v55_apply, val_main_v52_apply, val_main_v54_apply,
    val_main_v53_apply, val_main_call4_v0_apply, val_main_call4_cst_apply]
  generalize val_main_v51 (F := Ideal) x0 x1 x2 x4 x5 x6 x7 x8 x9 x10 x11 = y
  simp only [Ideal.maximumf_def, Ideal.addf_def, Ideal.ofBits_def, lidx52, ridx52, bidx54]
  rfl

/-- Layer 2's second dense layer with relu. -/
theorem top2_eq : val_main_v61 (F := Ideal) x0 x1 x2 x4 x5 x6 x7 x8 x9 x10 x11 x12 x13 x14 x15
    = Cert.Spec.dense (N := 50000) (K := 128) (H := 128) (val_main_v56 (F := Ideal) x0 x1 x2 x4 x5 x6 x7 x8 x9 x10 x11 x12 x13) x14 x15 := by
  funext i
  obtain ⟨p, q, rfl⟩ : ∃ (p : Fin 50000) (q : Fin 128), i = ix2 p q := ⟨i 0, i 1, eq_ix2 i⟩
  rw [val_main_v61_apply, val_main_v60_apply, val_main_v57_apply, val_main_v59_apply,
    val_main_v58_apply, val_main_call5_v0_apply, val_main_call5_cst_apply]
  generalize val_main_v56 (F := Ideal) x0 x1 x2 x4 x5 x6 x7 x8 x9 x10 x11 x12 x13 = y
  simp only [Ideal.maximumf_def, Ideal.addf_def, Ideal.ofBits_def, lidx57, ridx57, bidx59]
  rfl

/-- Layer 2's node update. -/
theorem h2_eq : val_main_v61 (F := Ideal) x0 x1 x2 x4 x5 x6 x7 x8 x9 x10 x11 x12 x13 x14 x15
    = Cert.Spec.mlp (N := 50000) (K := 128) (H := 128) (val_main_v32 (F := Ideal) x0 x1 x2 x4 x5 x6 x7 x8 x9) (val_main_v48 (F := Ideal) x0 x1 x2 x4 x5 x6 x7 x8 x9 x10 x11) x12 x13 x14 x15 := by
  rw [top2_eq, hid2_eq, pre2_eq]
  rfl

/-- The float word of 1.0 is the number one. -/
theorem one_word : Ideal.ofBits .f32 0x3F800000#32 = 1 := by
  simp [Ideal.ofBits, Ideal.ieee]
  rw [← EReal.coe_mul]
  norm_num

/-- The two graph-id columns are the same array. -/
theorem ids_eq : val_main_v67 (F := Ideal) x3 = val_main_v63 (F := Ideal) x3 := rfl

/-- The segment sum of the rows: entry (g, f) sums column f of the rows whose graph id is g. -/
theorem sums_apply (g : Fin 64) (f : Fin 128) :
    val_main_v64 (F := Ideal) x0 x1 x2 x3 x4 x5 x6 x7 x8 x9 x10 x11 x12 x13 x14 x15 (ix2 g f)
      = ∑ n ∈ Finset.univ.filter (fun n : Fin 50000 => BitVec.toInt (val_main_v63 (F := Ideal) x3 (ix2 n 0)) = (g.val : ℤ)),
          val_main_v61 (F := Ideal) x0 x1 x2 x4 x5 x6 x7 x8 x9 x10 x11 x12 x13 x14 x15 (ix2 n f) := by
  unfold val_main_v64
  generalize val_main_v61 (F := Ideal) x0 x1 x2 x4 x5 x6 x7 x8 x9 x10 x11 x12 x13 x14 x15 = h
  generalize val_main_v63 (F := Ideal) x3 = b
  unfold Host.scatterAdd
  rw [Ideal.hostScatterAdd_def]
  refine (Cert.Lib.scatterAdd_rows_apply _ rfl rfl rfl rfl _ _ _ g f).trans ?_
  rw [val_main_v62_apply, val_main_cst_6_apply, Ideal.ofBits_def, Ideal.ofBits_zero_f32, zero_add]

/-- The segment count: entry g counts the rows whose graph id is g. -/
theorem cnts_apply (g : Fin 64) :
    val_main_v68 (F := Ideal) x3 (ix1 g)
      = ∑ n ∈ Finset.univ.filter (fun n : Fin 50000 => BitVec.toInt (val_main_v63 (F := Ideal) x3 (ix2 n 0)) = (g.val : ℤ)), (1 : EReal) := by
  unfold val_main_v68
  rw [ids_eq]
  generalize val_main_v63 (F := Ideal) x3 = b
  unfold Host.scatterAdd
  rw [Ideal.hostScatterAdd_def]
  refine (Cert.Lib.scatterAdd_flat_apply _ rfl rfl rfl rfl _ _ _ g).trans ?_
  rw [val_main_v66_apply, val_main_cst_8_apply, Ideal.ofBits_def, Ideal.ofBits_zero_f32, zero_add]
  simp only [val_main_v65_apply, val_main_cst_7_apply, Ideal.ofBits_def, one_word]

/-- The count column broadcast to [64,128] is read at g. -/
theorem didx72 (g : Fin 64) (f : Fin 128) : idx_main_v71 (idx_main_v72 (ix2 g f)) = ix1 g :=
  funext fun a => Fin.ext (by match a with | ⟨0, _⟩ => rfl)

/-- The result is the segment mean of layer 2's rows over the graph ids. -/
theorem out_eq : val_main_v73 (F := Ideal) x0 x1 x2 x3 x4 x5 x6 x7 x8 x9 x10 x11 x12 x13 x14 x15
    = Cert.Spec.segMean (val_main_v61 (F := Ideal) x0 x1 x2 x4 x5 x6 x7 x8 x9 x10 x11 x12 x13 x14 x15) (val_main_v63 (F := Ideal) x3) := by
  funext i
  obtain ⟨g, f, rfl⟩ : ∃ (g : Fin 64) (f : Fin 128), i = ix2 g f := ⟨i 0, i 1, eq_ix2 i⟩
  rw [val_main_v73_apply, sums_apply, val_main_v72_apply, val_main_v71_apply, val_main_v70_apply, didx72, cnts_apply,
    val_main_v69_apply, val_main_cst_9_apply]
  simp only [Ideal.hostDivf_def, Ideal.maximumf_def, Ideal.ofBits_def]
  rfl

end Cert.ReferenceIdeal.RefStages

end
-- ==== Proof.PoolAlgebra.lean ====
/-
  The tiled pooling is the segment mean.

  The 50000 node rows are cut into 2 halves of 25 tiles of 1000 rows; (c, j, r) ↦ 1000·(25·c + j) + r is a
  bijection of Fin 2 × Fin 25 × Fin 1000 with Fin 50000. A sum over the tiles of indicator × value is therefore
  the sum of the value over the rows whose graph id is the graph in question, and for a graph number below 64
  "the word is that number" and "the word read as a signed integer is that number" say the same. On the
  extended reals 1 · x = x and 0 · x = 0 hold for every x, the infinities included.
-/
import proofs.«415540_j56006373540375_3_alg».proof.Proof.Spec

noncomputable section

open scoped BigOperators

namespace Cert.Spec

open Idealize.ShloMosaic Idealize.ShloMosaic.ValueIdx

/-- The rows of the tiles enumerate the node rows: (c, j, r) ↦ 1000·(25·c + j) + r is a bijection. -/
def nodeEquiv : Fin 2 × Fin 25 × Fin 1000 ≃ Fin 50000 where
  toFun p := node p.1 p.2.1 p.2.2
  invFun n := (⟨n.val / 25000, by have := n.isLt; omega⟩, ⟨n.val / 1000 % 25, Nat.mod_lt _ (by decide)⟩,
    ⟨n.val % 1000, Nat.mod_lt _ (by decide)⟩)
  left_inv := by
    rintro ⟨c, j, r⟩
    have hc := c.isLt; have hj := j.isLt; have hr := r.isLt
    refine Prod.ext (Fin.ext ?_) (Prod.ext (Fin.ext ?_) (Fin.ext ?_))
    · show (1000 * (25 * c.val + j.val) + r.val) / 25000 = c.val
      omega
    · show (1000 * (25 * c.val + j.val) + r.val) / 1000 % 25 = j.val
      omega
    · show (1000 * (25 * c.val + j.val) + r.val) % 1000 = r.val
      omega
  right_inv := by
    intro n
    have hn := n.isLt
    refine Fin.ext ?_
    show 1000 * (25 * (n.val / 25000) + n.val / 1000 % 25) + n.val % 1000 = n.val
    omega

theorem nodeEquiv_apply (c : Fin 2) (j : Fin 25) (r : Fin 1000) : nodeEquiv (c, j, r) = node c j r := rfl

/-- A number below 64, as a 32-bit word, reads as itself when the word is taken signed. -/
theorem toInt_ofNat_of_lt (g : Nat) (hg : g < 64) : (BitVec.ofNat 32 g).toInt = (g : ℤ) := by
  rw [BitVec.toInt_eq_toNat_cond, BitVec.toNat_ofNat]
  have h1 : g % 2 ^ 32 = g := Nat.mod_eq_of_lt (by omega)
  rw [h1, if_pos (by omega)]

/-- For a graph number below 64: the word is that number iff its signed reading is. -/
theorem word_eq_iff (w : BitVec 32) (g : Nat) (hg : g < 64) : w = BitVec.ofNat 32 g ↔ w.toInt = (g : ℤ) := by
  rw [← toInt_ofNat_of_lt g hg]
  exact BitVec.toInt_inj.symm

/-- The indicator times a value is the value where the signed reading is the graph number, and zero elsewhere. -/
theorem oh_mul (w : BitVec 32) (g : Nat) (hg : g < 64) (x : EReal) :
    oh w g * x = if w.toInt = (g : ℤ) then x else 0 := by
  unfold oh
  by_cases hw : w = BitVec.ofNat 32 g
  · rw [if_pos hw, if_pos ((word_eq_iff w g hg).mp hw), one_mul]
  · rw [if_neg hw, if_neg (fun hh => hw ((word_eq_iff w g hg).mpr hh)), zero_mul]

/-- The sum over the tiles of indicator × value is the sum of the value over the rows of the graph. -/
theorem sum_tiles (b : (⟨2, ![50000, 1]⟩ : Shape).Idx → BitVec 32) (a : Fin 50000 → EReal) (g : Nat) (hg : g < 64) :
    ∑ c : Fin 2, ∑ j : Fin 25, ∑ r : Fin 1000, oh (b (ix2 (node c j r) 0)) g * a (node c j r)
      = ∑ n ∈ Finset.univ.filter (fun n : Fin 50000 => (b (ix2 n 0)).toInt = (g : ℤ)), a n := by
  rw [Finset.sum_filter, ← Equiv.sum_comp nodeEquiv, Fintype.sum_prod_type]
  refine Finset.sum_congr rfl fun c _ => ?_
  rw [Fintype.sum_prod_type]
  refine Finset.sum_congr rfl fun j _ => Finset.sum_congr rfl fun r _ => ?_
  rw [nodeEquiv_apply]
  exact oh_mul _ g hg _

/-- The same for the counts: the sum of the indicators is the number of rows of the graph. -/
theorem sum_tiles_one (b : (⟨2, ![50000, 1]⟩ : Shape).Idx → BitVec 32) (g : Nat) (hg : g < 64) :
    ∑ c : Fin 2, ∑ j : Fin 25, ∑ r : Fin 1000, oh (b (ix2 (node c j r) 0)) g
      = ∑ n ∈ Finset.univ.filter (fun n : Fin 50000 => (b (ix2 n 0)).toInt = (g : ℤ)), (1 : EReal) := by
  rw [← sum_tiles b (fun _ => (1 : EReal)) g hg]
  refine Finset.sum_congr rfl fun c _ => Finset.sum_congr rfl fun j _ => Finset.sum_congr rfl fun r _ => ?_
  rw [mul_one]

/-- The tiled pooling is the segment mean. -/
theorem meanOf_pool (h : Arr2 50000 128) (b : (⟨2, ![50000, 1]⟩ : Shape).Idx → BitVec 32) :
    meanOf (poolSums h b) (poolCnts b) = segMean h b := by
  funext i
  obtain ⟨g, f, rfl⟩ : ∃ (g : Fin 64) (f : Fin 128), i = ix2 g f := ⟨i 0, i 1, eq_ix2 i⟩
  have hs := sum_tiles b (fun n => h (ix2 n f)) g.val g.isLt
  have hc := sum_tiles_one b g.val g.isLt
  show Ideal.div
      (∑ c : Fin 2, ∑ j : Fin 25, ∑ r : Fin 1000, oh (b (ix2 (node c j r) 0)) g.val * h (ix2 (node c j r) f))
      (max (∑ c : Fin 2, ∑ j : Fin 25, ∑ r : Fin 1000, oh (b (ix2 (node c j r) 0)) g.val) one)
    = Ideal.div
      (∑ n ∈ Finset.univ.filter (fun n : Fin 50000 => (b (ix2 n 0)).toInt = (g.val : ℤ)), h (ix2 n f))
      (max (∑ n ∈ Finset.univ.filter (fun n : Fin 50000 => (b (ix2 n 0)).toInt = (g.val : ℤ)), (1 : EReal)) one)
  rw [hs, hc]

end Cert.Spec

end
-- ==== Proof.Bridge.lean ====
/-
  The kernel program's value is the reference's value, as functions of the sixteen arguments.

  Both are roads of host operations around the same mathematics (Spec.lean). The road of the kernel program
  differs from the reference's in four ways, each of which changes nothing on the extended reals: the edge
  endpoints are the same integer operations on the edge list; a change of float format is the identity; a pad
  of no width is the identity, and the rows padded below the messages' operands are cut off again, a message
  row reading only its own row of each operand; and the mean is formed from two halves of 25 tiles of 1000
  rows, which is the segment mean (PoolAlgebra.lean). The stages are matched one after the other: messages,
  sums at the target nodes, node update, for each of the two layers, then the pool.
-/
import proofs.«415540_j56006373540375_3_alg».proof.Proof.KDefs
import proofs.«415540_j56006373540375_3_alg».proof.Proof.RefStages
import proofs.«415540_j56006373540375_3_alg».proof.Proof.PoolAlgebra
import proofs.«415540_j56006373540375_3_alg».proof.Proof.LibKeepdimsColumn
import Idealize.ShloMosaic.Lib.KernelVsHost
import Idealize.ShloMosaic.Lib.IdealHost
import Idealize.ShloMosaic.Lib.Pipeline.Value
import Idealize.ShloMosaic.PureOps.Ideal.Laws

noncomputable section

namespace Cert.Bridge

open Cert.KernelIdeal Cert.KernelIdeal.Gen Idealize.ShloMosaic Idealize.ShloMosaic.ValueIdx
open Cert.ReferenceIdeal.Read Cert.ReferenceIdeal.RefStages

variable (x0 : (⟨S50000x64, .f32⟩ : BufTy).Contents (Elt Ideal)) (x1 : (⟨S2x600000, .i32⟩ : BufTy).Contents (Elt Ideal))
  (x2 : (⟨S600000x3, .f32⟩ : BufTy).Contents (Elt Ideal)) (x3 : (⟨S50000, .i32⟩ : BufTy).Contents (Elt Ideal))
  (x4 : (⟨S3x64, .f32⟩ : BufTy).Contents (Elt Ideal)) (x5 : (⟨S64, .f32⟩ : BufTy).Contents (Elt Ideal))
  (x6 : (⟨S64x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S3x128, .f32⟩ : BufTy).Contents (Elt Ideal)) (x11 : (⟨S128, .f32⟩ : BufTy).Contents (Elt Ideal))
  (x12 : (⟨S128x128, .f32⟩ : BufTy).Contents (Elt Ideal)) (x13 : (⟨S128, .f32⟩ : BufTy).Contents (Elt Ideal))
  (x14 : (⟨S128x128, .f32⟩ : BufTy).Contents (Elt Ideal)) (x15 : (⟨S128, .f32⟩ : BufTy).Contents (Elt Ideal))

/-! ## The index columns: the same operations on the edge list, spelt in the two programs -/

theorem src_eq13 : K.src x1 = val_main_v13 (F := Ideal) x1 := rfl
theorem src_eq42 : K.src x1 = val_main_v42 (F := Ideal) x1 := rfl
theorem dst_eq18 : K.dst x1 = val_main_v18 (F := Ideal) x1 := rfl
theorem dst_eq47 : K.dst x1 = val_main_v47 (F := Ideal) x1 := rfl

/-! ## The dimension records of the gathers and scatters are the same records -/

theorem gather64_eq : Cert.KernelIdeal.gather_S50000x64_S600000x1_S600000x64_1_0_n_n_0_1_164
    = Cert.ReferenceIdeal.gather_S50000x64_S600000x1_S600000x64_1_0_n_n_0_1_164 := rfl
theorem gather128_eq : Cert.KernelIdeal.gather_S50000x128_S600000x1_S600000x128_1_0_n_n_0_1_1128
    = Cert.ReferenceIdeal.gather_S50000x128_S600000x1_S600000x128_1_0_n_n_0_1_1128 := rfl
theorem scatter64_eq : Cert.KernelIdeal.scatter_S50000x64_S600000x1_S600000x64_1_0_0_1
    = Cert.ReferenceIdeal.scatter_S50000x64_S600000x1_S600000x64_1_0_0_1 := rfl
theorem scatter128_eq : Cert.KernelIdeal.scatter_S50000x128_S600000x1_S600000x128_1_0_0_1
    = Cert.ReferenceIdeal.scatter_S50000x128_S600000x1_S600000x128_1_0_0_1 := rfl

/-! ## A change of float format is the identity on the extended reals -/

theorem truncf_id {s : Shape} {φ ψ : FTy} (x : FVec Ideal s φ) (h : ψ.bits < φ.bits) :
    (truncf (F := Ideal) ψ x h : FVec Ideal s ψ) = x := rfl
theorem extf_id {s : Shape} {φ ψ : FTy} (x : FVec Ideal s φ) (h : φ.bits < ψ.bits) :
    (extf (F := Ideal) ψ x h : FVec Ideal s ψ) = x := rfl

/-! ## A pad of no width is the identity; the graph-id column -/

/-- Padding a rank-2 array by nothing on every side leaves it as it is. -/
theorem pad_none {α : Type} {a b : Nat} (x : (⟨2, ![a, b]⟩ : Shape).Idx → α) {u : Shape} (v : u.Idx → α)
    (h : (⟨2, ![a, b]⟩ : Shape).Pads ![0, 0] ![0, 0] ![0, 0] ⟨2, ![a, b]⟩) (hu : 0 < u.numel) :
    pad ⟨2, ![a, b]⟩ ![0, 0] ![0, 0] ![0, 0] x v h hu = x := by
  funext j
  refine pad_apply_of_inside _ _ _ x v h hu j j fun ax => ?_
  match ax with
  | ⟨0, _⟩ => show (j 0).val = 0 + (j 0).val * (0 + 1); omega
  | ⟨1, _⟩ => show (j 1).val = 0 + (j 1).val * (0 + 1); omega

theorem pad64_id (a : Vec Ideal S50000x64 .f32) : K.pad64 a = a := pad_none a _ _ _
theorem pad128_id (a : Vec Ideal S50000x128 .f32) : K.pad128 a = a := pad_none a _ _ _

/-- The graph ids as a column: the cast of the id vector to a column is its broadcast along axis 0. -/
theorem ids_eq63 : K.ids x3 = val_main_v63 (F := Ideal) x3 := by
  unfold K.ids
  rw [pad_none]
  funext j
  obtain ⟨n, u, rfl⟩ : ∃ (n : Fin 50000) (u : Fin 1), j = ix2 n u := ⟨j 0, j 1, eq_ix2 j⟩
  rw [val_main_v63_apply]
  refine (Cert.LibKeepdimsColumn.shapeCast_a_a1_apply (a := 50000) x3 _ n u).trans ?_
  exact congrArg x3 (funext fun ax => match ax with | ⟨0, _⟩ => rfl)

/-! ## Cutting the padding rows off the messages -/

/-- An array of 600000 rows padded below to 606208 rows reads, at a row below 600000, the array. -/
theorem pad_rows_apply {D : Nat} (x : Cert.Spec.Arr2 600000 D) {u : Shape} (z : u.Idx → EReal)
    (hp : (⟨2, ![600000, D]⟩ : Shape).Pads ![0, 0] ![6208, 0] ![0, 0] ⟨2, ![606208, D]⟩) (hu : 0 < u.numel)
    (p : Fin 600000) (p' : Fin 606208) (hpp : p'.val = p.val) (q : Fin D) :
    pad ⟨2, ![606208, D]⟩ ![0, 0] ![6208, 0] ![0, 0] x z hp hu (ix2 p' q) = x (ix2 p q) := by
  refine pad_apply_of_inside _ _ _ x z hp hu _ _ fun ax => ?_
  match ax with
  | ⟨0, _⟩ => show p'.val = 0 + p.val * (0 + 1); omega
  | ⟨1, _⟩ => show q.val = 0 + q.val * (0 + 1); omega

/-- The messages of the padded rows and padded edge attributes, cut back to the first 600000 rows, are the
    messages of the rows and edge attributes: a message row reads its own row of each operand only. -/
theorem slice_msg_pad {D : Nat} (xg : Cert.Spec.Arr2 600000 D) (ea : Cert.Spec.Arr2 600000 3)
    (w : Cert.Spec.Arr2 3 D) (b : Cert.Spec.Arr1 D) {u u' : Shape} (z : u.Idx → EReal) (z' : u'.Idx → EReal)
    (hp : (⟨2, ![600000, D]⟩ : Shape).Pads ![0, 0] ![6208, 0] ![0, 0] ⟨2, ![606208, D]⟩) (hu : 0 < u.numel)
    (hp' : (⟨2, ![600000, 3]⟩ : Shape).Pads ![0, 0] ![6208, 0] ![0, 0] ⟨2, ![606208, 3]⟩) (hu' : 0 < u'.numel)
    (hs : (⟨2, ![606208, D]⟩ : Shape).Slices ![0, 0] ⟨2, ![600000, D]⟩) :
    extractStridedSlice ⟨2, ![600000, D]⟩ ![0, 0]
      (Cert.Spec.msg (E := 606208) (D := D) (pad ⟨2, ![606208, D]⟩ ![0, 0] ![6208, 0] ![0, 0] xg z hp hu)
        (pad ⟨2, ![606208, 3]⟩ ![0, 0] ![6208, 0] ![0, 0] ea z' hp' hu') w b) hs
      = Cert.Spec.msg (E := 600000) (D := D) xg ea w b := by
  funext i
  obtain ⟨p, q, rfl⟩ : ∃ (p : Fin 600000) (q : Fin D), i = ix2 p q := ⟨i 0, i 1, eq_ix2 i⟩
  have hp6 : p.val < 606208 := by have := p.isLt; omega
  refine (extractStridedSlice_apply ![0, 0] _ hs (ix2 p q) (ix2 (⟨p.val, hp6⟩ : Fin 606208) q) fun ax => ?_).trans ?_
  · match ax with
    | ⟨0, _⟩ => show p.val = 0 + p.val; omega
    | ⟨1, _⟩ => show q.val = 0 + q.val; omega
  · show max (pad ⟨2, ![606208, D]⟩ ![0, 0] ![6208, 0] ![0, 0] xg z hp hu (ix2 (⟨p.val, hp6⟩ : Fin 606208) q)
        + ((∑ k : Fin 3, pad ⟨2, ![606208, 3]⟩ ![0, 0] ![6208, 0] ![0, 0] ea z' hp' hu' (ix2 (⟨p.val, hp6⟩ : Fin 606208) k)
            * w (ix2 k q)) + b (ix1 q))) Cert.Spec.zero
      = max (xg (ix2 p q) + ((∑ k : Fin 3, ea (ix2 p k) * w (ix2 k q)) + b (ix1 q))) Cert.Spec.zero
    rw [pad_rows_apply xg z hp hu p ⟨p.val, hp6⟩ rfl q]
    simp only [pad_rows_apply ea z' hp' hu' p ⟨p.val, hp6⟩ rfl]

/-! ## The chain of stages: each array of the program's road is the reference's stage -/

theorem msg1_bridge : K.msg1 x0 x1 x2 x4 x5 = val_main_v16 (F := Ideal) x0 x1 x2 x4 x5 := by
  rw [msg1_eq]
  unfold K.msg1 K.xg1p K.eap val_main_v14
  rw [extf_id, slice_msg_pad, truncf_id, src_eq13, gather64_eq]

theorem agg1_bridge : K.agg1 x0 x1 x2 x4 x5 = val_main_v19 (F := Ideal) x0 x1 x2 x4 x5 := by
  unfold K.agg1 val_main_v19
  rw [msg1_bridge, dst_eq18, scatter64_eq]
  rfl

theorem h1_bridge : K.h1 x0 x1 x2 x4 x5 x6 x7 x8 x9 = val_main_v32 (F := Ideal) x0 x1 x2 x4 x5 x6 x7 x8 x9 := by
  unfold K.h1
  rw [pad64_id, pad64_id, agg1_bridge, h1_eq]

theorem msg2_bridge : K.msg2 x0 x1 x2 x4 x5 x6 x7 x8 x9 x10 x11
    = val_main_v45 (F := Ideal) x0 x1 x2 x4 x5 x6 x7 x8 x9 x10 x11 := by
  rw [msg2_eq]
  unfold K.msg2 K.xg2p K.eap val_main_v43
  rw [extf_id, slice_msg_pad, truncf_id, h1_bridge, src_eq42, gather128_eq]

theorem agg2_bridge : K.agg2 x0 x1 x2 x4 x5 x6 x7 x8 x9 x10 x11
    = val_main_v48 (F := Ideal) x0 x1 x2 x4 x5 x6 x7 x8 x9 x10 x11 := by
  unfold K.agg2 val_main_v48
  rw [msg2_bridge, dst_eq47, scatter128_eq]
  rfl

theorem h2_bridge : K.h2 x0 x1 x2 x4 x5 x6 x7 x8 x9 x10 x11 x12 x13 x14 x15
    = val_main_v61 (F := Ideal) x0 x1 x2 x4 x5 x6 x7 x8 x9 x10 x11 x12 x13 x14 x15 := by
  unfold K.h2
  rw [pad128_id, pad128_id, h1_bridge, agg2_bridge, h2_eq]

/-! ## The tail: the two halves added, the sums over max(count, 1) -/

/-- The index of a [2, 64, 128] array over (g, f) with c on the dropped first axis is (c, g, f). -/
theorem lift_sums (h : (⟨3, ![2, 64, 128]⟩ : Shape).Reduces [0] ⟨2, ![64, 128]⟩) (g : Fin 64) (f : Fin 128) (c : Fin 2) :
    h.lift (ix2 g f) c = ix3 c g f :=
  funext fun a => Fin.ext (by match a with | ⟨0, _⟩ => rfl | ⟨1, _⟩ => rfl | ⟨2, _⟩ => rfl)

/-- The same for a [2, 64, 1] array. -/
theorem lift_cnts (h : (⟨3, ![2, 64, 1]⟩ : Shape).Reduces [0] ⟨2, ![64, 1]⟩) (g : Fin 64) (u : Fin 1) (c : Fin 2) :
    h.lift (ix2 g u) c = ix3 c g u :=
  funext fun a => Fin.ext (by match a with | ⟨0, _⟩ => rfl | ⟨1, _⟩ => rfl | ⟨2, _⟩ => rfl)

/-- The program's last host operations form the mean of the two halves. -/
theorem tail_eq (s : Cert.Spec.Arr3 2 64 128) (n : Cert.Spec.Arr3 2 64 1) :
    Host.divf (F := Ideal)
      (Host.reduceAdd (F := Ideal) (s : Vec Ideal S2x64x128 .f32) (constant (F := Ideal) S_ .f32 0x00000000#32)
        reducesTo_S2x64x128_S64x128_d0 h_S_)
      (broadcastInDim S64x128 ![0, 1] bcast_S64x1_S64x128_0_1
        (maximumf (F := Ideal)
          (Host.reduceAdd (F := Ideal) (n : Vec Ideal S2x64x1 .f32) (constant (F := Ideal) S_ .f32 0x00000000#32)
            reducesTo_S2x64x1_S64x1_d0 h_S_)
          (broadcastInDim S64x1 ![] bcast_S_S64x1 (constant (F := Ideal) S_ .f32 0x3F800000#32))))
      = Cert.Spec.meanOf s n := by
  funext i
  obtain ⟨g, f, rfl⟩ : ∃ (g : Fin 64) (f : Fin 128), i = ix2 g f := ⟨i 0, i 1, eq_ix2 i⟩
  have hr : S2x64x128.Reduces [0] S64x128 := by decide
  have hr' : S2x64x1.Reduces [0] S64x1 := by decide
  rw [hostDivf_apply, hostReduceAdd_apply, Ideal.hostReduceAdd_single _ hr]
  rw [broadcastInDim_apply ![0, 1] bcast_S64x1_S64x128_0_1 _ (ix2 g f) (ix2 g (0 : Fin 1)) (fun a => match a with
    | ⟨0, _⟩ => by show g.val = if (64 : Nat) = 1 then 0 else g.val; rw [if_neg (by decide)]
    | ⟨1, _⟩ => by show 0 = if (1 : Nat) = 1 then 0 else f.val; rw [if_pos rfl])]
  rw [maximumf_apply, hostReduceAdd_apply, Ideal.hostReduceAdd_single _ hr', broadcastInDim_scalar_apply,
    constant_apply, constant_apply, Ideal.ofBits_zero_f32, zero_add, zero_add]
  show Ideal.div (∑ c : Fin 2, s (hr.lift (ix2 g f) c))
      (max (∑ c : Fin 2, n (hr'.lift (ix2 g (0 : Fin 1)) c)) Cert.Spec.one)
    = Ideal.div (∑ c : Fin 2, s (ix3 c g f)) (max (∑ c : Fin 2, n (ix3 c g (0 : Fin 1))) Cert.Spec.one)
  simp only [lift_sums, lift_cnts]

/-! ## The program's value is the reference's -/

/-- The program's result is the mean of its pooled sums and counts. -/
theorem out_eq_meanOf : K.out x0 x1 x2 x3 x4 x5 x6 x7 x8 x9 x10 x11 x12 x13 x14 x15
    = Cert.Spec.meanOf (K.sums x0 x1 x2 x3 x4 x5 x6 x7 x8 x9 x10 x11 x12 x13 x14 x15) (K.cnts x3) := by
  unfold K.out
  exact tail_eq _ _

/-- The kernel program's value and the reference's are one function of the arguments. -/
theorem kernel_eq_reference :
    Cert.KernelIdeal.K.out x0 x1 x2 x3 x4 x5 x6 x7 x8 x9 x10 x11 x12 x13 x14 x15
      = Cert.ReferenceIdeal.Read.val_main_v73 (F := Ideal) x0 x1 x2 x3 x4 x5 x6 x7 x8 x9 x10 x11 x12 x13 x14 x15 := by
  rw [out_eq_meanOf, out_eq]
  unfold K.sums K.cnts
  rw [Cert.Spec.meanOf_pool, h2_bridge, ids_eq63]

end Cert.Bridge

end
-- ==== Proof.lean ====
/-
  The certificate of a two-layer edge-conditioned graph network with a mean pool, tiled, against its plain
  reference.

  Both programs compute, for node features x, edges (src, dst) with attributes ea and graph ids b:
  layer by layer the messages relu(x[src] + (ea · W_e + b_e)), their sums at the target nodes, the node update
  relu(relu((1 · x + sum) · W_a + b_a) · W_b + b_b); then per graph the mean of its node rows, the sum over
  max(count, 1). The tiled program carries the gathered rows and the messages in a narrower float format, pads the
  edge arrays to whole tiles and cuts the padding off again, and pools by multiplying each tile of rows with the
  indicator matrix of its graph ids, in two halves added at the end. On the extended reals a change of format is
  the identity, the padding rows never meet a true row, and 0 · x = 0, 1 · x = x hold for every x, so the
  indicator products summed over the tiles are the rows of each graph summed: the two results are one function of
  the arguments. No law is used that fails at the infinities, so the precondition is not opened.

  The tiled program's run names its result buffer at the end of the fold through its host operations and regions
  (RunValue, Chain over Region0 … Region3); the reference's run is read stage by stage (RefStages); Bridge joins
  the two functions. The frames are the generated ones; the reference's frame is its run with the result dropped.
-/
import proofs.«415540_j56006373540375_3_alg».proof.Defs
import proofs.«415540_j56006373540375_3_alg».proof.Proof.Gen.Kernel
import proofs.«415540_j56006373540375_3_alg».proof.Proof.Gen.Kernel.Skeleton
import proofs.«415540_j56006373540375_3_alg».proof.Proof.Gen.Kernel.Launch
import proofs.«415540_j56006373540375_3_alg».proof.Proof.Gen.Kernel.Points
import proofs.«415540_j56006373540375_3_alg».proof.Proof.Gen.Kernel.Frame
import proofs.«415540_j56006373540375_3_alg».proof.Proof.Gen.KernelIdeal
import proofs.«415540_j56006373540375_3_alg».proof.Proof.Gen.KernelIdeal.Skeleton
import proofs.«415540_j56006373540375_3_alg».proof.Proof.Gen.KernelIdeal.Launch
import proofs.«415540_j56006373540375_3_alg».proof.Proof.Gen.KernelIdeal.Points
import proofs.«415540_j56006373540375_3_alg».proof.Proof.Gen.KernelIdeal.Frame
import proofs.«415540_j56006373540375_3_alg».proof.Proof.Gen.ReferenceIdeal
import proofs.«415540_j56006373540375_3_alg».proof.Proof.Gen.ReferenceIdeal.Run
import proofs.«415540_j56006373540375_3_alg».proof.Proof.Gen.ReferenceIdeal.Read
import proofs.«415540_j56006373540375_3_alg».proof.Proof.Gen.Pre_finite_inputs
import proofs.«415540_j56006373540375_3_alg».proof.Proof.RunValue
import proofs.«415540_j56006373540375_3_alg».proof.Proof.ChainD
import proofs.«415540_j56006373540375_3_alg».proof.Proof.Region0
import proofs.«415540_j56006373540375_3_alg».proof.Proof.Region1
import proofs.«415540_j56006373540375_3_alg».proof.Proof.Region2
import proofs.«415540_j56006373540375_3_alg».proof.Proof.Region3
import proofs.«415540_j56006373540375_3_alg».proof.Proof.RefStages
import proofs.«415540_j56006373540375_3_alg».proof.Proof.Bridge
import Idealize.ShloMosaic.Adequacy
import Idealize.ShloMosaic.Init

noncomputable section

namespace Cert.Proof

open Idealize.ShloMosaic Idealize.SL.Sem

/-- What each of the four tiled regions leaves in its output array. -/
theorem regions : Cert.KernelIdeal.Chain.Regions :=
  ⟨Cert.KernelIdeal.Region0.out_eq, Cert.KernelIdeal.Region1.out_eq, Cert.KernelIdeal.Region2.out_eq,
    Cert.KernelIdeal.Region3.sums_eq, Cert.KernelIdeal.Region3.cnts_eq⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at one function of the arguments: the tiled program's at `K.out` (the fold
    through @main), the reference's at its last stage, which is the same function (`Bridge`). -/
theorem algebraic : Cert.algebraic_KernelIdeal_ReferenceIdeal := by
  intro m ρ m' ρ' _ hagree
  refine ⟨fun c => Cert.KernelIdeal.K.out
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.Chain.result m ρ c regions), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v73_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    exact (Cert.Bridge.kernel_eq_reference _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
